-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v46)) (v1 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S1x128 : Shape := ⟨2, ![1, 128]⟩
abbrev S_ : Shape := ⟨0, ![]⟩
abbrev S100000 : Shape := ⟨1, ![100000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x128 : S_.BroadcastsInDim S1x128 (![] : Fin 0 → Fin S1x128.rank)
  reducesTo_S1x128_S_d0_1 : S1x128.ReducesTo [0, 1] S_
  reducesTo_S100000x128_S100000_d1 : S100000x128.ReducesTo [1] S100000
  bcast_S_S100000 : S_.BroadcastsInDim S100000 (![] : Fin 0 → Fin S100000.rank)
  reducesTo_S100000_S_d0 : S100000.ReducesTo [0] S_

variable [Facts]

def fn_part2 {F : FTy → Type} [FloatOps F] (main_arg4 : FVec F S1x128 .f32) (main_v32 : IVec S_ 1) : IVec S_ 1 :=
  let main_cst_13 : FVec F S_ .f32 := constant S_ .f32 0x00000000#32
  let main_v33 : FVec F S1x128 .f32 := broadcastInDim S1x128 ![] bcast_S_S1x128 main_cst_13
  let main_v34 : IVec S1x128 1 := cmpf .une main_arg4 main_v33
  let main_c_14 : IVec S_ 1 := constantI S_ 1 1#1
  let main_v35 : IVec S_ 1 := (fun x v => Host.reduce IntOp.andi x v reducesTo_S1x128_S_d0_1 h_S_) main_v34 main_c_14
  let main_v36 : IVec S_ 1 := andi main_v32 main_v35
  main_v36

def fn_part1 {F : FTy → Type} [FloatOps F] (main_arg0 : FVec F S100000x128 .f32) (main_arg2 : FVec F S1x128 .f32) (main_arg3 : FVec F S1x128 .f32) (main_arg4 : FVec F S1x128 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S100000x128 .f32 := mulf main_arg0 main_arg0
  let main_cst_6 : FVec F S_ .f32 := constant S_ .f32 0x00000000#32
  let main_v20 : FVec F S100000 .f32 := (fun x v => Host.reduceAdd x v reducesTo_S100000x128_S100000_d1 h_S_) main_v19 main_cst_6
  let main_cst_7 : FVec F S_ .f32 := constant S_ .f32 0x00000000#32
  let main_v21 : FVec F S100000 .f32 := broadcastInDim S100000 ![] bcast_S_S100000 main_cst_7
  let main_v22 : IVec S100000 1 := cmpf .ogt main_v20 main_v21
  let main_c_8 : IVec S_ 1 := constantI S_ 1 1#1
  let main_v23 : IVec S_ 1 := (fun x v => Host.reduce IntOp.andi x v reducesTo_S100000_S_d0 h_S_) main_v22 main_c_8
  let main_v24 : IVec S_ 1 := andi main_v18 main_v23
  let main_cst_9 : FVec F S_ .f32 := constant S_ .f32 0x00000000#32
  let main_v25 : FVec F S1x128 .f32 := broadcastInDim S1x128 ![] bcast_S_S1x128 main_cst_9
  let main_v26 : IVec S1x128 1 := cmpf .une main_arg2 main_v25
  let main_c_10 : IVec S_ 1 := constantI S_ 1 1#1
  let main_v27 : IVec S_ 1 := (fun x v => Host.reduce IntOp.andi x v reducesTo_S1x128_S_d0_1 h_S_) main_v26 main_c_10
  let main_v28 : IVec S_ 1 := andi main_v24 main_v27
  let main_cst_11 : FVec F S_ .f32 := constant S_ .f32 0x00000000#32
  let main_v29 : FVec F S1x128 .f32 := broadcastInDim S1x128 ![] bcast_S_S1x128 main_cst_11
  let main_v30 : IVec S1x128 1 := cmpf .une main_arg3 main_v29
  let main_c_12 : IVec S_ 1 := constantI S_ 1 1#1
  let main_v31 : IVec S_ 1 := (fun x v => Host.reduce IntOp.andi x v reducesTo_S1x128_S_d0_1 h_S_) main_v30 main_c_12
  let main_v32 : IVec S_ 1 := andi main_v28 main_v31
  fn_part2 (F := F) main_arg4 main_v32

def fn {F : FTy → Type} [FloatOps F] (main_arg0 : FVec F S100000x128 .f32) (main_arg1 : IVec S2x640000 32) (main_arg2 : FVec F S1x128 .f32) (main_arg3 : FVec F S1x128 .f32) (main_arg4 : FVec F S1x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1x128 .f32 := Host.absf main_arg4
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg0 main_arg2 main_arg3 main_arg4 main_v13 main_v16
-- ==== Kernel.lean ====
abbrev S100000x128 : Shape := ⟨2, ![100000, 128]⟩
abbrev S2x640000 : Shape := ⟨2, ![2, 640000]⟩
abbrev S1x128 : Shape := ⟨2, ![1, 128]⟩
abbrev S1x640000 : Shape := ⟨2, ![1, 640000]⟩
abbrev S640000 : Shape := ⟨1, ![640000]⟩
abbrev S100000x1 : Shape := ⟨2, ![100000, 1]⟩
abbrev S5000x128 : Shape := ⟨2, ![5000, 128]⟩
abbrev S5000x1 : Shape := ⟨2, ![5000, 1]⟩
abbrev S5000 : Shape := ⟨1, ![5000]⟩
abbrev S_ : Shape := ⟨0, ![]⟩
abbrev S640000x1 : Shape := ⟨2, ![640000, 1]⟩
abbrev S640000x128 : Shape := ⟨2, ![640000, 128]⟩
abbrev S8000x128 : Shape := ⟨2, ![8000, 128]⟩
abbrev S8000x1 : Shape := ⟨2, ![8000, 1]⟩
abbrev S8000 : Shape := ⟨1, ![8000]⟩
abbrev S100000 : Shape := ⟨1, ![100000]⟩

abbrev nBuf : Space → Nat
  | .hbm => 106
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S2x640000, .i32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x640000, .i32⟩
  | .hbm, ⟨6, _⟩ => ⟨S640000, .i32⟩
  | .hbm, ⟨7, _⟩ => ⟨S1x640000, .i32⟩
  | .hbm, ⟨8, _⟩ => ⟨S640000, .i32⟩
  | .hbm, ⟨9, _⟩ => ⟨S100000x1, .f32⟩
  | .hbm, ⟨10, _⟩ => ⟨S_, .f32⟩
  | .hbm, ⟨11, _⟩ => ⟨S100000x1, .f32⟩
  | .hbm, ⟨12, _⟩ => ⟨S100000x1, .f32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x128, .f32⟩
  | .hbm, ⟨31, _⟩ => ⟨S_, .i32⟩
  | .hbm, ⟨32, _⟩ => ⟨S640000, .i32⟩
  | .hbm, ⟨33, _⟩ => ⟨S640000, .i1⟩
  | .hbm, ⟨34, _⟩ => ⟨S_, .i32⟩
  | .hbm, ⟨35, _⟩ => ⟨S640000, .i32⟩
  | .hbm, ⟨36, _⟩ => ⟨S640000, .i32⟩
  | .hbm, ⟨37, _⟩ => ⟨S640000, .i32⟩
  | .hbm, ⟨38, _⟩ => ⟨S640000x1, .i32⟩
  | .hbm, ⟨39, _⟩ => ⟨S640000x1, .f32⟩
  | .hbm, ⟨40, _⟩ => ⟨S_, .i32⟩
  | .hbm, ⟨41, _⟩ => ⟨S640000, .i32⟩
  | .hbm, ⟨42, _⟩ => ⟨S640000, .i1⟩
  | .hbm, ⟨43, _⟩ => ⟨S_, .i32⟩
  | .hbm, ⟨44, _⟩ => ⟨S640000, .i32⟩
  | .hbm, ⟨45, _⟩ => ⟨S640000, .i32⟩
  | .hbm, ⟨46, _⟩ => ⟨S640000, .i32⟩
  | .hbm, ⟨47, _⟩ => ⟨S640000x1, .i32⟩
  | .hbm, ⟨48, _⟩ => ⟨S640000x1, .f32⟩
  | .hbm, ⟨49, _⟩ => ⟨S640000x1, .f32⟩
  | .hbm, ⟨50, _⟩ => ⟨S640000, .f32⟩
  | .hbm, ⟨51, _⟩ => ⟨S_, .f32⟩
  | .hbm, ⟨52, _⟩ => ⟨S100000, .f32⟩
  | .hbm, ⟨53, _⟩ => ⟨S640000x1, .i32⟩
  | .hbm, ⟨54, _⟩ => ⟨S100000, .f32⟩
  | .hbm, ⟨55, _⟩ => ⟨S_, .f32⟩
  | .hbm, ⟨56, _⟩ => ⟨S640000, .f32⟩
  | .hbm, ⟨57, _⟩ => ⟨S_, .f32⟩
  | .hbm, ⟨58, _⟩ => ⟨S100000, .f32⟩
  | .hbm, ⟨59, _⟩ => ⟨S640000x1, .i32⟩
  | .hbm, ⟨60, _⟩ => ⟨S100000, .f32⟩
  | .hbm, ⟨61, _⟩ => ⟨S100000x1, .f32⟩
  | .hbm, ⟨62, _⟩ => ⟨S100000x1, .f32⟩
  | .hbm, ⟨63, _⟩ => ⟨S100000x128, .f32⟩
  | .hbm, ⟨64, _⟩ => ⟨S100000x1, .f32⟩
  | .hbm, ⟨65, _⟩ => ⟨S_, .i32⟩
  | .hbm, ⟨66, _⟩ => ⟨S640000, .i32⟩
  | .hbm, ⟨67, _⟩ => ⟨S640000, .i1⟩
  | .hbm, ⟨68, _⟩ => ⟨S_, .i32⟩
  | .hbm, ⟨69, _⟩ => ⟨S640000, .i32⟩
  | .hbm, ⟨70, _⟩ => ⟨S640000, .i32⟩
  | .hbm, ⟨71, _⟩ => ⟨S640000, .i32⟩
  | .hbm, ⟨72, _⟩ => ⟨S640000x1, .i32⟩
  | .hbm, ⟨73, _⟩ => ⟨S640000x128, .f32⟩
  | .hbm, ⟨74, _⟩ => ⟨S_, .i32⟩
  | .hbm, ⟨75, _⟩ => ⟨S640000, .i32⟩
  | .hbm, ⟨76, _⟩ => ⟨S640000, .i1⟩
  | .hbm, ⟨77, _⟩ => ⟨S_, .i32⟩
  | .hbm, ⟨78, _⟩ => ⟨S640000, .i32⟩
  | .hbm, ⟨79, _⟩ => ⟨S640000, .i32⟩
  | .hbm, ⟨80, _⟩ => ⟨S640000, .i32⟩
  | .hbm, ⟨81, _⟩ => ⟨S640000x1, .i32⟩
  | .hbm, ⟨82, _⟩ => ⟨S640000x128, .f32⟩
  | .hbm, ⟨83, _⟩ => ⟨S_, .i32⟩
  | .hbm, ⟨84, _⟩ => ⟨S640000, .i32⟩
  | .hbm, ⟨85, _⟩ => ⟨S640000, .i1⟩
  | .hbm, ⟨86, _⟩ => ⟨S_, .i32⟩
  | .hbm, ⟨87, _⟩ => ⟨S640000, .i32⟩
  | .hbm, ⟨88, _⟩ => ⟨S640000, .i32⟩
  | .hbm, ⟨89, _⟩ => ⟨S640000, .i32⟩
  | .hbm, ⟨90, _⟩ => ⟨S640000x1, .i32⟩
  | .hbm, ⟨91, _⟩ => ⟨S640000x1, .f32⟩
  | .hbm, ⟨92, _⟩ => ⟨S_, .i32⟩
  | .hbm, ⟨93, _⟩ => ⟨S640000, .i32⟩
  | .hbm, ⟨94, _⟩ => ⟨S640000, .i1⟩
  | .hbm, ⟨95, _⟩ => ⟨S_, .i32⟩
  | .hbm, ⟨96, _⟩ => ⟨S640000, .i32⟩
  | .hbm, ⟨97, _⟩ => ⟨S640000, .i32⟩
  | .hbm, ⟨98, _⟩ => ⟨S640000, .i32⟩
  | .hbm, ⟨99, _⟩ => ⟨S640000x1, .i32⟩
  | .hbm, ⟨100, _⟩ => ⟨S640000x1, .f32⟩
  | .hbm, ⟨101, _⟩ => ⟨S640000x1, .f32⟩
  | .hbm, ⟨102, _⟩ => ⟨S640000, .f32⟩
  | .hbm, ⟨103, _⟩ => ⟨S_, .f32⟩
  | .hbm, ⟨104, _⟩ => ⟨S640000, .f32⟩
  | .hbm, ⟨105, _⟩ => ⟨S640000, .i1⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S8000x128, .f32⟩
  | .local _ .vmem, ⟨5, _⟩ => ⟨S8000x128, .f32⟩
  | .local _ .vmem, ⟨6, _⟩ => ⟨S8000x128, .f32⟩
  | .local _ .vmem, ⟨7, _⟩ => ⟨S8000x128, .f32⟩
  | .local _ .vmem, ⟨8, _⟩ => ⟨S8000x1, .f32⟩
  | .local _ .vmem, ⟨9, _⟩ => ⟨S8000x1, .f32⟩
  | .local _ .vmem, ⟨10, _⟩ => ⟨S8000x1, .f32⟩
  | .local _ .vmem, ⟨11, _⟩ => ⟨S8000x1, .f32⟩
  | .local _ .vmem, ⟨12, _⟩ => ⟨S8000x1, .f32⟩
  | .local _ .vmem, ⟨13, _⟩ => ⟨S8000x1, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S5000x1, .f32⟩
  | .local _ .vmem, ⟨19, _⟩ => ⟨S5000x1, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x1, .f32⟩
  | .local _ .vmem, ⟨28, _⟩ => ⟨S5000x1, .f32⟩
  | .local _ .vmem, ⟨29, _⟩ => ⟨S8000x128, .f32⟩
  | .local _ .vmem, ⟨30, _⟩ => ⟨S8000x128, .f32⟩
  | .local _ .vmem, ⟨31, _⟩ => ⟨S8000x128, .f32⟩
  | .local _ .vmem, ⟨32, _⟩ => ⟨S8000x128, .f32⟩
  | .local _ .vmem, ⟨33, _⟩ => ⟨S8000x1, .f32⟩
  | .local _ .vmem, ⟨34, _⟩ => ⟨S8000x1, .f32⟩
  | .local _ .vmem, ⟨35, _⟩ => ⟨S8000x1, .f32⟩
  | .local _ .vmem, ⟨36, _⟩ => ⟨S8000x1, .f32⟩
  | .local _ .vmem, ⟨37, _⟩ => ⟨S8000x1, .f32⟩
  | .local _ .vmem, ⟨38, _⟩ => ⟨S8000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_3 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_c_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_10 : Ref sig .tc := ⟨.hbm, 65, rfl⟩
abbrev main_v48 : Ref sig .tc := ⟨.hbm, 66, rfl⟩
abbrev main_v49 : Ref sig .tc := ⟨.hbm, 67, rfl⟩
abbrev main_c_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_12 : Ref sig .tc := ⟨.hbm, 74, rfl⟩
abbrev main_v55 : Ref sig .tc := ⟨.hbm, 75, rfl⟩
abbrev main_v56 : Ref sig .tc := ⟨.hbm, 76, rfl⟩
abbrev main_c_13 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_c_14 : Ref sig .tc := ⟨.hbm, 83, rfl⟩
abbrev main_v62 : Ref sig .tc := ⟨.hbm, 84, rfl⟩
abbrev main_v63 : Ref sig .tc := ⟨.hbm, 85, rfl⟩
abbrev main_c_15 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_16 : Ref sig .tc := ⟨.hbm, 92, rfl⟩
abbrev main_v69 : Ref sig .tc := ⟨.hbm, 93, rfl⟩
abbrev main_v70 : Ref sig .tc := ⟨.hbm, 94, rfl⟩
abbrev main_c_17 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_cst_18 : Ref sig .tc := ⟨.hbm, 103, rfl⟩
abbrev main_v78 : Ref sig .tc := ⟨.hbm, 104, rfl⟩
abbrev main_v79 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg6_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg3_1 : Ref sig .tc := ⟨.vmem, 36, rfl⟩
abbrev cc4_stg4_0 : Ref sig .tc := ⟨.vmem, 37, rfl⟩
abbrev cc4_stg4_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem6_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc4_sem0_0 : DmaSem sig := 29
abbrev cc4_sem0_1 : DmaSem sig := 30
abbrev cc4_sem1_0 : DmaSem sig := 31
abbrev cc4_sem1_1 : DmaSem sig := 32
abbrev cc4_sem2_0 : DmaSem sig := 33
abbrev cc4_sem2_1 : DmaSem sig := 34
abbrev cc4_sem3_0 : DmaSem sig := 35
abbrev cc4_sem3_1 : DmaSem sig := 36
abbrev cc4_sem4_0 : DmaSem sig := 37
abbrev cc4_sem4_1 : DmaSem sig := 38

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![80], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![80], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8000x1 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S8000x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  inb_S5000x128_S5000x128_0_0 : ∀ a, (![0, 0] : Fin 2 → Nat) a + S5000x128.size a ≤ S5000x128.size a
  h_S5000x128 : 0 < S5000x128.numel
  reduces_S5000x128_S5000 : S5000x128.Reduces [1] S5000
  shapeCasts_S5000_S5000x1 : S5000.ShapeCasts S5000x1
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  bcast_S_S640000 : S_.BroadcastsInDim S640000 (![] : Fin 0 → Fin S640000.rank)
  bcast_S640000_S640000x1_0 : S640000.BroadcastsInDim S640000x1 (![0] : Fin 1 → Fin S640000x1.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  reduces_S8000x128_S8000 : S8000x128.Reduces [1] S8000
  shapeCasts_S8000_S8000x1 : S8000.ShapeCasts S8000x1
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  shapeCasts_S640000x1_S640000 : S640000x1.ShapeCasts S640000
  bcast_S_S100000 : S_.BroadcastsInDim S100000 (![] : Fin 0 → Fin S100000.rank)
  bcast_S100000_S100000x1_0 : S100000.BroadcastsInDim S100000x1 (![0] : Fin 1 → Fin S100000x1.rank)
  shapeCasts_S5000x1_S5000x1 : S5000x1.ShapeCasts S5000x1
  natLt_1_32 : 1 < 32
  inb_S1x128_S1x128_0_0 : ∀ a, (![0, 0] : Fin 2 → Nat) a + S1x128.size a ≤ S1x128.size a
  h_S1x128 : 0 < S1x128.numel
  broadcasts_S5000x1_S5000x128 : S5000x1.Broadcasts S5000x128
  broadcasts_S1x128_S5000x128 : S1x128.Broadcasts S5000x128
  shapeCasts_S5000x128_S5000x128 : S5000x128.ShapeCasts S5000x128
  gather_S100000x128_S640000x1_S640000x128_1_0_n_n_0_1_1128_wf : GatherDims.WF S100000x128 S640000x1 S640000x128 [1] [0] [] [0] [] 1 ![1, 128]
  gather_S100000x1_S640000x1_S640000x1_1_0_n_n_0_1_11_wf : GatherDims.WF S100000x1 S640000x1 S640000x1 [1] [0] [] [0] [] 1 ![1, 1]
  scatter_S100000_S640000x1_S640000_n_0_0_1_wf : ScatterDims.WF S100000 S640000x1 S640000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x128.size a ≤ S640000x128.size a
  hwx1_0 : ∀ i : grid1.Coords, EltTy.bits .f32 = 32 ∨ (Rect.block (s := S640000x128) S8000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x128.size a ≤ S640000x128.size a
  hwx1_1 : ∀ i : grid1.Coords, EltTy.bits .f32 = 32 ∨ (Rect.block (s := S640000x128) S8000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8000x1.size a ≤ S640000x1.size a
  hwx1_2 : ∀ i : grid1.Coords, EltTy.bits .f32 = 32 ∨ (Rect.block (s := S640000x1) S8000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x1.size a ≤ S640000x1.size a
  hwx1_3 : ∀ i : grid1.Coords, EltTy.bits .f32 = 32 ∨ (Rect.block (s := S640000x1) S8000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8000x1.size a ≤ S640000x1.size a
  hwx1_4 : ∀ i : grid1.Coords, EltTy.bits .f32 = 32 ∨ (Rect.block (s := S640000x1) S8000x1.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S100000x128.size a
  hwx2_6 : ∀ i : grid2.Coords, EltTy.bits .f32 = 32 ∨ (Rect.block (s := S100000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8000x128.size a ≤ S640000x128.size a
  hwx4_0 : ∀ i : grid4.Coords, EltTy.bits .f32 = 32 ∨ (Rect.block (s := S640000x128) S8000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8000x128.size a ≤ S640000x128.size a
  hwx4_1 : ∀ i : grid4.Coords, EltTy.bits .f32 = 32 ∨ (Rect.block (s := S640000x128) S8000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8000x1.size a ≤ S640000x1.size a
  hwx4_2 : ∀ i : grid4.Coords, EltTy.bits .f32 = 32 ∨ (Rect.block (s := S640000x1) S8000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8000x1.size a ≤ S640000x1.size a
  hwx4_3 : ∀ i : grid4.Coords, EltTy.bits .f32 = 32 ∨ (Rect.block (s := S640000x1) S8000x1.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8000x1.size a ≤ S640000x1.size a
  hwx4_4 : ∀ i : grid4.Coords, EltTy.bits .f32 = 32 ∨ (Rect.block (s := S640000x1) S8000x1.size (cc4_transform_4 i) (hinb4_4 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def gather_S100000x1_S640000x1_S640000x1_1_0_n_n_0_1_11 : GatherDims S100000x1 S640000x1 S640000x1 where
  offsetDims := [1]
  collapsedSliceDims := [0]
  operandBatchingDims := []
  startIndicesBatchingDims := []
  startIndexMap := [0]
  indexVectorDim := 1
  sliceSizes := ![1, 1]
  wf := gather_S100000x1_S640000x1_S640000x1_1_0_n_n_0_1_11_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v13) S8000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S8000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S8000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34) S8000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v35) S8000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg2) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg3) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg4) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v47) S5000x1.size cc3_transform_1 reads3_1 true false 2 stage3_1 sem3_1
    hrank3 hreads3_1 hinb3_1 nbuf3_1 (Memref.isWhole_whole _) hwx3_1 hstage3_1

abbrev win3 : Fin 2 → Pipeline.Window sig grid3 := fun | 0 => win3_0 | 1 => win3_1 | ⟨_ + 2, h⟩ => absurd h (Nat.not_lt.2 (Nat.le_add_left _ _))
abbrev spec3 : Fin 2 → Pipeline.WinSpec sig grid3.rank := fun w => (win3 w).toWinSpec

abbrev win4_0 : Pipeline.Window sig grid4 :=
  Pipeline.Window.ofSpec (Memref.whole main_v54) S8000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S8000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v68) S8000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v75) S8000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v76) S8000x1.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S1x128 : Shape := ⟨2, ![1, 128]⟩
abbrev S1x640000 : Shape := ⟨2, ![1, 640000]⟩
abbrev S640000 : Shape := ⟨1, ![640000]⟩
abbrev S_ : Shape := ⟨0, ![]⟩
abbrev S100000 : Shape := ⟨1, ![100000]⟩
abbrev S100000x1 : Shape := ⟨2, ![100000, 1]⟩
abbrev S640000x1 : Shape := ⟨2, ![640000, 1]⟩
abbrev S640000x128 : Shape := ⟨2, ![640000, 128]⟩
abbrev S100000x3 : Shape := ⟨2, ![100000, 3]⟩
abbrev S3x128 : Shape := ⟨2, ![3, 128]⟩
abbrev S100000x3x1 : Shape := ⟨3, ![100000, 3, 1]⟩
abbrev S1x3x128 : Shape := ⟨3, ![1, 3, 128]⟩
abbrev S100000x3x128 : Shape := ⟨3, ![100000, 3, 128]⟩

abbrev nBuf : Space → Nat
  | .hbm => 157
  | .vmem => 0
  | .smem => 0
  | _ => 0

abbrev hbmTy0_0 (i : Nat) : BufTy := match i % 128 with
  | 0 => ⟨S100000x128, .f32⟩
  | 1 => ⟨S2x640000, .i32⟩
  | 2 => ⟨S1x128, .f32⟩
  | 3 => ⟨S1x128, .f32⟩
  | 4 => ⟨S1x128, .f32⟩
  | 5 => ⟨S1x640000, .i32⟩
  | 6 => ⟨S640000, .i32⟩
  | 7 => ⟨S1x640000, .i32⟩
  | 8 => ⟨S640000, .i32⟩
  | 9 => ⟨S100000x128, .f32⟩
  | 10 => ⟨S_, .f32⟩
  | 11 => ⟨S100000, .f32⟩
  | 12 => ⟨S100000x1, .f32⟩
  | 13 => ⟨S100000x1, .f32⟩
  | 14 => ⟨S100000x128, .f32⟩
  | 15 => ⟨S100000x128, .f32⟩
  | 16 => ⟨S_, .i32⟩
  | 17 => ⟨S640000, .i32⟩
  | 18 => ⟨S640000, .i1⟩
  | 19 => ⟨S_, .i32⟩
  | 20 => ⟨S640000, .i32⟩
  | 21 => ⟨S640000, .i32⟩
  | 22 => ⟨S640000, .i32⟩
  | 23 => ⟨S640000x1, .i32⟩
  | 24 => ⟨S640000x128, .f32⟩
  | 25 => ⟨S_, .i32⟩
  | 26 => ⟨S640000, .i32⟩
  | 27 => ⟨S640000, .i1⟩
  | 28 => ⟨S_, .i32⟩
  | 29 => ⟨S640000, .i32⟩
  | 30 => ⟨S640000, .i32⟩
  | 31 => ⟨S640000, .i32⟩
  | 32 => ⟨S640000x1, .i32⟩
  | 33 => ⟨S640000x128, .f32⟩
  | 34 => ⟨S640000x128, .f32⟩
  | 35 => ⟨S_, .f32⟩
  | 36 => ⟨S640000, .f32⟩
  | 37 => ⟨S_, .f32⟩
  | 38 => ⟨S100000, .f32⟩
  | 39 => ⟨S640000x1, .i32⟩
  | 40 => ⟨S100000, .f32⟩
  | 41 => ⟨S_, .f32⟩
  | 42 => ⟨S640000, .f32⟩
  | 43 => ⟨S_, .f32⟩
  | 44 => ⟨S100000, .f32⟩
  | 45 => ⟨S640000x1, .i32⟩
  | 46 => ⟨S100000, .f32⟩
  | 47 => ⟨S_, .f32⟩
  | 48 => ⟨S100000, .f32⟩
  | 49 => ⟨S100000, .i1⟩
  | 50 => ⟨S_, .f32⟩
  | 51 => ⟨S100000, .f32⟩
  | 52 => ⟨S100000, .f32⟩
  | 53 => ⟨S100000, .f32⟩
  | 54 => ⟨S_, .f32⟩
  | 55 => ⟨S_, .f32⟩
  | 56 => ⟨S100000, .f32⟩
  | 57 => ⟨S100000, .f32⟩
  | 58 => ⟨S_, .f32⟩
  | 59 => ⟨S100000, .f32⟩
  | 60 => ⟨S100000, .i1⟩
  | 61 => ⟨S_, .f32⟩
  | 62 => ⟨S100000, .f32⟩
  | 63 => ⟨S100000, .i1⟩
  | 64 => ⟨S100000, .i1⟩
  | 65 => ⟨S100000, .i1⟩
  | 66 => ⟨S100000x1, .i1⟩
  | 67 => ⟨S100000x1, .i1⟩
  | 68 => ⟨S100000x1, .i1⟩
  | 69 => ⟨S100000x3, .i1⟩
  | 70 => ⟨S3x128, .f32⟩
  | 71 => ⟨S100000x3x1, .i1⟩
  | 72 => ⟨S100000x3x1, .f32⟩
  | 73 => ⟨S1x3x128, .f32⟩
  | 74 => ⟨S100000x3x128, .f32⟩
  | 75 => ⟨S100000x3x128, .f32⟩
  | 76 => ⟨S100000x3x128, .f32⟩
  | 77 => ⟨S_, .f32⟩
  | 78 => ⟨S100000x3x128, .f32⟩
  | 79 => ⟨S100000x3x128, .i1⟩
  | 80 => ⟨S_, .i1⟩
  | 81 => ⟨S100000x3, .i1⟩
  | 82 => ⟨S100000x3, .i32⟩
  | 83 => ⟨S_, .i32⟩
  | 84 => ⟨S100000, .i32⟩
  | 85 => ⟨S100000x1, .i32⟩
  | 86 => ⟨S100000x1, .f32⟩
  | 87 => ⟨S_, .f32⟩
  | 88 => ⟨S100000x1, .f32⟩
  | 89 => ⟨S100000x1, .i1⟩
  | 90 => ⟨S_, .f32⟩
  | 91 => ⟨S100000x128, .f32⟩
  | 92 => ⟨S_, .f32⟩
  | 93 => ⟨S100000x1, .f32⟩
  | 94 => ⟨S100000x1, .f32⟩
  | 95 => ⟨S100000x128, .f32⟩
  | 96 => ⟨S100000x128, .f32⟩
  | 97 => ⟨S_, .f32⟩
  | 98 => ⟨S_, .f32⟩
  | 99 => ⟨S100000x128, .i1⟩
  | 100 => ⟨S100000x128, .f32⟩
  | 101 => ⟨S100000x128, .f32⟩
  | 102 => ⟨S100000x128, .f32⟩
  | 103 => ⟨S100000x128, .f32⟩
  | 104 => ⟨S_, .f32⟩
  | 105 => ⟨S100000, .f32⟩
  | 106 => ⟨S100000, .f32⟩
  | 107 => ⟨S_, .i32⟩
  | 108 => ⟨S640000, .i32⟩
  | 109 => ⟨S640000, .i1⟩
  | 110 => ⟨S_, .i32⟩
  | 111 => ⟨S640000, .i32⟩
  | 112 => ⟨S640000, .i32⟩
  | 113 => ⟨S640000, .i32⟩
  | 114 => ⟨S640000x1, .i32⟩
  | 115 => ⟨S640000, .f32⟩
  | 116 => ⟨S_, .f32⟩
  | 117 => ⟨S640000, .f32⟩
  | 118 => ⟨S640000, .f32⟩
  | 119 => ⟨S_, .i32⟩
  | 120 => ⟨S640000, .i32⟩
  | 121 => ⟨S640000, .i1⟩
  | 122 => ⟨S_, .i32⟩
  | 123 => ⟨S640000, .i32⟩
  | 124 => ⟨S640000, .i32⟩
  | 125 => ⟨S640000, .i32⟩
  | 126 => ⟨S640000x1, .i32⟩
  | 127 => ⟨S640000, .f32⟩
  | _ => ⟨S100000x128, .f32⟩

abbrev hbmTy0_1 (i : Nat) : BufTy := match i % 128 with
  | 0 => ⟨S_, .f32⟩
  | 1 => ⟨S640000, .f32⟩
  | 2 => ⟨S640000, .f32⟩
  | 3 => ⟨S_, .i32⟩
  | 4 => ⟨S640000, .i32⟩
  | 5 => ⟨S640000, .i1⟩
  | 6 => ⟨S_, .i32⟩
  | 7 => ⟨S640000, .i32⟩
  | 8 => ⟨S640000, .i32⟩
  | 9 => ⟨S640000, .i32⟩
  | 10 => ⟨S640000x1, .i32⟩
  | 11 => ⟨S640000x128, .f32⟩
  | 12 => ⟨S_, .i32⟩
  | 13 => ⟨S640000, .i32⟩
  | 14 => ⟨S640000, .i1⟩
  | 15 => ⟨S_, .i32⟩
  | 16 => ⟨S640000, .i32⟩
  | 17 => ⟨S640000, .i32⟩
  | 18 => ⟨S640000, .i32⟩
  | 19 => ⟨S640000x1, .i32⟩
  | 20 => ⟨S640000x128, .f32⟩
  | 21 => ⟨S640000x128, .f32⟩
  | 22 => ⟨S_, .f32⟩
  | 23 => ⟨S640000, .f32⟩
  | 24 => ⟨S640000, .f32⟩
  | 25 => ⟨S640000, .f32⟩
  | 26 => ⟨S_, .f32⟩
  | 27 => ⟨S640000, .f32⟩
  | 28 => ⟨S640000, .i1⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_c_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_c_1 : Ref sig .tc := ⟨.hbm, 25, rfl⟩
abbrev main_v17 : Ref sig .tc := ⟨.hbm, 26, rfl⟩
abbrev main_v18 : Ref sig .tc := ⟨.hbm, 27, rfl⟩
abbrev main_c_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_call0_v0 : Ref sig .tc := ⟨.hbm, 55, rfl⟩
abbrev main_call0_v1 : Ref sig .tc := ⟨.hbm, 56, rfl⟩
abbrev main_v38 : Ref sig .tc := ⟨.hbm, 57, rfl⟩
abbrev main_cst_10 : Ref sig .tc := ⟨.hbm, 58, rfl⟩
abbrev main_v39 : Ref sig .tc := ⟨.hbm, 59, rfl⟩
abbrev main_v40 : Ref sig .tc := ⟨.hbm, 60, rfl⟩
abbrev main_cst_11 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_c_13 : Ref sig .tc := ⟨.hbm, 80, rfl⟩
abbrev main_v58 : Ref sig .tc := ⟨.hbm, 81, rfl⟩
abbrev main_v59 : Ref sig .tc := ⟨.hbm, 82, rfl⟩
abbrev main_c_14 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_cst_17 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_18 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_19 : Ref sig .tc := ⟨.hbm, 104, rfl⟩
abbrev main_v73 : Ref sig .tc := ⟨.hbm, 105, rfl⟩
abbrev main_v74 : Ref sig .tc := ⟨.hbm, 106, rfl⟩
abbrev main_c_20 : Ref sig .tc := ⟨.hbm, 107, rfl⟩
abbrev main_v75 : Ref sig .tc := ⟨.hbm, 108, rfl⟩
abbrev main_v76 : Ref sig .tc := ⟨.hbm, 109, rfl⟩
abbrev main_c_21 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_22 : Ref sig .tc := ⟨.hbm, 116, rfl⟩
abbrev main_v82 : Ref sig .tc := ⟨.hbm, 117, rfl⟩
abbrev main_v83 : Ref sig .tc := ⟨.hbm, 118, rfl⟩
abbrev main_c_23 : Ref sig .tc := ⟨.hbm, 119, rfl⟩
abbrev main_v84 : Ref sig .tc := ⟨.hbm, 120, rfl⟩
abbrev main_v85 : Ref sig .tc := ⟨.hbm, 121, rfl⟩
abbrev main_c_24 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_25 : Ref sig .tc := ⟨.hbm, 128, rfl⟩
abbrev main_v91 : Ref sig .tc := ⟨.hbm, 129, rfl⟩
abbrev main_v92 : Ref sig .tc := ⟨.hbm, 130, rfl⟩
abbrev main_c_26 : Ref sig .tc := ⟨.hbm, 131, rfl⟩
abbrev main_v93 : Ref sig .tc := ⟨.hbm, 132, rfl⟩
abbrev main_v94 : Ref sig .tc := ⟨.hbm, 133, rfl⟩
abbrev main_c_27 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_28 : Ref sig .tc := ⟨.hbm, 140, rfl⟩
abbrev main_v100 : Ref sig .tc := ⟨.hbm, 141, rfl⟩
abbrev main_v101 : Ref sig .tc := ⟨.hbm, 142, rfl⟩
abbrev main_c_29 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_30 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_31 : Ref sig .tc := ⟨.hbm, 154, rfl⟩
abbrev main_v111 : Ref sig .tc := ⟨.hbm, 155, rfl⟩
abbrev main_v112 : Ref sig .tc := ⟨.hbm, 156, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S640000 : S_.BroadcastsInDim S640000 (![] : Fin 0 → Fin S640000.rank)
  bcast_S640000_S640000x1_0 : S640000.BroadcastsInDim S640000x1 (![0] : Fin 1 → Fin S640000x1.rank)
  reducesTo_S640000x128_S640000_d1 : S640000x128.ReducesTo [1] S640000
  bcast_S_S100000 : S_.BroadcastsInDim S100000 (![] : Fin 0 → Fin S100000.rank)
  concatenates_S100000x1_S100000x1_S100000x1_S100000x3_d1 : Shape.Concatenates [S100000x1, S100000x1, S100000x1] S100000x3 1
  concatenates_S1x128_S1x128_S1x128_S3x128_d0 : Shape.Concatenates [S1x128, S1x128, S1x128] S3x128 0
  bcast_S100000x3_S100000x3x1_0_1 : S100000x3.BroadcastsInDim S100000x3x1 (![0, 1] : Fin 2 → Fin S100000x3x1.rank)
  bcast_S3x128_S1x3x128_1_2 : S3x128.BroadcastsInDim S1x3x128 (![1, 2] : Fin 2 → Fin S1x3x128.rank)
  bcast_S100000x3x1_S100000x3x128_0_1_2 : S100000x3x1.BroadcastsInDim S100000x3x128 (![0, 1, 2] : Fin 3 → Fin S100000x3x128.rank)
  bcast_S1x3x128_S100000x3x128_0_1_2 : S1x3x128.BroadcastsInDim S100000x3x128 (![0, 1, 2] : Fin 3 → Fin S100000x3x128.rank)
  bcast_S_S100000x3x128 : S_.BroadcastsInDim S100000x3x128 (![] : Fin 0 → Fin S100000x3x128.rank)
  reducesTo_S100000x3x128_S100000x3_d2 : S100000x3x128.ReducesTo [2] S100000x3
  natLt_1_32 : 1 < 32
  reducesTo_S100000x3_S100000_d1 : S100000x3.ReducesTo [1] S100000
  bcast_S_S100000x1 : S_.BroadcastsInDim S100000x1 (![] : Fin 0 → Fin S100000x1.rank)
  reducesTo_S100000x3x128_S100000x128_d1 : S100000x3x128.ReducesTo [1] S100000x128
  bcast_S_S100000x128 : S_.BroadcastsInDim S100000x128 (![] : Fin 0 → Fin S100000x128.rank)
  gather_S100000x128_S640000x1_S640000x128_1_0_n_n_0_1_1128_wf : GatherDims.WF S100000x128 S640000x1 S640000x128 [1] [0] [] [0] [] 1 ![1, 128]
  scatter_S100000_S640000x1_S640000_n_0_0_1_wf : ScatterDims.WF S100000 S640000x1 S640000 [] [0] [0] 1
  gather_S100000_S640000x1_S640000_n_0_n_n_0_1_1_wf : GatherDims.WF S100000 S640000x1 S640000 [] [0] [] [0] [] 1 ![1]

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000_S640000x1_S640000_n_0_n_n_0_1_1 : GatherDims S100000 S640000x1 S640000 where
  offsetDims := []
  collapsedSliceDims := [0]
  operandBatchingDims := []
  startIndicesBatchingDims := []
  startIndexMap := [0]
  indexVectorDim := 1
  sliceSizes := ![1]
  wf := gather_S100000_S640000x1_S640000_n_0_n_n_0_1_1_wf

class Facts : Prop extends Facts₀ where

variable [Facts]
-- ==== Proof.KVal.lean ====
import proofs.«415622_j61924838473938_2_alg».proof.Proof.Gen.KernelIdeal
import Idealize.ShloMosaic.Lib.ValueIdx
import Idealize.ShloMosaic.PureOps.Ideal

/-!
# What the kernel's program computes, array by array, over the extended reals

The five launches and the host operations between them, as pure functions of the five argument arrays.
A launch's result array is stated index by index (`rowNorm`, `edgeDot`, `finalize`, `edgeKeep`); the host
operations between the launches (slices, the index normalisation, the row gathers, the two scatter-sums,
the broadcasts) are the program's own operations applied to those arrays.

* `rowNorm x` : the Euclidean norm of every row of `x`, as a column.
* `edgeDot a b u v` : per edge, the inner product of rows `a k`, `b k`, times `u k`, times `v k`.
* `finalize x c g p₁ p₂ p₃` : per node, `x` plus the mean of the prompts whose mask is set; the masks
  are decided by the scatter-sum `c` and the in-degree `g` of the node.
* `edgeKeep a b u v` : per edge, whether the cosine of rows `a k`, `b k` (norms `u k`, `v k`, each kept
  above the small constant) reaches the threshold, as the float 0 or 1.
-/

noncomputable section

open scoped BigOperators

namespace Cert.KernelIdeal.KVal

open Idealize.ShloMosaic Idealize.ShloMosaic.ValueIdx Cert.KernelIdeal Cert.KernelIdeal.Gen

/-! ## Scalars -/

/-- An f32 literal of the kernel body, read at the extended reals. -/
abbrev lit (w : BitVec 32) : EReal := Scalar.ofBits (F := Ideal) .f32 w

/-- A one-bit comparison result as the float 0 or 1 (widened to 32 bits, then converted). -/
def bitF (b : BitVec 1) : EReal := FloatOps.sitofp (F := Ideal) .f32 (b.setWidth 32)

/-- The degree-normalised similarity of a node: `c / max g 1` where the node has an incoming edge, `+∞` where not. -/
def csim (c g : EReal) : EReal :=
  Scalar.select (FloatOps.cmpf (F := Ideal) (φ := .f32) .ogt g (lit 0x00000000#32))
    (FloatOps.divf (F := Ideal) (φ := .f32) c (FloatOps.maximumf (F := Ideal) (φ := .f32) g (lit 0x3F800000#32))) (lit 0x7F800000#32)
/-- The similarity mask, as 0 or 1. -/
def mSim (c g : EReal) : EReal := bitF (FloatOps.cmpf (F := Ideal) (φ := .f32) .ole (csim c g) (lit 0x3E4CCCCD#32))
/-- The degree mask, as 0 or 1. -/
def mDeg (g : EReal) : EReal := bitF (FloatOps.cmpf (F := Ideal) (φ := .f32) .ole g (lit 0x40400000#32))
/-- The mask of the nodes neither of the two picks: one minus the larger of the two. -/
def mOther (c g : EReal) : EReal :=
  FloatOps.subf (F := Ideal) (φ := .f32) (lit 0x3F800000#32) (FloatOps.maximumf (F := Ideal) (φ := .f32) (mSim c g) (mDeg g))
/-- The number of masks set. -/
def plen (c g : EReal) : EReal :=
  FloatOps.addf (F := Ideal) (φ := .f32) (FloatOps.addf (F := Ideal) (φ := .f32) (mSim c g) (mDeg g)) (mOther c g)
/-- One entry of the prompted features: the entry of `x` plus the mean of the selected prompts' entries. -/
def finalAt (xv c g p1 p2 p3 : EReal) : EReal :=
  FloatOps.addf (F := Ideal) (φ := .f32) xv
    (FloatOps.divf (F := Ideal) (φ := .f32)
      (FloatOps.addf (F := Ideal) (φ := .f32)
        (FloatOps.addf (F := Ideal) (φ := .f32) (FloatOps.mulf (F := Ideal) (φ := .f32) (mSim c g) p1) (FloatOps.mulf (F := Ideal) (φ := .f32) (mDeg g) p2))
        (FloatOps.mulf (F := Ideal) (φ := .f32) (mOther c g) p3))
      (FloatOps.maximumf (F := Ideal) (φ := .f32) (plen c g) (lit 0x3F800000#32)))
/-- Whether an edge's cosine reaches the threshold, as 0 or 1: inner product `dot`, the two norms `nr`, `nc`. -/
def keepAt (dot nr nc : EReal) : EReal :=
  bitF (FloatOps.cmpf (F := Ideal) (φ := .f32) .oge
    (FloatOps.divf (F := Ideal) (φ := .f32) dot
      (FloatOps.mulf (F := Ideal) (φ := .f32) (FloatOps.maximumf (F := Ideal) (φ := .f32) nr (lit 0x322BCC77#32)) (FloatOps.maximumf (F := Ideal) (φ := .f32) nc (lit 0x322BCC77#32))))
    (lit 0x3DCCCCCD#32))

/-! ## The launches' result arrays, index by index -/

/-- Launches 0 and 3: the norm of every row, as a column. -/
def rowNorm (x : FVec Ideal S100000x128 .f32) : FVec Ideal S100000x1 .f32 := fun j =>
  FloatOps.sqrt (F := Ideal) (φ := .f32)
    (∑ d : Fin 128, x (ix2 (⟨(j 0).val, idx2_lt0 j⟩ : Fin 100000) d) * x (ix2 (⟨(j 0).val, idx2_lt0 j⟩ : Fin 100000) d))

/-- The inner product of row `k` of `a` and row `k` of `b`. -/
def rowDot (a b : FVec Ideal S640000x128 .f32) (k : Fin 640000) : EReal :=
  ∑ d : Fin 128, a (ix2 k d) * b (ix2 k d)

/-- Launch 1: per edge, the inner product of its two gathered rows, times the two gathered inverse norms. -/
def edgeDot (a b : FVec Ideal S640000x128 .f32) (u v : FVec Ideal S640000x1 .f32) : FVec Ideal S640000x1 .f32 := fun j =>
  (rowDot a b ⟨(j 0).val, idx2_lt0 j⟩ * u (ix2 (⟨(j 0).val, idx2_lt0 j⟩ : Fin 640000) (0 : Fin 1)))
    * v (ix2 (⟨(j 0).val, idx2_lt0 j⟩ : Fin 640000) (0 : Fin 1))

/-- Launch 2: the prompted features. -/
def finalize (x : FVec Ideal S100000x128 .f32) (c g : FVec Ideal S100000x1 .f32) (p1 p2 p3 : FVec Ideal S1x128 .f32) :
    FVec Ideal S100000x128 .f32 := fun i =>
  finalAt (x i)
    (c (ix2 (⟨(i 0).val, idx2_lt0 i⟩ : Fin 100000) (0 : Fin 1))) (g (ix2 (⟨(i 0).val, idx2_lt0 i⟩ : Fin 100000) (0 : Fin 1)))
    (p1 (ix2 (0 : Fin 1) (⟨(i 1).val, idx2_lt1 i⟩ : Fin 128))) (p2 (ix2 (0 : Fin 1) (⟨(i 1).val, idx2_lt1 i⟩ : Fin 128)))
    (p3 (ix2 (0 : Fin 1) (⟨(i 1).val, idx2_lt1 i⟩ : Fin 128)))

/-- Launch 4: per edge, the keep mask as 0 or 1. -/
def edgeKeep (a b : FVec Ideal S640000x128 .f32) (u v : FVec Ideal S640000x1 .f32) : FVec Ideal S640000x1 .f32 := fun j =>
  keepAt (rowDot a b ⟨(j 0).val, idx2_lt0 j⟩) (u (ix2 (⟨(j 0).val, idx2_lt0 j⟩ : Fin 640000) (0 : Fin 1)))
    (v (ix2 (⟨(j 0).val, idx2_lt0 j⟩ : Fin 640000) (0 : Fin 1)))

/-! ## The host operations between the launches -/

/-- The edges' source nodes: row 0 of the edge list. -/
def srcV (e : IVec S2x640000 32) : IVec S640000 32 :=
  shapeCast S640000 (extractStridedSlice S1x640000 ![0, 0] e slices_S2x640000_S1x640000_0_0) shapeCasts_S1x640000_S640000
/-- The edges' destination nodes: row 1 of the edge list. -/
def dstV (e : IVec S2x640000 32) : IVec S640000 32 :=
  shapeCast S640000 (extractStridedSlice S1x640000 ![1, 0] e slices_S2x640000_S1x640000_1_0) shapeCasts_S1x640000_S640000
/-- A node index made non-negative (a negative one counts from the end), as the column of start indices a row gather takes. -/
def nidx (v : IVec S640000 32) : IVec S640000x1 32 :=
  broadcastInDim S640000x1 ![0] bcast_S640000_S640000x1_0
    (select (cmpi .slt v (broadcastInDim S640000 ![] bcast_S_S640000 (constantI S_ 32 0#32)))
      (addi v (broadcastInDim S640000 ![] bcast_S_S640000 (constantI S_ 32 100000#32))) v)
/-- Rows of a feature array, gathered. -/
def gRows (x : FVec Ideal S100000x128 .f32) (i : IVec S640000x1 32) : FVec Ideal S640000x128 .f32 :=
  Host.gather gather_S100000x128_S640000x1_S640000x128_1_0_n_n_0_1_1128 x i
/-- Entries of a column, gathered. -/
def gCol (y : FVec Ideal S100000x1 .f32) (i : IVec S640000x1 32) : FVec Ideal S640000x1 .f32 :=
  Host.gather gather_S100000x1_S640000x1_S640000x1_1_0_n_n_0_1_11 y i
/-- The inverse of a column of norms. -/
def invCol (n : FVec Ideal S100000x1 .f32) : FVec Ideal S100000x1 .f32 :=
  Host.divf (broadcastInDim S100000x1 ![] bcast_S_S100000x1 (constant (F := Ideal) S_ .f32 0x3F800000#32)) n
/-- A per-edge value summed into its destination node. -/
def segSum (e : IVec S2x640000 32) (u : FVec Ideal S640000 .f32) : FVec Ideal S100000 .f32 :=
  Host.scatterAdd scatter_S100000_S640000x1_S640000_n_0_0_1
    (broadcastInDim S100000 ![] bcast_S_S100000 (constant (F := Ideal) S_ .f32 0x00000000#32))
    (broadcastInDim S640000x1 ![0] bcast_S640000_S640000x1_0 (dstV e)) u
/-- A vector as a column. -/
def asCol (y : FVec Ideal S100000 .f32) : FVec Ideal S100000x1 .f32 :=
  broadcastInDim S100000x1 ![0] bcast_S100000_S100000x1_0 y

/-! ## The program, array by array -/

/-- The per-edge normalised inner products (launch 1's result). -/
def edgeV (x : FVec Ideal S100000x128 .f32) (e : IVec S2x640000 32) : FVec Ideal S640000x1 .f32 :=
  edgeDot (gRows x (nidx (srcV e))) (gRows x (nidx (dstV e)))
    (gCol (invCol (rowNorm x)) (nidx (srcV e))) (gCol (invCol (rowNorm x)) (nidx (dstV e)))
/-- The scatter-sum of the edge values, as a column. -/
def cV (x : FVec Ideal S100000x128 .f32) (e : IVec S2x640000 32) : FVec Ideal S100000x1 .f32 :=
  asCol (segSum e (shapeCast S640000 (edgeV x e) shapeCasts_S640000x1_S640000))
/-- The in-degrees, as a column. -/
def degV (e : IVec S2x640000 32) : FVec Ideal S100000x1 .f32 :=
  asCol (segSum e (broadcastInDim S640000 ![] bcast_S_S640000 (constant (F := Ideal) S_ .f32 0x3F800000#32)))
/-- The first result: the prompted features. -/
def xnewV (x : FVec Ideal S100000x128 .f32) (e : IVec S2x640000 32) (p1 p2 p3 : FVec Ideal S1x128 .f32) : FVec Ideal S100000x128 .f32 :=
  finalize x (cV x e) (degV e) p1 p2 p3
/-- The per-edge keep mask as floats (launch 4's result) over a feature array `y`. -/
def keepF (y : FVec Ideal S100000x128 .f32) (e : IVec S2x640000 32) : FVec Ideal S640000x1 .f32 :=
  edgeKeep (gRows y (nidx (srcV e))) (gRows y (nidx (dstV e)))
    (gCol (rowNorm y) (nidx (srcV e))) (gCol (rowNorm y) (nidx (dstV e)))
/-- The second result: the keep mask as bits. -/
def keepV (x : FVec Ideal S100000x128 .f32) (e : IVec S2x640000 32) (p1 p2 p3 : FVec Ideal S1x128 .f32) : IVec S640000 1 :=
  cmpf (F := Ideal) .oge (shapeCast S640000 (keepF (xnewV x e p1 p2 p3) e) shapeCasts_S640000x1_S640000)
    (broadcastInDim S640000 ![] bcast_S_S640000 (constant (F := Ideal) S_ .f32 0x3F000000#32))

/-! ## The inputs the claim is about -/

/-- The inputs the precondition admits: every entry of `x` and of the three prompts a real number, no row of `x`
    the zero row (its sum of squares positive), no entry of a prompt zero. -/
structure Admissible (x : FVec Ideal S100000x128 .f32) (p1 p2 p3 : FVec Ideal S1x128 .f32) : Prop where
  x_real : ∀ i, ∃ r : ℝ, x i = (r : EReal)
  p1_real : ∀ i, ∃ r : ℝ, p1 i = (r : EReal)
  p2_real : ∀ i, ∃ r : ℝ, p2 i = (r : EReal)
  p3_real : ∀ i, ∃ r : ℝ, p3 i = (r : EReal)
  row_pos : ∀ n : Fin 100000, 0 < ∑ d : Fin 128, x (ix2 n d) * x (ix2 n d)
  p1_ne : ∀ i, p1 i ≠ 0
  p2_ne : ∀ i, p2 i ≠ 0
  p3_ne : ∀ i, p3 i ≠ 0

end Cert.KernelIdeal.KVal

end
-- ==== Proof.Region3.lean ====
import proofs.«415622_j61924838473938_2_alg».proof.Proof.Gen.KernelIdeal.Frame
import proofs.«415622_j61924838473938_2_alg».proof.Proof.KVal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The index a lane sum reads: row p, lane k. -/
theorem lane_index (p : Fin 5000) (k : Fin 128) :
    reduces_S5000x128_S5000.lift (ix1 p) k = ix2 p k :=
  funext fun a => Fin.ext (match a with | ⟨0, _⟩ => rfl | ⟨1, _⟩ => rfl)

/-- The payload at (p, 0): the root of the sum of squares of row p of the block. -/
theorem pay_apply (x0 : Vec Ideal S5000x128 .f32) (p : Fin 5000) (q : Fin 1) :
    (k3_pay1 (F := Ideal) x0) (ix2 p q)
      = FloatOps.sqrt (F := Ideal) (φ := .f32) (∑ d : Fin 128, x0 (ix2 p d) * x0 (ix2 p d)) := by
  unfold k3_pay1
  show FloatOps.sqrt (F := Ideal) (φ := .f32) _ = _
  refine congrArg _ ?_
  refine (shapeCast_apply _ shapeCasts_S5000_S5000x1 (ix2 p q) (ix1 p) ?_).trans ?_
  · rw [Shape.rowMajor_val_one, Shape.rowMajor_val_two]
    have hq : q.val = 0 := by omega
    show p.val = p.val * 1 + q.val
    omega
  · refine (Ideal.multiReduction_add_single _ 0x00000000#32 reduces_S5000x128_S5000 (.inl rfl) rfl (ix1 p)).trans ?_
    refine Finset.sum_congr rfl fun k _ => ?_
    show shapeCast S5000x128 x0 shapeCasts_S5000x128_S5000x128 (reduces_S5000x128_S5000.lift (ix1 p) k)
        * shapeCast S5000x128 x0 shapeCasts_S5000x128_S5000x128 (reduces_S5000x128_S5000.lift (ix1 p) k) = _
    rw [lane_index p k, shapeCast_self]

theorem hz : (![0, 0] : Fin 2 → Nat) = fun _ => 0 := funext fun a => by fin_cases a <;> rfl

/-- The printed index maps over the grid: at point t each window is on block t along the rows and on block 0 along the lanes. -/
theorem block_index : ∀ t : Fin cfg3.N, win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- Entry (p, d) of the input block at point t is entry (5000 t + p, d) of the input array. -/
theorem in_block_apply (c : Dev nD) (t : Fin cfg3.N) (p : Fin 5000) (d : Fin 128) (i : S100000x128.Idx)
    (h0 : (i 0).val = t.val * 5000 + p.val) (h1 : (i 1).val = d.val) :
    (iblk3 V c 0 t : Vec Ideal S5000x128 .f32) (ix2 p d) = V c main_v46 i := by
  obtain ⟨e0, e1, -, -⟩ := block_index t
  unfold iblk3
  show V c main_v46 (((cfg3.win 0).blk t).view.emb (ix2 p d)) = V c main_v46 i
  refine congrArg _ (funext fun a => Fin.ext ?_)
  match a with
  | ⟨0, _⟩ => show win3_0.index t (0 : Fin 2) * 5000 + 1 * p.val = (i 0).val; omega
  | ⟨1, _⟩ => show win3_0.index t (1 : Fin 2) * 128 + 1 * d.val = (i 1).val; omega

/-- The payload of the input block at point t, at an index of the output block, is the row norm of the input array at
    that index's place in the output array. -/
theorem block_value (c : Dev nD) (t : Fin cfg3.N) (j : S5000x1.Idx) :
    k3_pay1 (F := Ideal) (iblk3 V c 0 t) j
      = KVal.rowNorm (V c main_v46) (((cfg3.win 1).blk t).view.emb j) := by
  obtain ⟨p, q, rfl⟩ : ∃ (p : Fin 5000) (q : Fin 1), j = ix2 p q := ⟨j 0, j 1, eq_ix2 j⟩
  refine (pay_apply (iblk3 V c 0 t) p q).trans ?_
  have h0 : ((((cfg3.win 1).blk t).view.emb (ix2 p q)) 0).val = t.val * 5000 + p.val := by
    obtain ⟨-, -, e2, -⟩ := block_index t
    show win3_1.index t (0 : Fin 2) * 5000 + 1 * p.val = _
    omega
  refine congrArg (FloatOps.sqrt (F := Ideal) (φ := .f32)) (Finset.sum_congr rfl fun d _ => ?_)
  exact congrArg₂ (· * ·) (in_block_apply V c t p d _ h0 rfl) (in_block_apply V c t p d _ h0 rfl)

/-- What point t writes back is block t of the row norms of the input array. -/
theorem flushed_eq (c : Dev nD) (t : Fin cfg3.N) :
    (dat3 (F := Ideal) V c).flushed 1 t
      = ((cfg3.win 1).blk t).view.read (Elt Ideal) (KVal.rowNorm (V c main_v46)) := by
  show (cfg3.win 1).cut (grid3.coords t) ((dat3 V c).after 1 t) = _
  rw [after3_1]
  unfold out3_1
  rw [View.canon_unit_zero hz]
  simp only [View.ld_unit_zero (S := S5000x128) hz]
  funext j
  exact block_value V c t j

/-- An index of the output array is in point t's block iff each coordinate is in the block's range on its axis. -/
theorem mem_blk (t : Fin cfg3.N) (i : S100000x1.Idx) :
    i ∈ ((cfg3.win 1).blk t).view.set ↔ ∀ a : Fin 2, win3_1.index t a * S5000x1.size a ≤ (i a).val
      ∧ (i a).val < win3_1.index t a * S5000x1.size a + S5000x1.size a := by
  show i ∈ ((View.whole main_v47).slice (win3_1.rect t)).set ↔ _
  rw [View.set_slice_whole, Rect.mem_set_unit]
  exact Iff.rfl

/-- Every row of the output array is in the block of the point its number divided by 5000 names, and every point writes back. -/
theorem cover (i : S100000x1.Idx) :
    ∃ t : Fin cfg3.N, (cfg3.win 1).flush t = true ∧ i ∈ ((cfg3.win 1).blk t).view.set := by
  have hi0 : (i 0).val < 100000 := idx2_lt0 i
  have hi1 : (i 1).val < 1 := idx2_lt1 i
  have hN : grid3.N = 20 := N_3
  obtain ⟨t, ht⟩ : ∃ t : Fin cfg3.N, t.val = (i 0).val / 5000 :=
    ⟨⟨(i 0).val / 5000, by show (i 0).val / 5000 < grid3.N; rw [hN]; omega⟩, rfl⟩
  refine ⟨t, flush3_1 t, ?_⟩
  rw [mem_blk]
  obtain ⟨-, -, e2, e3⟩ := block_index t
  intro a
  match a with
  | ⟨0, _⟩ =>
    show win3_1.index t (0 : Fin 2) * 5000 ≤ (i 0).val ∧ (i 0).val < win3_1.index t (0 : Fin 2) * 5000 + 5000
    omega
  | ⟨1, _⟩ =>
    show win3_1.index t (1 : Fin 2) * 1 ≤ (i 1).val ∧ (i 1).val < win3_1.index t (1 : Fin 2) * 1 + 1
    omega

/-- The launch's result array after its last grid point, whatever the buffers hold when the launch is entered (`V`). -/
theorem arr (c : Dev nD) : (dat3 (F := Ideal) V c).arrAt 1 cfg3.N = KVal.rowNorm (V c main_v46) :=
  (dat3 (F := Ideal) V c).arrAt_eq_of_cover 1 (KVal.rowNorm (V c main_v46)) (fun t _ => flushed_eq V c t) cover

end Cert.KernelIdeal.Region3

end
-- ==== Proof.Region4.lean ====
import proofs.«415622_j61924838473938_2_alg».proof.Proof.Gen.KernelIdeal.Frame
import proofs.«415622_j61924838473938_2_alg».proof.Proof.KVal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region4

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's value at one row of a block -/

/-- A whole-buffer access starts at offset zero on both axes. -/
theorem off_zero : (![0, 0] : Fin 2 → Nat) = fun _ => 0 :=
  funext fun a => match a with | ⟨0, _⟩ => rfl | ⟨1, _⟩ => rfl

/-- The lane sum of an [8000, 128] block kept as a column: at row `p` it is the sum of the row's 128 entries. -/
theorem laneSum_col_apply (v : FVec Ideal S8000x128 .f32) (p : Fin 8000) (q : Fin 1) :
    shapeCast S8000x1 (multiReduction (F := Ideal) .add [1] S8000 v 0x00000000#32 reduces_S8000x128_S8000 (.inl rfl) rfl)
        shapeCasts_S8000_S8000x1 (ix2 p q) = ∑ d : Fin 128, v (ix2 p d) := by
  refine (shapeCast_apply _ _ (ix2 p q) (ix1 p) ?_).trans ?_
  · rw [Shape.rowMajor_val_one, Shape.rowMajor_val_two]
    show p.val = p.val * 1 + q.val
    have hq := q.isLt
    omega
  · refine (Ideal.multiReduction_add_single v _ reduces_S8000x128_S8000 _ _ (ix1 p)).trans ?_
    refine Finset.sum_congr rfl fun d _ => congrArg v ?_
    funext a
    match a with
    | ⟨0, _⟩ => rfl
    | ⟨1, _⟩ => rfl

/-- The body's result at row `p` of a block: the keep mask of the row's inner product and the row's two norms. -/
theorem body_apply (x0 x1 : Vec Ideal S8000x128 .f32) (x2 x3 : Vec Ideal S8000x1 .f32) (p : Fin 8000) (q : Fin 1) :
    k4_pay1 (F := Ideal) x0 x1 x2 x3 (ix2 p q)
      = KVal.keepAt (∑ d : Fin 128, x0 (ix2 p d) * x1 (ix2 p d)) (x2 (ix2 p q)) (x3 (ix2 p q)) := by
  unfold k4_pay1
  show KVal.keepAt
      (shapeCast S8000x1 (multiReduction (F := Ideal) .add [1] S8000
          (mulf (shapeCast S8000x128 x0 shapeCasts_S8000x128_S8000x128) (shapeCast S8000x128 x1 shapeCasts_S8000x128_S8000x128))
          0x00000000#32 reduces_S8000x128_S8000 (.inl rfl) rfl) shapeCasts_S8000_S8000x1 (ix2 p q))
      (shapeCast S8000x1 x2 shapeCasts_S8000x1_S8000x1 (ix2 p q))
      (shapeCast S8000x1 x3 shapeCasts_S8000x1_S8000x1 (ix2 p q)) = _
  rw [laneSum_col_apply, shapeCast_self, shapeCast_self, shapeCast_self, shapeCast_self]
  rfl

/-- The keep mask is a function of its three arguments. -/
theorem keepAt_congr {a a' b b' e e' : EReal} (ha : a = a') (hb : b = b') (he : e = e') :
    KVal.keepAt a b e = KVal.keepAt a' b' e' := by rw [ha, hb, he]

/-- The result array's specification at an index whose row is `k`. -/
theorem edgeKeep_apply (A B : FVec Ideal S640000x128 .f32) (U W : FVec Ideal S640000x1 .f32) (i : S640000x1.Idx)
    (k : Fin 640000) (hk : (i 0).val = k.val) :
    KVal.edgeKeep A B U W i
      = KVal.keepAt (∑ d : Fin 128, A (ix2 k d) * B (ix2 k d)) (U (ix2 k (0 : Fin 1))) (W (ix2 k (0 : Fin 1))) := by
  have hrow : (⟨(i 0).val, idx2_lt0 i⟩ : Fin 640000) = k := Fin.ext hk
  unfold KVal.edgeKeep KVal.rowDot
  rw [hrow]

/-! ## The windows' blocks -/

/-- The printed index maps over the grid: at point `t` every window's block is the `t`-th along the rows and the
    only one along the lanes. -/
theorem block_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Row `p` of the first operand's block at point `t` is row `8000 t + p` of its array. -/
theorem rows_block0 (c : Dev nD) (t : Fin cfg4.N) (p : Fin 8000) (d : Fin 128) (k : Fin 640000)
    (hk : k.val = t.val * 8000 + p.val) :
    (iblk4 (F := Ideal) V c 0 t : Vec Ideal S8000x128 .f32) (ix2 p d) = (V c main_v54 : FVec Ideal S640000x128 .f32) (ix2 k d) := by
  obtain ⟨e0, e1, -⟩ := block_index t
  unfold iblk4
  rw [View.read_apply]
  show V c main_v54 (((cfg4.win 0).blk t).view.emb (ix2 p d)) = V c main_v54 (ix2 k d)
  refine congrArg (V c main_v54) ?_
  funext a
  apply Fin.ext
  match a with
  | ⟨0, _⟩ => show win4_0.index t (0 : Fin 2) * 8000 + 1 * p.val = k.val; omega
  | ⟨1, _⟩ => show win4_0.index t (1 : Fin 2) * 128 + 1 * d.val = d.val; omega

/-- Row `p` of the second operand's block at point `t` is row `8000 t + p` of its array. -/
theorem rows_block1 (c : Dev nD) (t : Fin cfg4.N) (p : Fin 8000) (d : Fin 128) (k : Fin 640000)
    (hk : k.val = t.val * 8000 + p.val) :
    (iblk4 (F := Ideal) V c 1 t : Vec Ideal S8000x128 .f32) (ix2 p d) = (V c main_v61 : FVec Ideal S640000x128 .f32) (ix2 k d) := by
  obtain ⟨-, -, e0, e1, -⟩ := block_index t
  unfold iblk4
  rw [View.read_apply]
  show V c main_v61 (((cfg4.win 1).blk t).view.emb (ix2 p d)) = V c main_v61 (ix2 k d)
  refine congrArg (V c main_v61) ?_
  funext a
  apply Fin.ext
  match a with
  | ⟨0, _⟩ => show win4_1.index t (0 : Fin 2) * 8000 + 1 * p.val = k.val; omega
  | ⟨1, _⟩ => show win4_1.index t (1 : Fin 2) * 128 + 1 * d.val = d.val; omega

/-- Entry `p` of the first norm column's block at point `t` is entry `8000 t + p` of its array. -/
theorem rows_block2 (c : Dev nD) (t : Fin cfg4.N) (p : Fin 8000) (q : Fin 1) (k : Fin 640000)
    (hk : k.val = t.val * 8000 + p.val) :
    (iblk4 (F := Ideal) V c 2 t : Vec Ideal S8000x1 .f32) (ix2 p q) = (V c main_v68 : FVec Ideal S640000x1 .f32) (ix2 k (0 : Fin 1)) := by
  obtain ⟨-, -, -, -, e0, e1, -⟩ := block_index t
  unfold iblk4
  rw [View.read_apply]
  show V c main_v68 (((cfg4.win 2).blk t).view.emb (ix2 p q)) = V c main_v68 (ix2 k (0 : Fin 1))
  refine congrArg (V c main_v68) ?_
  have hq := q.isLt
  funext a
  apply Fin.ext
  match a with
  | ⟨0, _⟩ => show win4_2.index t (0 : Fin 2) * 8000 + 1 * p.val = k.val; omega
  | ⟨1, _⟩ => show win4_2.index t (1 : Fin 2) * 1 + 1 * q.val = 0; omega

/-- Entry `p` of the second norm column's block at point `t` is entry `8000 t + p` of its array. -/
theorem rows_block3 (c : Dev nD) (t : Fin cfg4.N) (p : Fin 8000) (q : Fin 1) (k : Fin 640000)
    (hk : k.val = t.val * 8000 + p.val) :
    (iblk4 (F := Ideal) V c 3 t : Vec Ideal S8000x1 .f32) (ix2 p q) = (V c main_v75 : FVec Ideal S640000x1 .f32) (ix2 k (0 : Fin 1)) := by
  obtain ⟨-, -, -, -, -, -, e0, e1, -⟩ := block_index t
  unfold iblk4
  rw [View.read_apply]
  show V c main_v75 (((cfg4.win 3).blk t).view.emb (ix2 p q)) = V c main_v75 (ix2 k (0 : Fin 1))
  refine congrArg (V c main_v75) ?_
  have hq := q.isLt
  funext a
  apply Fin.ext
  match a with
  | ⟨0, _⟩ => show win4_3.index t (0 : Fin 2) * 8000 + 1 * p.val = k.val; omega
  | ⟨1, _⟩ => show win4_3.index t (1 : Fin 2) * 1 + 1 * q.val = 0; omega

/-! ## From the blocks to the array -/

/-- What point `t` writes back is block `t` of the specification applied to the arrays as the launch finds them. -/
theorem flushed_eq (c : Dev nD) (t : Fin cfg4.N) :
    (dat4 (F := Ideal) V c).flushed 4 t = ((cfg4.win 4).blk t).view.read (Elt Ideal)
      (KVal.edgeKeep (V c main_v54) (V c main_v61) (V c main_v68) (V c main_v75)) := by
  show (cfg4.win 4).cut (grid4.coords t) ((dat4 (F := Ideal) V c).after 4 t) = _
  rw [after4_4]
  unfold out4_4
  rw [View.canon_unit_zero off_zero]
  simp only [View.ld_unit_zero (S := S8000x128) off_zero, View.ld_unit_zero (S := S8000x1) off_zero]
  obtain ⟨-, -, -, -, -, -, -, -, e0, e1⟩ := block_index t
  have hN : cfg4.N = 80 := N_4
  have ht : t.val < 80 := lt_of_lt_of_eq t.isLt hN
  funext j
  obtain ⟨p, q, rfl⟩ : ∃ (p : Fin 8000) (q : Fin 1), j = ix2 p q := ⟨j 0, j 1, eq_ix2 j⟩
  have hp := p.isLt
  obtain ⟨k, hk⟩ : ∃ k : Fin 640000, k.val = t.val * 8000 + p.val := ⟨⟨t.val * 8000 + p.val, by omega⟩, rfl⟩
  show k4_pay1 (F := Ideal) (iblk4 V c 0 t) (iblk4 V c 1 t) (iblk4 V c 2 t) (iblk4 V c 3 t) (ix2 p q)
    = KVal.edgeKeep (V c main_v54) (V c main_v61) (V c main_v68) (V c main_v75) (((cfg4.win 4).blk t).view.emb (ix2 p q))
  refine ((body_apply _ _ _ _ p q).trans ?_).trans (edgeKeep_apply _ _ _ _ _ k ?_).symm
  · exact keepAt_congr
      (Finset.sum_congr rfl fun d _ => congrArg₂ (· * ·) (rows_block0 V c t p d k hk) (rows_block1 V c t p d k hk))
      (rows_block2 V c t p q k hk) (rows_block3 V c t p q k hk)
  · show win4_4.index t (0 : Fin 2) * 8000 + 1 * p.val = k.val
    omega

/-- An index of the result array is in point `t`'s block iff each coordinate is in the block's range on its axis. -/
theorem mem_block (t : Fin cfg4.N) (i : S640000x1.Idx) :
    i ∈ ((cfg4.win 4).blk t).view.set ↔ ∀ a : Fin 2, win4_4.index t a * S8000x1.size a ≤ (i a).val ∧ (i a).val < win4_4.index t a * S8000x1.size a + S8000x1.size a := by
  show i ∈ ((View.whole main_v76).slice (win4_4.rect t)).set ↔ _
  rw [View.set_slice_whole, Rect.mem_set_unit]
  exact Iff.rfl

/-- Every index of the result array is in the block of the point its row falls to, and every point writes back. -/
theorem covered (i : S640000x1.Idx) :
    ∃ t : Fin cfg4.N, (cfg4.win 4).flush t = true ∧ i ∈ ((cfg4.win 4).blk t).view.set := by
  have hi0 : (i 0).val < 640000 := (i 0).isLt
  have hi1 : (i 1).val < 1 := (i 1).isLt
  have hN : cfg4.N = 80 := N_4
  obtain ⟨t, ht⟩ : ∃ t : Fin cfg4.N, t.val = (i 0).val / 8000 := ⟨⟨(i 0).val / 8000, by rw [hN]; omega⟩, rfl⟩
  obtain ⟨-, -, -, -, -, -, -, -, e0, e1⟩ := block_index t
  refine ⟨t, flush4_4 t, ?_⟩
  rw [mem_block]
  intro a
  match a with
  | ⟨0, _⟩ =>
    show win4_4.index t (0 : Fin 2) * 8000 ≤ (i 0).val ∧ (i 0).val < win4_4.index t (0 : Fin 2) * 8000 + 8000
    omega
  | ⟨1, _⟩ =>
    show win4_4.index t (1 : Fin 2) * 1 ≤ (i 1).val ∧ (i 1).val < win4_4.index t (1 : Fin 2) * 1 + 1
    omega

/-- The launch's result array after its last grid point, whatever the buffers hold when the launch is entered (`V`). -/
theorem arr (c : Dev nD) : (dat4 (F := Ideal) V c).arrAt 4 cfg4.N = KVal.edgeKeep (V c main_v54) (V c main_v61) (V c main_v68) (V c main_v75) := by
  exact (dat4 (F := Ideal) V c).arrAt_eq_of_cover 4 _ (fun t _ => flushed_eq V c t) covered

end Cert.KernelIdeal.Region4

end
-- ==== Proof.Region0.lean ====
import proofs.«415622_j61924838473938_2_alg».proof.Proof.Gen.KernelIdeal.Frame
import proofs.«415622_j61924838473938_2_alg».proof.Proof.KVal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The index a lane sum reads: row p, lane k. -/
theorem lane_index (p : Fin 5000) (k : Fin 128) :
    reduces_S5000x128_S5000.lift (ix1 p) k = ix2 p k :=
  funext fun a => Fin.ext (match a with | ⟨0, _⟩ => rfl | ⟨1, _⟩ => rfl)

/-- The payload at (p, 0): the root of the sum of squares of row p of the block. -/
theorem pay_apply (x0 : Vec Ideal S5000x128 .f32) (p : Fin 5000) (q : Fin 1) :
    (k0_pay1 (F := Ideal) x0) (ix2 p q)
      = FloatOps.sqrt (F := Ideal) (φ := .f32) (∑ d : Fin 128, x0 (ix2 p d) * x0 (ix2 p d)) := by
  unfold k0_pay1
  show FloatOps.sqrt (F := Ideal) (φ := .f32) _ = _
  refine congrArg _ ?_
  refine (shapeCast_apply _ shapeCasts_S5000_S5000x1 (ix2 p q) (ix1 p) ?_).trans ?_
  · rw [Shape.rowMajor_val_one, Shape.rowMajor_val_two]
    have hq : q.val = 0 := by omega
    show p.val = p.val * 1 + q.val
    omega
  · refine (Ideal.multiReduction_add_single _ 0x00000000#32 reduces_S5000x128_S5000 (.inl rfl) rfl (ix1 p)).trans ?_
    refine Finset.sum_congr rfl fun k _ => ?_
    show x0 (reduces_S5000x128_S5000.lift (ix1 p) k) * x0 (reduces_S5000x128_S5000.lift (ix1 p) k) = _
    rw [lane_index p k]

theorem hz : (![0, 0] : Fin 2 → Nat) = fun _ => 0 := funext fun a => by fin_cases a <;> rfl

/-- The printed index maps over the grid: at point t each window is on block t along the rows and on block 0 along the lanes. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry (p, d) of the input block at point t is entry (5000 t + p, d) of the input array. -/
theorem in_block_apply (c : Dev nD) (t : Fin cfg0.N) (p : Fin 5000) (d : Fin 128) (i : S100000x128.Idx)
    (h0 : (i 0).val = t.val * 5000 + p.val) (h1 : (i 1).val = d.val) :
    (iblk0 V c 0 t : Vec Ideal S5000x128 .f32) (ix2 p d) = V c main_arg0 i := by
  obtain ⟨e0, e1, -, -⟩ := block_index t
  unfold iblk0
  show V c main_arg0 (((cfg0.win 0).blk t).view.emb (ix2 p d)) = V c main_arg0 i
  refine congrArg _ (funext fun a => Fin.ext ?_)
  match a with
  | ⟨0, _⟩ => show win0_0.index t (0 : Fin 2) * 5000 + 1 * p.val = (i 0).val; omega
  | ⟨1, _⟩ => show win0_0.index t (1 : Fin 2) * 128 + 1 * d.val = (i 1).val; omega

/-- The payload of the input block at point t, at an index of the output block, is the row norm of the input array at
    that index's place in the output array. -/
theorem block_value (c : Dev nD) (t : Fin cfg0.N) (j : S5000x1.Idx) :
    k0_pay1 (F := Ideal) (iblk0 V c 0 t) j
      = KVal.rowNorm (V c main_arg0) (((cfg0.win 1).blk t).view.emb j) := by
  obtain ⟨p, q, rfl⟩ : ∃ (p : Fin 5000) (q : Fin 1), j = ix2 p q := ⟨j 0, j 1, eq_ix2 j⟩
  refine (pay_apply (iblk0 V c 0 t) p q).trans ?_
  have h0 : ((((cfg0.win 1).blk t).view.emb (ix2 p q)) 0).val = t.val * 5000 + p.val := by
    obtain ⟨-, -, e2, -⟩ := block_index t
    show win0_1.index t (0 : Fin 2) * 5000 + 1 * p.val = _
    omega
  refine congrArg (FloatOps.sqrt (F := Ideal) (φ := .f32)) (Finset.sum_congr rfl fun d _ => ?_)
  exact congrArg₂ (· * ·) (in_block_apply V c t p d _ h0 rfl) (in_block_apply V c t p d _ h0 rfl)

/-- What point t writes back is block t of the row norms of the input array. -/
theorem flushed_eq (c : Dev nD) (t : Fin cfg0.N) :
    (dat0 (F := Ideal) V c).flushed 1 t
      = ((cfg0.win 1).blk t).view.read (Elt Ideal) (KVal.rowNorm (V c main_arg0)) := by
  show (cfg0.win 1).cut (grid0.coords t) ((dat0 V c).after 1 t) = _
  rw [after0_1]
  unfold out0_1
  rw [View.canon_unit_zero hz]
  simp only [View.ld_unit_zero (S := S5000x128) hz]
  funext j
  exact block_value V c t j

/-- An index of the output array is in point t's block iff each coordinate is in the block's range on its axis. -/
theorem mem_blk (t : Fin cfg0.N) (i : S100000x1.Idx) :
    i ∈ ((cfg0.win 1).blk t).view.set ↔ ∀ a : Fin 2, win0_1.index t a * S5000x1.size a ≤ (i a).val
      ∧ (i a).val < win0_1.index t a * S5000x1.size a + S5000x1.size a := by
  show i ∈ ((View.whole main_v4).slice (win0_1.rect t)).set ↔ _
  rw [View.set_slice_whole, Rect.mem_set_unit]
  exact Iff.rfl

/-- Every row of the output array is in the block of the point its number divided by 5000 names, and every point writes back. -/
theorem cover (i : S100000x1.Idx) :
    ∃ t : Fin cfg0.N, (cfg0.win 1).flush t = true ∧ i ∈ ((cfg0.win 1).blk t).view.set := by
  have hi0 : (i 0).val < 100000 := idx2_lt0 i
  have hi1 : (i 1).val < 1 := idx2_lt1 i
  have hN : grid0.N = 20 := N_0
  obtain ⟨t, ht⟩ : ∃ t : Fin cfg0.N, t.val = (i 0).val / 5000 :=
    ⟨⟨(i 0).val / 5000, by show (i 0).val / 5000 < grid0.N; rw [hN]; omega⟩, rfl⟩
  refine ⟨t, flush0_1 t, ?_⟩
  rw [mem_blk]
  obtain ⟨-, -, e2, e3⟩ := block_index t
  intro a
  match a with
  | ⟨0, _⟩ =>
    show win0_1.index t (0 : Fin 2) * 5000 ≤ (i 0).val ∧ (i 0).val < win0_1.index t (0 : Fin 2) * 5000 + 5000
    omega
  | ⟨1, _⟩ =>
    show win0_1.index t (1 : Fin 2) * 1 ≤ (i 1).val ∧ (i 1).val < win0_1.index t (1 : Fin 2) * 1 + 1
    omega

/-- The launch's result array after its last grid point, whatever the buffers hold when the launch is entered (`V`). -/
theorem arr (c : Dev nD) : (dat0 (F := Ideal) V c).arrAt 1 cfg0.N = KVal.rowNorm (V c main_arg0) :=
  (dat0 (F := Ideal) V c).arrAt_eq_of_cover 1 (KVal.rowNorm (V c main_arg0)) (fun t _ => flushed_eq V c t) cover

end Cert.KernelIdeal.Region0

end
-- ==== Proof.Region1.lean ====
import proofs.«415622_j61924838473938_2_alg».proof.Proof.Gen.KernelIdeal.Frame
import proofs.«415622_j61924838473938_2_alg».proof.Proof.KVal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's payload at an index -/

/-- A vector cast to a column reads, at `(p, q)`, the vector at `p`. -/
private theorem shapeCast_col_apply {a : ℕ} {α : Type} (x : (⟨1, ![a]⟩ : Shape).Idx → α)
    (h : (⟨1, ![a]⟩ : Shape).ShapeCasts ⟨2, ![a, 1]⟩) (p : Fin a) (q : Fin 1) :
    shapeCast ⟨2, ![a, 1]⟩ x h (ix2 p q) = x (ix1 p) :=
  shapeCast_apply x h _ _ (by
    have hq : q.val = 0 := by omega
    rw [Shape.rowMajor_val_two, Shape.rowMajor_val_one]
    show p.val = p.val * 1 + q.val
    omega)

/-- The stored value at row `p` of a block: the inner product of the two feature rows, times the two column entries. -/
private theorem pay_apply (x0 x1 : Vec Ideal S8000x128 .f32) (x2 x3 : Vec Ideal S8000x1 .f32) (p : Fin 8000) (q : Fin 1) :
    k1_pay1 x0 x1 x2 x3 (ix2 p q)
      = ((∑ d : Fin 128, x0 (ix2 p d) * x1 (ix2 p d)) * x2 (ix2 p q)) * x3 (ix2 p q) := by
  unfold k1_pay1
  simp only [shapeCast_self, mulf_apply, shapeCast_col_apply, Ideal.multiReduction_add_single]
  refine congrArg (fun z => z * x2 (ix2 p q) * x3 (ix2 p q)) ?_
  refine (Ideal.multiReduction_add_single (mulf x0 x1) _ reduces_S8000x128_S8000 _ _ (ix1 p)).trans ?_
  show ∑ k : Fin 128, x0 (reduces_S8000x128_S8000.lift (ix1 p) k) * x1 (reduces_S8000x128_S8000.lift (ix1 p) k) = _
  refine Finset.sum_congr rfl fun d _ => ?_
  have e : reduces_S8000x128_S8000.lift (ix1 p) d = ix2 p d :=
    funext fun a => Fin.ext (by match a with | ⟨0, _⟩ => rfl | ⟨1, _⟩ => rfl)
  rw [e]

/-! ## From the blocks to the array -/

private theorem zero_offsets : (![0, 0] : Fin 2 → Nat) = fun _ => 0 := funext fun a => by fin_cases a <;> rfl

/-- What the body leaves in the result window's buffer, at row `p`: the payload of the four input blocks. -/
private theorem out_apply (x0 x1 : Vec Ideal S8000x128 .f32) (x2 x3 : Vec Ideal S8000x1 .f32) (p : Fin 8000) (q : Fin 1) :
    out1_4 x0 x1 x2 x3 (ix2 p q)
      = ((∑ d : Fin 128, x0 (ix2 p d) * x1 (ix2 p d)) * x2 (ix2 p q)) * x3 (ix2 p q) := by
  unfold out1_4
  rw [View.canon_unit_zero zero_offsets]
  simp only [View.ld_unit_zero (S := S8000x128) zero_offsets, View.ld_unit_zero (S := S8000x1) zero_offsets]
  exact pay_apply x0 x1 x2 x3 p q

/-- The printed index maps, decided over the grid: at point `t` every window's block is the `t`-th along the rows and
    the only one along the columns. -/
private theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row `p` of the first feature window's block at point `t` is row `8000 t + p` of its array. -/
private theorem blk0_apply (c : Dev nD) (t : Fin cfg1.N) (p : Fin 8000) (d : Fin 128) (k : Fin 640000)
    (hk : k.val = t.val * 8000 + p.val) :
    (iblk1 V c 0 t : Vec Ideal S8000x128 .f32) (ix2 p d) = (V c main_v13 : S640000x128.Idx → EReal) (ix2 k d) := by
  obtain ⟨e0, e1, -⟩ := block_index t
  show V c main_v13 (((cfg1.win 0).blk t).view.emb (ix2 p d)) = V c main_v13 (ix2 k d)
  refine congrArg _ (funext fun a => Fin.ext ?_)
  match a with
  | ⟨0, _⟩ => show win1_0.index t (0 : Fin 2) * 8000 + 1 * p.val = k.val; omega
  | ⟨1, _⟩ => show win1_0.index t (1 : Fin 2) * 128 + 1 * d.val = d.val; omega

/-- Row `p` of the second feature window's block at point `t` is row `8000 t + p` of its array. -/
private theorem blk1_apply (c : Dev nD) (t : Fin cfg1.N) (p : Fin 8000) (d : Fin 128) (k : Fin 640000)
    (hk : k.val = t.val * 8000 + p.val) :
    (iblk1 V c 1 t : Vec Ideal S8000x128 .f32) (ix2 p d) = (V c main_v20 : S640000x128.Idx → EReal) (ix2 k d) := by
  obtain ⟨-, -, e0, e1, -⟩ := block_index t
  show V c main_v20 (((cfg1.win 1).blk t).view.emb (ix2 p d)) = V c main_v20 (ix2 k d)
  refine congrArg _ (funext fun a => Fin.ext ?_)
  match a with
  | ⟨0, _⟩ => show win1_1.index t (0 : Fin 2) * 8000 + 1 * p.val = k.val; omega
  | ⟨1, _⟩ => show win1_1.index t (1 : Fin 2) * 128 + 1 * d.val = d.val; omega

/-- Entry `p` of the first column window's block at point `t` is entry `8000 t + p` of its array. -/
private theorem blk2_apply (c : Dev nD) (t : Fin cfg1.N) (p : Fin 8000) (q : Fin 1) (k : Fin 640000)
    (hk : k.val = t.val * 8000 + p.val) :
    (iblk1 V c 2 t : Vec Ideal S8000x1 .f32) (ix2 p q) = (V c main_v27 : S640000x1.Idx → EReal) (ix2 k (0 : Fin 1)) := by
  obtain ⟨-, -, -, -, e0, e1, -⟩ := block_index t
  show V c main_v27 (((cfg1.win 2).blk t).view.emb (ix2 p q)) = V c main_v27 (ix2 k (0 : Fin 1))
  refine congrArg _ (funext fun a => Fin.ext ?_)
  match a with
  | ⟨0, _⟩ => show win1_2.index t (0 : Fin 2) * 8000 + 1 * p.val = k.val; omega
  | ⟨1, _⟩ => show win1_2.index t (1 : Fin 2) * 1 + 1 * q.val = 0; omega

/-- Entry `p` of the second column window's block at point `t` is entry `8000 t + p` of its array. -/
private theorem blk3_apply (c : Dev nD) (t : Fin cfg1.N) (p : Fin 8000) (q : Fin 1) (k : Fin 640000)
    (hk : k.val = t.val * 8000 + p.val) :
    (iblk1 V c 3 t : Vec Ideal S8000x1 .f32) (ix2 p q) = (V c main_v34 : S640000x1.Idx → EReal) (ix2 k (0 : Fin 1)) := by
  obtain ⟨-, -, -, -, -, -, e0, e1, -⟩ := block_index t
  show V c main_v34 (((cfg1.win 3).blk t).view.emb (ix2 p q)) = V c main_v34 (ix2 k (0 : Fin 1))
  refine congrArg _ (funext fun a => Fin.ext ?_)
  match a with
  | ⟨0, _⟩ => show win1_3.index t (0 : Fin 2) * 8000 + 1 * p.val = k.val; omega
  | ⟨1, _⟩ => show win1_3.index t (1 : Fin 2) * 1 + 1 * q.val = 0; omega

/-- What point `t` writes back is block `t` of the per-edge products of the arrays as the launch finds them. -/
private theorem flushed_eq (c : Dev nD) (t : Fin cfg1.N) :
    (dat1 (F := Ideal) V c).flushed 4 t
      = ((cfg1.win 4).blk t).view.read (Elt Ideal) (KVal.edgeDot (V c main_v13) (V c main_v20) (V c main_v27) (V c main_v34)) := by
  show (cfg1.win 4).cut (grid1.coords t) ((dat1 V c).after 4 t) = _
  rw [after1_4]
  funext j
  obtain ⟨p, q, rfl⟩ : ∃ (p : Fin 8000) (q : Fin 1), j = ix2 p q := ⟨j 0, j 1, eq_ix2 j⟩
  obtain ⟨-, -, -, -, -, -, -, -, e0, e1⟩ := block_index t
  have hN : grid1.N = 80 := N_1
  have ht : t.val < 80 := hN ▸ t.isLt
  have hrow : ((((cfg1.win 4).blk t).view.emb (ix2 p q)) (0 : Fin 2)).val = t.val * 8000 + p.val := by
    show win1_4.index t (0 : Fin 2) * 8000 + 1 * p.val = _; omega
  refine (out_apply _ _ _ _ p q).trans ?_
  show _ = KVal.edgeDot (V c main_v13) (V c main_v20) (V c main_v27) (V c main_v34) (((cfg1.win 4).blk t).view.emb (ix2 p q))
  unfold KVal.edgeDot KVal.rowDot
  rw [blk2_apply V c t p q _ hrow, blk3_apply V c t p q _ hrow]
  refine congrArg (fun z => z * _ * _) (Finset.sum_congr rfl fun d _ => ?_)
  rw [blk0_apply V c t p d _ hrow, blk1_apply V c t p d _ hrow]
  rfl

/-- An index of the result array is in point `t`'s block iff each coordinate is in the block's range on its axis. -/
private theorem mem_blk (t : Fin cfg1.N) (i : S640000x1.Idx) :
    i ∈ ((cfg1.win 4).blk t).view.set
      ↔ ∀ a : Fin 2, win1_4.index t a * S8000x1.size a ≤ (i a).val ∧ (i a).val < win1_4.index t a * S8000x1.size a + S8000x1.size a := by
  show i ∈ ((View.whole main_v35).slice (win1_4.rect t)).set ↔ _
  rw [View.set_slice_whole, Rect.mem_set_unit]
  exact Iff.rfl

/-- Every row of the result array is in the block of the point its row number divided by 8000 names, and every point writes back. -/
private theorem covered (i : S640000x1.Idx) :
    ∃ t : Fin cfg1.N, (cfg1.win 4).flush t = true ∧ i ∈ ((cfg1.win 4).blk t).view.set := by
  have hi0 : (i 0).val < 640000 := (i 0).isLt
  have hi1 : (i 1).val < 1 := (i 1).isLt
  have hN : grid1.N = 80 := N_1
  have hlt : (i 0).val / 8000 < grid1.N := by rw [hN]; omega
  obtain ⟨-, -, -, -, -, -, -, -, e0, e1⟩ := block_index ⟨(i 0).val / 8000, hlt⟩
  have e0' : win1_4.index ⟨(i 0).val / 8000, hlt⟩ (0 : Fin 2) = (i 0).val / 8000 := e0
  refine ⟨⟨(i 0).val / 8000, hlt⟩, flush1_4 _, ?_⟩
  rw [mem_blk]
  intro a
  match a with
  | ⟨0, _⟩ =>
    show win1_4.index ⟨(i 0).val / 8000, hlt⟩ (0 : Fin 2) * 8000 ≤ (i 0).val
      ∧ (i 0).val < win1_4.index ⟨(i 0).val / 8000, hlt⟩ (0 : Fin 2) * 8000 + 8000
    omega
  | ⟨1, _⟩ =>
    show win1_4.index ⟨(i 0).val / 8000, hlt⟩ (1 : Fin 2) * 1 ≤ (i 1).val
      ∧ (i 1).val < win1_4.index ⟨(i 0).val / 8000, hlt⟩ (1 : Fin 2) * 1 + 1
    omega

/-- The launch's result array after its last grid point, whatever the buffers hold when the launch is entered (`V`). -/
theorem arr (c : Dev nD) : (dat1 (F := Ideal) V c).arrAt 4 cfg1.N = KVal.edgeDot (V c main_v13) (V c main_v20) (V c main_v27) (V c main_v34) :=
  (dat1 (F := Ideal) V c).arrAt_eq_of_cover 4 (KVal.edgeDot (V c main_v13) (V c main_v20) (V c main_v27) (V c main_v34))
    (fun t _ => flushed_eq V c t) covered

end Cert.KernelIdeal.Region1

end
-- ==== Proof.Region2.lean ====
import proofs.«415622_j61924838473938_2_alg».proof.Proof.Gen.KernelIdeal.Frame
import proofs.«415622_j61924838473938_2_alg».proof.Proof.KVal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The staging buffer after the body, index by index -/

/-- The zero offsets of the body's whole-block accesses, as a constant function. -/
theorem zero_offsets : (![0, 0] : Fin 2 → Nat) = fun _ => 0 :=
  funext fun a => match a with | ⟨0, _⟩ => rfl | ⟨1, _⟩ => rfl

/-- A column broadcast along the lanes reads, at `(p, q)`, the column's entry of row `p`. -/
theorem bcast_col {α : Type} (v : S5000x1.Idx → α) (p : Fin 5000) (q : Fin 128) :
    broadcastTo S5000x128 v broadcasts_S5000x1_S5000x128 (ix2 p q) = v (ix2 p (0 : Fin 1)) := by
  refine broadcastTo_apply v broadcasts_S5000x1_S5000x128 (ix2 p q) (ix2 p (0 : Fin 1)) fun ax => ?_
  match ax with
  | ⟨0, _⟩ => rfl
  | ⟨1, _⟩ => rfl

/-- A row broadcast along the rows reads, at `(p, q)`, the row's entry of lane `q`. -/
theorem bcast_row {α : Type} (v : S1x128.Idx → α) (p : Fin 5000) (q : Fin 128) :
    broadcastTo S5000x128 v broadcasts_S1x128_S5000x128 (ix2 p q) = v (ix2 (0 : Fin 1) q) :=
  broadcastTo_1b_ab_apply v broadcasts_S1x128_S5000x128 p q

/-- The similarity mask of the block, at a row. -/
theorem pay3_at (x1 x2 : Vec Ideal S5000x1 .f32) (i : S5000x1.Idx) :
    k2_pay3 x1 x2 i = KVal.mSim (x1 i) (x2 i) := by
  unfold k2_pay3 k2_pay2
  rw [shapeCast_self, shapeCast_self]
  rfl

/-- The degree mask of the block, at a row. -/
theorem pay4_at (x2 : Vec Ideal S5000x1 .f32) (i : S5000x1.Idx) :
    k2_pay4 x2 i = KVal.mDeg (x2 i) := by
  unfold k2_pay4 k2_pay2
  rw [shapeCast_self]
  rfl

/-- The third mask of the block, at a row. -/
theorem pay5_at (x1 x2 : Vec Ideal S5000x1 .f32) (i : S5000x1.Idx) :
    k2_pay5 x1 x2 i = KVal.mOther (x1 i) (x2 i) := by
  unfold k2_pay5
  show FloatOps.subf (F := Ideal) (φ := .f32) _ (FloatOps.maximumf (F := Ideal) (φ := .f32) (k2_pay3 x1 x2 i) (k2_pay4 x2 i)) = _
  rw [pay3_at, pay4_at]
  rfl

/-- The number of masks set, at a row. -/
theorem pay6_at (x1 x2 : Vec Ideal S5000x1 .f32) (i : S5000x1.Idx) :
    k2_pay6 x1 x2 i = KVal.plen (x1 i) (x2 i) := by
  unfold k2_pay6
  show FloatOps.addf (F := Ideal) (φ := .f32) (FloatOps.addf (F := Ideal) (φ := .f32) (k2_pay3 x1 x2 i) (k2_pay4 x2 i)) (k2_pay5 x1 x2 i) = _
  rw [pay3_at, pay4_at, pay5_at]
  rfl

/-- The masked sum of the three prompts, at an entry. -/
theorem pay7_at (x1 x2 : Vec Ideal S5000x1 .f32) (x3 x4 x5 : Vec Ideal S1x128 .f32) (p : Fin 5000) (q : Fin 128) :
    k2_pay7 x1 x2 x3 x4 x5 (ix2 p q)
      = FloatOps.addf (F := Ideal) (φ := .f32)
          (FloatOps.addf (F := Ideal) (φ := .f32)
            (FloatOps.mulf (F := Ideal) (φ := .f32) (KVal.mSim (x1 (ix2 p 0)) (x2 (ix2 p 0))) (x3 (ix2 0 q)))
            (FloatOps.mulf (F := Ideal) (φ := .f32) (KVal.mDeg (x2 (ix2 p 0))) (x4 (ix2 0 q))))
          (FloatOps.mulf (F := Ideal) (φ := .f32) (KVal.mOther (x1 (ix2 p 0)) (x2 (ix2 p 0))) (x5 (ix2 0 q))) := by
  unfold k2_pay7
  show FloatOps.addf (F := Ideal) (φ := .f32)
      (FloatOps.addf (F := Ideal) (φ := .f32)
        (FloatOps.mulf (F := Ideal) (φ := .f32) (broadcastTo S5000x128 (k2_pay3 x1 x2) broadcasts_S5000x1_S5000x128 (ix2 p q)) (broadcastTo S5000x128 x3 broadcasts_S1x128_S5000x128 (ix2 p q)))
        (FloatOps.mulf (F := Ideal) (φ := .f32) (broadcastTo S5000x128 (k2_pay4 x2) broadcasts_S5000x1_S5000x128 (ix2 p q)) (broadcastTo S5000x128 x4 broadcasts_S1x128_S5000x128 (ix2 p q))))
      (FloatOps.mulf (F := Ideal) (φ := .f32) (broadcastTo S5000x128 (k2_pay5 x1 x2) broadcasts_S5000x1_S5000x128 (ix2 p q)) (broadcastTo S5000x128 x5 broadcasts_S1x128_S5000x128 (ix2 p q))) = _
  rw [bcast_col, bcast_col, bcast_col, bcast_row, bcast_row, bcast_row, pay3_at, pay4_at, pay5_at]

/-- The staging buffer after the body, at an entry: the spec's entry of the six blocks' entries. -/
theorem out_at (x0 : Vec Ideal S5000x128 .f32) (x1 x2 : Vec Ideal S5000x1 .f32) (x3 x4 x5 : Vec Ideal S1x128 .f32)
    (p : Fin 5000) (q : Fin 128) :
    out2_6 x0 x1 x2 x3 x4 x5 (ix2 p q)
      = KVal.finalAt (x0 (ix2 p q)) (x1 (ix2 p 0)) (x2 (ix2 p 0)) (x3 (ix2 0 q)) (x4 (ix2 0 q)) (x5 (ix2 0 q)) := by
  unfold out2_6
  rw [View.canon_unit_zero zero_offsets]
  simp only [View.ld_unit_zero (S := S5000x128) zero_offsets, View.ld_unit_zero (S := S5000x1) zero_offsets,
    View.ld_unit_zero (S := S1x128) zero_offsets]
  unfold k2_pay1 k2_pay8
  show FloatOps.addf (F := Ideal) (φ := .f32) (x0 (ix2 p q))
      (FloatOps.divf (F := Ideal) (φ := .f32) (k2_pay7 x1 x2 x3 x4 x5 (ix2 p q))
        (broadcastTo S5000x128 (maximumf (k2_pay6 x1 x2) (broadcast S5000x1 (Scalar.ofBits (F := Ideal) .f32 0x3F800000#32))) broadcasts_S5000x1_S5000x128 (ix2 p q))) = _
  rw [bcast_col, pay7_at]
  show FloatOps.addf (F := Ideal) (φ := .f32) (x0 (ix2 p q))
      (FloatOps.divf (F := Ideal) (φ := .f32) _
        (FloatOps.maximumf (F := Ideal) (φ := .f32) (k2_pay6 x1 x2 (ix2 p 0)) (Scalar.ofBits (F := Ideal) .f32 0x3F800000#32))) = _
  rw [pay6_at]
  rfl

/-! ## The blocks' places in their arrays -/

/-- The printed index maps, decided over the grid: the row-blocked windows sit at block `(t, 0)` at point `t`, the three
    prompt windows at block `(0, 0)` at every point. -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- A grid point is below 20. -/
theorem point_lt (t : Fin cfg2.N) : t.val < 20 := lt_of_lt_of_eq t.isLt N_2

/-- The spec's entry at an index whose row is `r` and lane is `l`. -/
theorem finalize_at (x : FVec Ideal S100000x128 .f32) (cc g : FVec Ideal S100000x1 .f32) (p1 p2 p3 : FVec Ideal S1x128 .f32)
    (i : S100000x128.Idx) (r : Fin 100000) (l : Fin 128) (h0 : r.val = (i 0).val) (h1 : l.val = (i 1).val) :
    KVal.finalize x cc g p1 p2 p3 i
      = KVal.finalAt (x i) (cc (ix2 r (0 : Fin 1))) (g (ix2 r (0 : Fin 1))) (p1 (ix2 (0 : Fin 1) l)) (p2 (ix2 (0 : Fin 1) l)) (p3 (ix2 (0 : Fin 1) l)) := by
  obtain rfl : r = ⟨(i 0).val, idx2_lt0 i⟩ := Fin.ext h0
  obtain rfl : l = ⟨(i 1).val, idx2_lt1 i⟩ := Fin.ext h1
  rfl

variable (V : (c : Dev nD) → (b : Ref sig .tc) → Buf (Elt Ideal) ((c : Thread nD τ).loc b))

/-- An entry of the feature block at point `t` is the feature array's entry where the result block's entry sits. -/
theorem feat_blk_at (c : Dev nD) (t : Fin cfg2.N) (p : Fin 5000) (q : Fin 128) :
    iblk2 V c 0 t (ix2 p q) = V c main_arg0 (((cfg2.win 6).blk t).view.emb (ix2 p q)) := by
  obtain ⟨e00, e01, -, -, -, -, -, -, -, -, -, -, e60, e61⟩ := index_facts t
  show V c main_arg0 (((cfg2.win 0).blk t).view.emb (ix2 p q)) = V c main_arg0 (((cfg2.win 6).blk t).view.emb (ix2 p q))
  refine congrArg (V c main_arg0) (funext fun a => Fin.ext ?_)
  match a with
  | ⟨0, _⟩ => show win2_0.index t (0 : Fin 2) * 5000 + 1 * p.val = win2_6.index t (0 : Fin 2) * 5000 + 1 * p.val; omega
  | ⟨1, _⟩ => show win2_0.index t (1 : Fin 2) * 128 + 1 * q.val = win2_6.index t (1 : Fin 2) * 128 + 1 * q.val; omega

/-- An entry of the scatter-sum column's block at point `t` is the column's entry of row `5000 t + p`. -/
theorem sum_blk_at (c : Dev nD) (t : Fin cfg2.N) (p : Fin 5000) (r : Fin 100000) (hr : r.val = t.val * 5000 + p.val) :
    iblk2 V c 1 t (ix2 p (0 : Fin 1)) = V c main_v44 (ix2 r (0 : Fin 1)) := by
  obtain ⟨-, -, e10, e11, -, -, -, -, -, -, -, -, -, -⟩ := index_facts t
  show V c main_v44 (((cfg2.win 1).blk t).view.emb (ix2 p (0 : Fin 1))) = V c main_v44 (ix2 r (0 : Fin 1))
  refine congrArg (V c main_v44) (funext fun a => Fin.ext ?_)
  match a with
  | ⟨0, _⟩ => show win2_1.index t (0 : Fin 2) * 5000 + 1 * p.val = r.val; omega
  | ⟨1, _⟩ => show win2_1.index t (1 : Fin 2) * 1 + 1 * 0 = 0; omega

/-- An entry of the degree column's block at point `t` is the column's entry of row `5000 t + p`. -/
theorem deg_blk_at (c : Dev nD) (t : Fin cfg2.N) (p : Fin 5000) (r : Fin 100000) (hr : r.val = t.val * 5000 + p.val) :
    iblk2 V c 2 t (ix2 p (0 : Fin 1)) = V c main_v45 (ix2 r (0 : Fin 1)) := by
  obtain ⟨-, -, -, -, e20, e21, -, -, -, -, -, -, -, -⟩ := index_facts t
  show V c main_v45 (((cfg2.win 2).blk t).view.emb (ix2 p (0 : Fin 1))) = V c main_v45 (ix2 r (0 : Fin 1))
  refine congrArg (V c main_v45) (funext fun a => Fin.ext ?_)
  match a with
  | ⟨0, _⟩ => show win2_2.index t (0 : Fin 2) * 5000 + 1 * p.val = r.val; omega
  | ⟨1, _⟩ => show win2_2.index t (1 : Fin 2) * 1 + 1 * 0 = 0; omega

/-- The first prompt's block at any point is the prompt. -/
theorem prompt1_blk_at (c : Dev nD) (t : Fin cfg2.N) (q : Fin 128) :
    iblk2 V c 3 t (ix2 (0 : Fin 1) q) = V c main_arg2 (ix2 (0 : Fin 1) q) := by
  obtain ⟨-, -, -, -, -, -, e30, e31, -, -, -, -, -, -⟩ := index_facts t
  show V c main_arg2 (((cfg2.win 3).blk t).view.emb (ix2 (0 : Fin 1) q)) = V c main_arg2 (ix2 (0 : Fin 1) q)
  refine congrArg (V c main_arg2) (funext fun a => Fin.ext ?_)
  match a with
  | ⟨0, _⟩ => show win2_3.index t (0 : Fin 2) * 1 + 1 * 0 = 0; omega
  | ⟨1, _⟩ => show win2_3.index t (1 : Fin 2) * 128 + 1 * q.val = q.val; omega

/-- The second prompt's block at any point is the prompt. -/
theorem prompt2_blk_at (c : Dev nD) (t : Fin cfg2.N) (q : Fin 128) :
    iblk2 V c 4 t (ix2 (0 : Fin 1) q) = V c main_arg3 (ix2 (0 : Fin 1) q) := by
  obtain ⟨-, -, -, -, -, -, -, -, e40, e41, -, -, -, -⟩ := index_facts t
  show V c main_arg3 (((cfg2.win 4).blk t).view.emb (ix2 (0 : Fin 1) q)) = V c main_arg3 (ix2 (0 : Fin 1) q)
  refine congrArg (V c main_arg3) (funext fun a => Fin.ext ?_)
  match a with
  | ⟨0, _⟩ => show win2_4.index t (0 : Fin 2) * 1 + 1 * 0 = 0; omega
  | ⟨1, _⟩ => show win2_4.index t (1 : Fin 2) * 128 + 1 * q.val = q.val; omega

/-- The third prompt's block at any point is the prompt. -/
theorem prompt3_blk_at (c : Dev nD) (t : Fin cfg2.N) (q : Fin 128) :
    iblk2 V c 5 t (ix2 (0 : Fin 1) q) = V c main_arg4 (ix2 (0 : Fin 1) q) := by
  obtain ⟨-, -, -, -, -, -, -, -, -, -, e50, e51, -, -⟩ := index_facts t
  show V c main_arg4 (((cfg2.win 5).blk t).view.emb (ix2 (0 : Fin 1) q)) = V c main_arg4 (ix2 (0 : Fin 1) q)
  refine congrArg (V c main_arg4) (funext fun a => Fin.ext ?_)
  match a with
  | ⟨0, _⟩ => show win2_5.index t (0 : Fin 2) * 1 + 1 * 0 = 0; omega
  | ⟨1, _⟩ => show win2_5.index t (1 : Fin 2) * 128 + 1 * q.val = q.val; omega

/-- The two coordinates of the array index of the result block's entry `(p, q)` at point `t`. -/
theorem res_emb_row (t : Fin cfg2.N) (p : Fin 5000) (q : Fin 128) :
    ((((cfg2.win 6).blk t).view.emb (ix2 p q) : S100000x128.Idx) 0).val = t.val * 5000 + p.val := by
  obtain ⟨-, -, -, -, -, -, -, -, -, -, -, -, e60, e61⟩ := index_facts t
  show win2_6.index t (0 : Fin 2) * 5000 + 1 * p.val = _
  omega
theorem res_emb_lane (t : Fin cfg2.N) (p : Fin 5000) (q : Fin 128) :
    ((((cfg2.win 6).blk t).view.emb (ix2 p q) : S100000x128.Idx) 1).val = q.val := by
  obtain ⟨-, -, -, -, -, -, -, -, -, -, -, -, e60, e61⟩ := index_facts t
  show win2_6.index t (1 : Fin 2) * 128 + 1 * q.val = _
  omega

/-! ## What a point writes back, and the whole array -/

/-- What point `t` writes back is block `t` of the spec of the arrays as the launch finds them. -/
theorem flushed_eq (c : Dev nD) (t : Fin cfg2.N) :
    (dat2 (F := Ideal) V c).flushed 6 t
      = ((cfg2.win 6).blk t).view.read (Elt Ideal)
          (KVal.finalize (V c main_arg0) (V c main_v44) (V c main_v45) (V c main_arg2) (V c main_arg3) (V c main_arg4)) := by
  show (cfg2.win 6).cut (grid2.coords t) ((dat2 (F := Ideal) V c).after 6 t) = _
  rw [after2_6]
  funext j
  obtain ⟨p, q, rfl⟩ : ∃ (p : Fin 5000) (q : Fin 128), j = ix2 p q := ⟨j 0, j 1, eq_ix2 j⟩
  have ht := point_lt t
  have hr : t.val * 5000 + p.val < 100000 := by have := p.isLt; omega
  show out2_6 (iblk2 V c 0 t) (iblk2 V c 1 t) (iblk2 V c 2 t) (iblk2 V c 3 t) (iblk2 V c 4 t) (iblk2 V c 5 t) (ix2 p q)
    = KVal.finalize (V c main_arg0) (V c main_v44) (V c main_v45) (V c main_arg2) (V c main_arg3) (V c main_arg4)
        (((cfg2.win 6).blk t).view.emb (ix2 p q))
  refine (out_at _ _ _ _ _ _ p q).trans ?_
  refine Eq.trans ?_ (finalize_at _ _ _ _ _ _ _ (⟨t.val * 5000 + p.val, hr⟩ : Fin 100000) q
    (res_emb_row t p q).symm (res_emb_lane t p q).symm).symm
  rw [feat_blk_at V c t p q, sum_blk_at V c t p ⟨t.val * 5000 + p.val, hr⟩ rfl, deg_blk_at V c t p ⟨t.val * 5000 + p.val, hr⟩ rfl,
    prompt1_blk_at V c t q, prompt2_blk_at V c t q, prompt3_blk_at V c t q]

/-- An index of the result array is in point `t`'s block iff each coordinate is in the block's range on its axis. -/
theorem mem_blk (t : Fin cfg2.N) (i : S100000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v46).slice (win2_6.rect t)).set ↔ _
  rw [View.set_slice_whole, Rect.mem_set_unit]
  exact Iff.rfl

/-- Every index of the result array is in the block of the point its row falls to, and every point writes back. -/
theorem cover (i : S100000x128.Idx) :
    ∃ t : Fin cfg2.N, (cfg2.win 6).flush t = true ∧ i ∈ ((cfg2.win 6).blk t).view.set := by
  have hi0 : (i 0).val < 100000 := idx2_lt0 i
  have hi1 : (i 1).val < 128 := idx2_lt1 i
  obtain ⟨t, ht⟩ : ∃ t : Fin cfg2.N, t.val = (i 0).val / 5000 :=
    ⟨⟨(i 0).val / 5000, lt_of_lt_of_eq (show (i 0).val / 5000 < 20 by omega) N_2.symm⟩, rfl⟩
  obtain ⟨-, -, -, -, -, -, -, -, -, -, -, -, e60, e61⟩ := index_facts t
  refine ⟨t, flush2_6 t, ?_⟩
  rw [mem_blk]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 128 ≤ (i 1).val ∧ (i 1).val < win2_6.index t (1 : Fin 2) * 128 + 128; omega

/-- The launch's result array after its last grid point, whatever the buffers hold when the launch is entered (`V`). -/
theorem arr (c : Dev nD) : (dat2 (F := Ideal) V c).arrAt 6 cfg2.N = KVal.finalize (V c main_arg0) (V c main_v44) (V c main_v45) (V c main_arg2) (V c main_arg3) (V c main_arg4) :=
  (dat2 (F := Ideal) V c).arrAt_eq_of_cover 6 _ (fun t _ => flushed_eq V c t) cover

end Cert.KernelIdeal.Region2

end
-- ==== Proof.KChainA.lean ====
import proofs.«415622_j61924838473938_2_alg».proof.Proof.Gen.KernelIdeal.Frame
import proofs.«415622_j61924838473938_2_alg».proof.Proof.KVal
import proofs.«415622_j61924838473938_2_alg».proof.Proof.Region0
import proofs.«415622_j61924838473938_2_alg».proof.Proof.Region1
import proofs.«415622_j61924838473938_2_alg».proof.Proof.Region2
import Idealize.ShloMosaic.Lib.StableHlo.Run

set_option maxRecDepth 16384

noncomputable section

namespace Cert.KernelIdeal.KChainA

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The five argument arrays of core `c` at launch. -/
abbrev ax (c : Dev nD) : FVec Ideal S100000x128 .f32 := m ((c.tc : Thread nD τ).loc main_arg0)
abbrev ae (c : Dev nD) : IVec S2x640000 32 := m ((c.tc : Thread nD τ).loc main_arg1)
abbrev ap1 (c : Dev nD) : FVec Ideal S1x128 .f32 := m ((c.tc : Thread nD τ).loc main_arg2)
abbrev ap2 (c : Dev nD) : FVec Ideal S1x128 .f32 := m ((c.tc : Thread nD τ).loc main_arg3)
abbrev ap3 (c : Dev nD) : FVec Ideal S1x128 .f32 := m ((c.tc : Thread nD τ).loc main_arg4)

/-- A buffer that no operation of a host stretch writes: the side condition, one reference inequality per operation. -/
local macro "not_written" ops:ident : tactic =>
  `(tactic| (refine List.forall_iff_forall_mem.mp ?_
             simp only [$ops:ident, List.Forall, StableHlo.nullary_writes, StableHlo.unary_writes, StableHlo.binary_writes,
               StableHlo.ternary_writes, StableHlo.quaternary_writes, StableHlo.reshape_writes, StableHlo.binaryIndexed_writes,
               Finset.mem_singleton, List.flatten_cons, List.flatten_nil, List.append_nil, List.cons_append, List.nil_append]
             repeat' apply And.intro
             all_goals exact StableHlo.devRef_ne_of_ne (by decide)))

/-! ## Region 0's entry: the first host stretch splits the edge list into its two rows -/

private theorem W1_v1 (c : Dev nD) : W1 (F := Ideal) m ρ c (Proc.devRef .tc main_v1) = KVal.srcV (ae m c) := by
  show StableHlo.after hostOps0 (W0 m ρ c) (Proc.devRef .tc main_v1) = _
  after_results
  rfl
private theorem W1_v3 (c : Dev nD) : W1 (F := Ideal) m ρ c (Proc.devRef .tc main_v3) = KVal.dstV (ae m c) := by
  show StableHlo.after hostOps0 (W0 m ρ c) (Proc.devRef .tc main_v3) = _
  after_results
  rfl
private theorem W1_arg0 (c : Dev nD) : W1 (F := Ideal) m ρ c (Proc.devRef .tc main_arg0) = ax m c :=
  StableHlo.after_of_forall_not_mem (b := Proc.devRef .tc main_arg0) _ _ (by not_written hostOps0)
private theorem W1_arg2 (c : Dev nD) : W1 (F := Ideal) m ρ c (Proc.devRef .tc main_arg2) = ap1 m c :=
  StableHlo.after_of_forall_not_mem (b := Proc.devRef .tc main_arg2) _ _ (by not_written hostOps0)
private theorem W1_arg3 (c : Dev nD) : W1 (F := Ideal) m ρ c (Proc.devRef .tc main_arg3) = ap2 m c :=
  StableHlo.after_of_forall_not_mem (b := Proc.devRef .tc main_arg3) _ _ (by not_written hostOps0)
private theorem W1_arg4 (c : Dev nD) : W1 (F := Ideal) m ρ c (Proc.devRef .tc main_arg4) = ap3 m c :=
  StableHlo.after_of_forall_not_mem (b := Proc.devRef .tc main_arg4) _ _ (by not_written hostOps0)

/-! ## Region 0's exit: the row norms in `main_v4`, everything else as entered -/

private theorem W2_v4 (c : Dev nD) : W2 (F := Ideal) m ρ c (Proc.devRef .tc main_v4) = KVal.rowNorm (ax m c) :=
  (W2_arr m ρ c 1).trans ((Region0.arr (V1 m ρ) c).trans (congrArg KVal.rowNorm (W1_arg0 m ρ c)))
private theorem W2_arg0 (c : Dev nD) : W2 (F := Ideal) m ρ c (Proc.devRef .tc main_arg0) = ax m c :=
  ((W2_arr m ρ c 0).trans (((dat0 (V1 m ρ) c).arrAt_in 0 rfl _).trans (A_eq0 (V1 m ρ) c 0))).trans (W1_arg0 m ρ c)
private theorem W2_v1 (c : Dev nD) : W2 (F := Ideal) m ρ c (Proc.devRef .tc main_v1) = KVal.srcV (ae m c) :=
  (W2_of_ne m ρ c main_v1 (by decide)).trans (W1_v1 m ρ c)
private theorem W2_v3 (c : Dev nD) : W2 (F := Ideal) m ρ c (Proc.devRef .tc main_v3) = KVal.dstV (ae m c) :=
  (W2_of_ne m ρ c main_v3 (by decide)).trans (W1_v3 m ρ c)
private theorem W2_arg2 (c : Dev nD) : W2 (F := Ideal) m ρ c (Proc.devRef .tc main_arg2) = ap1 m c :=
  (W2_of_ne m ρ c main_arg2 (by decide)).trans (W1_arg2 m ρ c)
private theorem W2_arg3 (c : Dev nD) : W2 (F := Ideal) m ρ c (Proc.devRef .tc main_arg3) = ap2 m c :=
  (W2_of_ne m ρ c main_arg3 (by decide)).trans (W1_arg3 m ρ c)
private theorem W2_arg4 (c : Dev nD) : W2 (F := Ideal) m ρ c (Proc.devRef .tc main_arg4) = ap3 m c :=
  (W2_of_ne m ρ c main_arg4 (by decide)).trans (W1_arg4 m ρ c)

/-! ## Region 1's entry: the second host stretch gathers the rows and the inverse norms of every edge's two ends -/

private theorem W3_v13 (c : Dev nD) : W3 (F := Ideal) m ρ c (Proc.devRef .tc main_v13) = KVal.gRows (ax m c) (KVal.nidx (KVal.srcV (ae m c))) := by
  show StableHlo.after hostOps1 (W2 m ρ c) (Proc.devRef .tc main_v13) = _
  after_results_simp
  rw [W2_arg0, W2_v1]
  rfl
private theorem W3_v20 (c : Dev nD) : W3 (F := Ideal) m ρ c (Proc.devRef .tc main_v20) = KVal.gRows (ax m c) (KVal.nidx (KVal.dstV (ae m c))) := by
  show StableHlo.after hostOps1 (W2 m ρ c) (Proc.devRef .tc main_v20) = _
  after_results_simp
  rw [W2_arg0, W2_v3]
  rfl
private theorem W3_v27 (c : Dev nD) : W3 (F := Ideal) m ρ c (Proc.devRef .tc main_v27) = KVal.gCol (KVal.invCol (KVal.rowNorm (ax m c))) (KVal.nidx (KVal.srcV (ae m c))) := by
  show StableHlo.after hostOps1 (W2 m ρ c) (Proc.devRef .tc main_v27) = _
  after_results_simp
  rw [W2_v4, W2_v1]
  rfl
private theorem W3_v34 (c : Dev nD) : W3 (F := Ideal) m ρ c (Proc.devRef .tc main_v34) = KVal.gCol (KVal.invCol (KVal.rowNorm (ax m c))) (KVal.nidx (KVal.dstV (ae m c))) := by
  show StableHlo.after hostOps1 (W2 m ρ c) (Proc.devRef .tc main_v34) = _
  after_results_simp
  rw [W2_v4, W2_v3]
  rfl

/-! ## Region 1's exit: the per-edge values in `main_v35`; the arguments and the two index vectors untouched by the
    second host stretch and by the launch -/

private theorem W4_v35 (c : Dev nD) : W4 (F := Ideal) m ρ c (Proc.devRef .tc main_v35) = KVal.edgeV (ax m c) (ae m c) := by
  refine (W4_arr m ρ c 4).trans ((Region1.arr (V3 m ρ) c).trans ?_)
  show KVal.edgeDot (W3 m ρ c (Proc.devRef .tc main_v13)) (W3 m ρ c (Proc.devRef .tc main_v20))
      (W3 m ρ c (Proc.devRef .tc main_v27)) (W3 m ρ c (Proc.devRef .tc main_v34)) = _
  rw [W3_v13, W3_v20, W3_v27, W3_v34]
  rfl
private theorem W4_arg0 (c : Dev nD) : W4 (F := Ideal) m ρ c (Proc.devRef .tc main_arg0) = ax m c :=
  (W4_of_ne m ρ c main_arg0 (by decide)).trans
    ((StableHlo.after_of_forall_not_mem (b := Proc.devRef .tc main_arg0) _ _ (by not_written hostOps1)).trans (W2_arg0 m ρ c))
private theorem W4_v1 (c : Dev nD) : W4 (F := Ideal) m ρ c (Proc.devRef .tc main_v1) = KVal.srcV (ae m c) :=
  (W4_of_ne m ρ c main_v1 (by decide)).trans
    ((StableHlo.after_of_forall_not_mem (b := Proc.devRef .tc main_v1) _ _ (by not_written hostOps1)).trans (W2_v1 m ρ c))
private theorem W4_v3 (c : Dev nD) : W4 (F := Ideal) m ρ c (Proc.devRef .tc main_v3) = KVal.dstV (ae m c) :=
  (W4_of_ne m ρ c main_v3 (by decide)).trans
    ((StableHlo.after_of_forall_not_mem (b := Proc.devRef .tc main_v3) _ _ (by not_written hostOps1)).trans (W2_v3 m ρ c))
private theorem W4_arg2 (c : Dev nD) : W4 (F := Ideal) m ρ c (Proc.devRef .tc main_arg2) = ap1 m c :=
  (W4_of_ne m ρ c main_arg2 (by decide)).trans
    ((StableHlo.after_of_forall_not_mem (b := Proc.devRef .tc main_arg2) _ _ (by not_written hostOps1)).trans (W2_arg2 m ρ c))
private theorem W4_arg3 (c : Dev nD) : W4 (F := Ideal) m ρ c (Proc.devRef .tc main_arg3) = ap2 m c :=
  (W4_of_ne m ρ c main_arg3 (by decide)).trans
    ((StableHlo.after_of_forall_not_mem (b := Proc.devRef .tc main_arg3) _ _ (by not_written hostOps1)).trans (W2_arg3 m ρ c))
private theorem W4_arg4 (c : Dev nD) : W4 (F := Ideal) m ρ c (Proc.devRef .tc main_arg4) = ap3 m c :=
  (W4_of_ne m ρ c main_arg4 (by decide)).trans
    ((StableHlo.after_of_forall_not_mem (b := Proc.devRef .tc main_arg4) _ _ (by not_written hostOps1)).trans (W2_arg4 m ρ c))

/-! ## Region 2's entry: the third host stretch scatter-sums the edge values and the ones into the destination nodes -/

private theorem W5_v44 (c : Dev nD) : W5 (F := Ideal) m ρ c (Proc.devRef .tc main_v44) = KVal.cV (ax m c) (ae m c) := by
  show StableHlo.after hostOps2 (W4 m ρ c) (Proc.devRef .tc main_v44) = _
  after_results_simp
  rw [W4_v3, W4_v35]
  rfl
private theorem W5_v45 (c : Dev nD) : W5 (F := Ideal) m ρ c (Proc.devRef .tc main_v45) = KVal.degV (ae m c) := by
  show StableHlo.after hostOps2 (W4 m ρ c) (Proc.devRef .tc main_v45) = _
  after_results_simp
  rw [W4_v3]
  rfl
private theorem W5_arg0 (c : Dev nD) : W5 (F := Ideal) m ρ c (Proc.devRef .tc main_arg0) = ax m c :=
  (StableHlo.after_of_forall_not_mem (b := Proc.devRef .tc main_arg0) _ _ (by not_written hostOps2)).trans (W4_arg0 m ρ c)
private theorem W5_v1 (c : Dev nD) : W5 (F := Ideal) m ρ c (Proc.devRef .tc main_v1) = KVal.srcV (ae m c) :=
  (StableHlo.after_of_forall_not_mem (b := Proc.devRef .tc main_v1) _ _ (by not_written hostOps2)).trans (W4_v1 m ρ c)
private theorem W5_v3 (c : Dev nD) : W5 (F := Ideal) m ρ c (Proc.devRef .tc main_v3) = KVal.dstV (ae m c) :=
  (StableHlo.after_of_forall_not_mem (b := Proc.devRef .tc main_v3) _ _ (by not_written hostOps2)).trans (W4_v3 m ρ c)
private theorem W5_arg2 (c : Dev nD) : W5 (F := Ideal) m ρ c (Proc.devRef .tc main_arg2) = ap1 m c :=
  (StableHlo.after_of_forall_not_mem (b := Proc.devRef .tc main_arg2) _ _ (by not_written hostOps2)).trans (W4_arg2 m ρ c)
private theorem W5_arg3 (c : Dev nD) : W5 (F := Ideal) m ρ c (Proc.devRef .tc main_arg3) = ap2 m c :=
  (StableHlo.after_of_forall_not_mem (b := Proc.devRef .tc main_arg3) _ _ (by not_written hostOps2)).trans (W4_arg3 m ρ c)
private theorem W5_arg4 (c : Dev nD) : W5 (F := Ideal) m ρ c (Proc.devRef .tc main_arg4) = ap3 m c :=
  (StableHlo.after_of_forall_not_mem (b := Proc.devRef .tc main_arg4) _ _ (by not_written hostOps2)).trans (W4_arg4 m ρ c)

/-! ## Region 2's exit -/

/-- After the third launch the first result's buffer holds the prompted features of the arguments. -/
theorem W6_v46 (c : Dev nD) : W6 (F := Ideal) m ρ c (Proc.devRef .tc main_v46) = KVal.xnewV (ax m c) (ae m c) (ap1 m c) (ap2 m c) (ap3 m c) := by
  refine (W6_arr m ρ c 6).trans ((Region2.arr (V5 m ρ) c).trans ?_)
  show KVal.finalize (W5 m ρ c (Proc.devRef .tc main_arg0)) (W5 m ρ c (Proc.devRef .tc main_v44)) (W5 m ρ c (Proc.devRef .tc main_v45))
      (W5 m ρ c (Proc.devRef .tc main_arg2)) (W5 m ρ c (Proc.devRef .tc main_arg3)) (W5 m ρ c (Proc.devRef .tc main_arg4)) = _
  rw [W5_arg0, W5_v44, W5_v45, W5_arg2, W5_arg3, W5_arg4]
  rfl
/-- … and the two index vectors are still the edge list's two rows. -/
theorem W6_v1 (c : Dev nD) : W6 (F := Ideal) m ρ c (Proc.devRef .tc main_v1) = KVal.srcV (ae m c) := by
  exact (W6_of_ne m ρ c main_v1 (by decide)).trans (W5_v1 m ρ c)
theorem W6_v3 (c : Dev nD) : W6 (F := Ideal) m ρ c (Proc.devRef .tc main_v3) = KVal.dstV (ae m c) := by
  exact (W6_of_ne m ρ c main_v3 (by decide)).trans (W5_v3 m ρ c)

end Cert.KernelIdeal.KChainA

end
-- ==== Proof.KChainB.lean ====
import proofs.«415622_j61924838473938_2_alg».proof.Proof.Gen.KernelIdeal.Frame
import proofs.«415622_j61924838473938_2_alg».proof.Proof.KVal
import proofs.«415622_j61924838473938_2_alg».proof.Proof.Region3
import proofs.«415622_j61924838473938_2_alg».proof.Proof.Region4
import proofs.«415622_j61924838473938_2_alg».proof.Proof.KChainA
import Idealize.ShloMosaic.Lib.StableHlo.Run

set_option maxRecDepth 16384

noncomputable section

namespace Cert.KernelIdeal.KChainB

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg)

/-- The five argument arrays of core `c` at launch. -/
abbrev ax (c : Dev nD) : FVec Ideal S100000x128 .f32 := m ((c.tc : Thread nD τ).loc main_arg0)
abbrev ae (c : Dev nD) : IVec S2x640000 32 := m ((c.tc : Thread nD τ).loc main_arg1)
abbrev ap1 (c : Dev nD) : FVec Ideal S1x128 .f32 := m ((c.tc : Thread nD τ).loc main_arg2)
abbrev ap2 (c : Dev nD) : FVec Ideal S1x128 .f32 := m ((c.tc : Thread nD τ).loc main_arg3)
abbrev ap3 (c : Dev nD) : FVec Ideal S1x128 .f32 := m ((c.tc : Thread nD τ).loc main_arg4)

/-- The prompted features of core `c`'s arguments. -/
abbrev xn (c : Dev nD) : FVec Ideal S100000x128 .f32 := KVal.xnewV (ax m c) (ae m c) (ap1 m c) (ap2 m c) (ap3 m c)

/-! ## The fourth launch: the row norms of the prompted features -/

/-- The launch's input window leaves the prompted features as they were. -/
theorem W7_v46 (c : Dev nD) : W7 (F := Ideal) m ρ c (Proc.devRef .tc main_v46) = xn m c :=
  ((W7_arr m ρ c 0).trans (((dat3 (V6 m ρ) c).arrAt_in 0 rfl _).trans (A_eq3 (V6 m ρ) c 0))).trans (KChainA.W6_v46 m ρ c)
/-- The launch's result: the norm of every row of the prompted features. -/
theorem W7_v47 (c : Dev nD) : W7 (F := Ideal) m ρ c (Proc.devRef .tc main_v47) = KVal.rowNorm (xn m c) :=
  (W7_arr m ρ c 1).trans ((Region3.arr (V6 m ρ) c).trans (congrArg KVal.rowNorm (KChainA.W6_v46 m ρ c)))
/-- The two index vectors are no array of the launch. -/
theorem W7_v1 (c : Dev nD) : W7 (F := Ideal) m ρ c (Proc.devRef .tc main_v1) = KVal.srcV (ae m c) :=
  (W7_of_ne m ρ c main_v1 (by decide)).trans (KChainA.W6_v1 m ρ c)
theorem W7_v3 (c : Dev nD) : W7 (F := Ideal) m ρ c (Proc.devRef .tc main_v3) = KVal.dstV (ae m c) :=
  (W7_of_ne m ρ c main_v3 (by decide)).trans (KChainA.W6_v3 m ρ c)

/-! ## The host operations before the fifth launch: the four gathers -/

/-- The prompted features are not written by these operations. -/
theorem W8_v46 (c : Dev nD) : W8 (F := Ideal) m ρ c (Proc.devRef .tc main_v46) = xn m c :=
  (StableHlo.after_of_forall_not_mem (b := Proc.devRef .tc main_v46) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W7_v46 m ρ c)
/-- The source rows of the prompted features. -/
theorem W8_v54 (c : Dev nD) : W8 (F := Ideal) m ρ c (Proc.devRef .tc main_v54) = KVal.gRows (xn m c) (KVal.nidx (KVal.srcV (ae m c))) := by
  show StableHlo.after hostOps4 (W7 (F := Ideal) m ρ c) (Proc.devRef .tc main_v54) = _
  after_results
  rw [W7_v46 m ρ c, W7_v1 m ρ c]
  rfl
/-- The destination rows of the prompted features. -/
theorem W8_v61 (c : Dev nD) : W8 (F := Ideal) m ρ c (Proc.devRef .tc main_v61) = KVal.gRows (xn m c) (KVal.nidx (KVal.dstV (ae m c))) := by
  show StableHlo.after hostOps4 (W7 (F := Ideal) m ρ c) (Proc.devRef .tc main_v61) = _
  after_results_simp
  rw [W7_v46 m ρ c, W7_v3 m ρ c]
  rfl
/-- The source nodes' row norms. -/
theorem W8_v68 (c : Dev nD) : W8 (F := Ideal) m ρ c (Proc.devRef .tc main_v68) = KVal.gCol (KVal.rowNorm (xn m c)) (KVal.nidx (KVal.srcV (ae m c))) := by
  show StableHlo.after hostOps4 (W7 (F := Ideal) m ρ c) (Proc.devRef .tc main_v68) = _
  after_results_simp
  rw [W7_v47 m ρ c, W7_v1 m ρ c]
  rfl
/-- The destination nodes' row norms. -/
theorem W8_v75 (c : Dev nD) : W8 (F := Ideal) m ρ c (Proc.devRef .tc main_v75) = KVal.gCol (KVal.rowNorm (xn m c)) (KVal.nidx (KVal.dstV (ae m c))) := by
  show StableHlo.after hostOps4 (W7 (F := Ideal) m ρ c) (Proc.devRef .tc main_v75) = _
  after_results_simp
  rw [W7_v47 m ρ c, W7_v3 m ρ c]
  rfl

/-! ## The fifth launch: the keep mask as floats -/

/-- The prompted features are no array of the launch. -/
theorem W9_v46 (c : Dev nD) : W9 (F := Ideal) m ρ c (Proc.devRef .tc main_v46) = xn m c :=
  (W9_of_ne m ρ c main_v46 (by decide)).trans (W8_v46 m ρ c)
/-- The launch's result: per edge, whether the cosine of its two gathered rows reaches the threshold. -/
theorem W9_v76 (c : Dev nD) : W9 (F := Ideal) m ρ c (Proc.devRef .tc main_v76) = KVal.keepF (xn m c) (ae m c) := by
  refine (W9_arr m ρ c 4).trans ((Region4.arr (V8 m ρ) c).trans ?_)
  show KVal.edgeKeep (W8 (F := Ideal) m ρ c (Proc.devRef .tc main_v54)) (W8 (F := Ideal) m ρ c (Proc.devRef .tc main_v61))
    (W8 (F := Ideal) m ρ c (Proc.devRef .tc main_v68)) (W8 (F := Ideal) m ρ c (Proc.devRef .tc main_v75)) = _
  rw [W8_v54 m ρ c, W8_v61 m ρ c, W8_v68 m ρ c, W8_v75 m ρ c]
  rfl

/-! ## The host operations after the fifth launch, and the return -/

/-- At the return the first result's buffer holds the prompted features of the arguments. -/
theorem W10_v46 (c : Dev nD) : W10 (F := Ideal) m ρ c (Proc.devRef .tc main_v46) = KVal.xnewV (ax m c) (ae m c) (ap1 m c) (ap2 m c) (ap3 m c) :=
  (StableHlo.after_of_forall_not_mem (b := Proc.devRef .tc main_v46) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans (W9_v46 m ρ c)
/-- At the return the second result's buffer holds the keep mask of the arguments. -/
theorem W10_v79 (c : Dev nD) : W10 (F := Ideal) m ρ c (Proc.devRef .tc main_v79) = KVal.keepV (ax m c) (ae m c) (ap1 m c) (ap2 m c) (ap3 m c) := by
  show StableHlo.after hostOps5 (W9 (F := Ideal) m ρ c) (Proc.devRef .tc main_v79) = _
  after_results
  rw [W9_v76 m ρ c]
  rfl

end Cert.KernelIdeal.KChainB

end
-- ==== Proof.PreFacts.lean ====
import proofs.«415622_j61924838473938_2_alg».proof.Pre_finite_inputs
import proofs.«415622_j61924838473938_2_alg».proof.Proof.Gen.Pre_finite_inputs
import proofs.«415622_j61924838473938_2_alg».proof.Proof.KVal
import Idealize.ShloMosaic.Lib.ReduceAll
import Idealize.ShloMosaic.Lib.StableHlo.Predicate
import Idealize.ShloMosaic.Lib.IdealHost
import Idealize.ShloMosaic.PureOps.Ideal.Laws

noncomputable section

open scoped BigOperators

namespace Cert.PreFacts

open Idealize.ShloMosaic Idealize.ShloMosaic.ValueIdx

/-- The rank-0 shape has one index. -/
private instance subsingleton_S0 : Subsingleton (⟨0, ![]⟩ : Shape).Idx := ⟨fun a b => funext fun d => d.elim0⟩

/-- The f32 word of plus infinity is the top of the extended reals. -/
private theorem ofBits_inf_f32 : Ideal.ofBits .f32 0x7F800000#32 = ⊤ := by simp [Ideal.ofBits, Ideal.ieee]

/-- An extended real whose absolute value is below plus infinity is a real. -/
private theorem real_of_abs_lt_top (a : EReal) (h : Ideal.cmp .olt (max a (-a)) ⊤ = 1#1) : ∃ r : ℝ, a = (r : EReal) := by
  induction a using EReal.rec with
  | bot => simp [Ideal.cmp] at h
  | top => simp [Ideal.cmp] at h
  | coe r => exact ⟨r, rfl⟩

/-- An extended real that compares unequal to zero is not zero. -/
private theorem ne_of_cmp_une (a : EReal) (h : Ideal.cmp .une a 0 = 1#1) : a ≠ 0 := by
  intro e
  subst e
  simp [Ideal.cmp] at h

/-- An extended real that compares above zero is positive. -/
private theorem pos_of_cmp_ogt (a : EReal) (h : Ideal.cmp .ogt a 0 = 1#1) : 0 < a := by
  by_contra hn
  simp [Ideal.cmp, hn] at h

/-- "All entries have absolute value below plus infinity", read at one entry: the entry is a real. -/
private theorem finite_read {s : Shape} {axes : List (Fin s.rank)} (v : FVec Ideal s .f32)
    (bc : (⟨0, ![]⟩ : Shape).BroadcastsInDim s ![]) (rd : s.ReducesTo axes ⟨0, ![]⟩) (hS : 0 < (⟨0, ![]⟩ : Shape).numel)
    (hb : Host.reduce IntOp.andi (cmpf .olt (Host.absf v) (broadcastInDim s ![] bc (constant (F := Ideal) ⟨0, ![]⟩ .f32 0x7F800000#32)))
      (constantI ⟨0, ![]⟩ 1 1#1) rd hS ix0 = 1#1)
    (i : s.Idx) : ∃ r : ℝ, v i = (r : EReal) := by
  have e := Host.reduce_andi_all _ _ rd hS ix0 hb i
  refine real_of_abs_lt_top (v i) ?_
  rw [← e, ← ofBits_inf_f32]
  show _ = FloatOps.cmpf .olt (FloatOps.hostAbsf (v i)) (broadcastInDim s ![] bc (constant (F := Ideal) ⟨0, ![]⟩ .f32 0x7F800000#32) i)
  rw [broadcastInDim_scalar_apply]
  rfl

/-- "All entries differ from zero", read at one entry. -/
private theorem nonzero_read {s : Shape} {axes : List (Fin s.rank)} (v : FVec Ideal s .f32)
    (bc : (⟨0, ![]⟩ : Shape).BroadcastsInDim s ![]) (rd : s.ReducesTo axes ⟨0, ![]⟩) (hS : 0 < (⟨0, ![]⟩ : Shape).numel)
    (hb : Host.reduce IntOp.andi (cmpf .une v (broadcastInDim s ![] bc (constant (F := Ideal) ⟨0, ![]⟩ .f32 0x00000000#32)))
      (constantI ⟨0, ![]⟩ 1 1#1) rd hS ix0 = 1#1)
    (i : s.Idx) : v i ≠ 0 := by
  have e := Host.reduce_andi_all _ _ rd hS ix0 hb i
  refine ne_of_cmp_une (v i) ?_
  rw [← e, ← Ideal.ofBits_zero_f32]
  show _ = FloatOps.cmpf .une (v i) (broadcastInDim s ![] bc (constant (F := Ideal) ⟨0, ![]⟩ .f32 0x00000000#32) i)
  rw [broadcastInDim_scalar_apply]
  rfl

/-- "Every row's sum of squares is above zero", read at one row. -/
private theorem rowpos_read (x : FVec Ideal ⟨2, ![100000, 128]⟩ .f32)
    (bc : (⟨0, ![]⟩ : Shape).BroadcastsInDim ⟨1, ![100000]⟩ ![])
    (rd1 : (⟨2, ![100000, 128]⟩ : Shape).ReducesTo [1] ⟨1, ![100000]⟩)
    (rd0 : (⟨1, ![100000]⟩ : Shape).ReducesTo [0] ⟨0, ![]⟩) (hS : 0 < (⟨0, ![]⟩ : Shape).numel)
    (hb : Host.reduce IntOp.andi
        (cmpf .ogt (Host.reduceAdd (mulf x x) (constant (F := Ideal) ⟨0, ![]⟩ .f32 0x00000000#32) rd1 hS)
          (broadcastInDim ⟨1, ![100000]⟩ ![] bc (constant (F := Ideal) ⟨0, ![]⟩ .f32 0x00000000#32)))
        (constantI ⟨0, ![]⟩ 1 1#1) rd0 hS ix0 = 1#1)
    (n : Fin 100000) : 0 < ∑ d : Fin 128, x (ix2 n d) * x (ix2 n d) := by
  have e := Host.reduce_andi_all _ _ rd0 hS ix0 hb (ix1 n)
  have hR : (⟨2, ![100000, 128]⟩ : Shape).Reduces [1] ⟨1, ![100000]⟩ := by decide
  have hsum : Host.reduceAdd (mulf x x) (constant (F := Ideal) ⟨0, ![]⟩ .f32 0x00000000#32) rd1 hS (ix1 n)
      = ∑ d : Fin 128, x (ix2 n d) * x (ix2 n d) := by
    rw [hostReduceAdd_apply, Ideal.hostReduceAdd_single rd1 hR]
    show Ideal.ofBits .f32 0x00000000#32 + _ = _
    rw [Ideal.ofBits_zero_f32, zero_add]
    refine Finset.sum_congr rfl fun d _ => ?_
    have hi : hR.lift (ix1 n) d = ix2 n d := by
      funext c
      match c with
      | ⟨0, _⟩ => exact Fin.ext rfl
      | ⟨1, _⟩ => exact Fin.ext rfl
    rw [hi]
    rfl
  rw [← hsum]
  refine pos_of_cmp_ogt _ ?_
  rw [← e, ← Ideal.ofBits_zero_f32]
  show _ = FloatOps.cmpf .ogt (Host.reduceAdd (mulf x x) (constant (F := Ideal) ⟨0, ![]⟩ .f32 0x00000000#32) rd1 hS (ix1 n))
    (broadcastInDim ⟨1, ![100000]⟩ ![] bc (constant (F := Ideal) ⟨0, ![]⟩ .f32 0x00000000#32) (ix1 n))
  rw [broadcastInDim_scalar_apply]
  rfl

/-- The bitwise and of two bit arrays, read at an index. -/
private theorem andi_ix {s : Shape} {w : Nat} (a b : IVec s w) (i : s.Idx) : andi a b i = IntOp.andi (a i) (b i) := rfl

/-- What the precondition says of the inputs: every float entry a real number, every row of `x` of positive
    sum of squares, no prompt entry zero. -/
theorem admissible_of_pre (x : FVec Ideal Cert.KernelIdeal.S100000x128 .f32) (e : IVec Cert.KernelIdeal.S2x640000 32)
    (p1 p2 p3 : FVec Ideal Cert.KernelIdeal.S1x128 .f32)
    (h : Cert.Pre_finite_inputs.fn (F := Ideal) x e p1 p2 p3 = fun _ => 1#1) :
    Cert.KernelIdeal.KVal.Admissible x p1 p2 p3 := by
  have h0 := congrFun h ValueIdx.ix0
  unfold Cert.Pre_finite_inputs.fn Cert.Pre_finite_inputs.fn_part1 Cert.Pre_finite_inputs.fn_part2 at h0
  dsimp only at h0
  simp only [andi_ix, IntOp.andi_eq_one] at h0
  obtain ⟨⟨⟨⟨⟨⟨⟨h1, h2⟩, h3⟩, h4⟩, h5⟩, h6⟩, h7⟩, h8⟩ := h0
  exact
    { x_real := finite_read x _ _ _ h1
      p1_real := finite_read p1 _ _ _ h2
      p2_real := finite_read p2 _ _ _ h3
      p3_real := finite_read p3 _ _ _ h4
      row_pos := rowpos_read x _ _ _ _ h5
      p1_ne := nonzero_read p1 _ _ _ h6
      p2_ne := nonzero_read p2 _ _ _ h7
      p3_ne := nonzero_read p3 _ _ _ h8 }

end Cert.PreFacts

end
-- ==== Proof.LibGatherRows.lean ====
import Idealize.ShloMosaic.PureOps
import Idealize.ShloMosaic.Lib.ValueIdx

/-!
# A row gather read at an index

jnp's `x[idx]` over a rank-2 table `x : [N, C]` and a vector of positions prints as a `stablehlo.gather` whose start
indices are the `[n, 1]` column of positions, whose axis 0 is collapsed and start-indexed and whose axis 1 is an offset
axis of full width. Result element `(p, q)` is `x` at row "position `p`'s start index, read signed and clamped into
`[0, N - 1]`" (StableHLO clamps every start index) and column `q`.
-/

noncomputable section

namespace Idealize.ShloMosaic.GatherRows

open Idealize.ShloMosaic Idealize.ShloMosaic.ValueIdx

/-- The row a start index names: the word read signed, clamped into `[0, N - 1]`. -/
def clampRow (N : Nat) (hN : 0 < N) {w : Nat} (v : BitVec w) : Fin N := ⟨min v.toInt.toNat (N - 1), by omega⟩

/-- Of the two axes `0, 1`, the ones other than `0` are `[1]`. -/
private theorem kept_two_of_zero : (List.finRange 2).filter (· ∉ ([0] : List (Fin 2))) = [1] := by decide

/-- Of the two axes `0, 1`, the ones other than `1` are `[0]`. -/
private theorem kept_two_of_one : (List.finRange 2).filter (· ∉ ([1] : List (Fin 2))) = [0] := by decide

/-- An entry of a one-element list is that element, at whatever position it is read. -/
private theorem getElem_of_eq_singleton {β : Type} {l : List β} {b : β} (hl : l = [b]) (i : Nat) (h : i < l.length) :
    l[i]'h = b := by
  subst hl
  exact List.mem_singleton.1 (List.getElem_mem h)

/-- THE ROW GATHER AT `(p, q)`: row `clampRow (idx p)` of the table, column `q`. The hypotheses are the printed
    dimension numbers, each closed by `rfl` at a program's literal record. -/
theorem gather_rows_apply {α : Type} {N C n w : Nat} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (p : Fin n) (q : Fin C) :
    Host.gather d x idx (ix2 p q) = x (ix2 (clampRow N hN (idx (ix2 p (0 : Fin 1)))) q) := by
  unfold Host.gather
  have hb0 : (0 : Fin 2) ∉ d.operandBatchingDims := by rw [hob]; exact List.not_mem_nil
  have hb1 : (1 : Fin 2) ∉ d.operandBatchingDims := by rw [hob]; exact List.not_mem_nil
  have hk0 : (0 : Fin 2) ∉ d.sKept := by rw [GatherDims.mem_sKept, hcoll]; simp
  have hsk : d.sKept = [1] := by
    show Shape.kept _ (d.collapsedSliceDims ++ d.operandBatchingDims) = [1]
    rw [hcoll, hob]
    exact kept_two_of_zero
  have hbd : d.batchDims = [0] := by
    show Shape.kept _ d.offsetDims = [0]
    rw [hoff]
    exact kept_two_of_one
  have hk1 : (1 : Fin 2) ∈ d.sKept := by rw [hsk]; exact List.mem_singleton.mpr rfl
  have hm0 : (0 : Fin 2) ∈ d.startIndexMap := by rw [hsim]; exact List.mem_singleton.mpr rfl
  have hm1 : (1 : Fin 2) ∉ d.startIndexMap := by
    rw [hsim]
    show (1 : Fin 2) ∉ ([0] : List (Fin 2))
    decide
  have hsl : d.sliceSizes 0 = 1 := d.slice_collapsed 0 (by rw [hcoll]; exact List.mem_singleton.mpr rfl)
  refine congrArg x (funext fun a => Fin.ext ?_)
  match a with
  | ⟨0, _⟩ =>
    show d.start (ix2 p q) idx 0 + d.batchCoord (ix2 p q) 0 + d.offCoord (ix2 p q) 0 = _
    rw [d.batchCoord_eq_zero _ _ hb0, d.offCoord_eq_zero _ _ hk0]
    simp only [Nat.add_zero]
    unfold GatherDims.start
    rw [dif_pos hm0]
    show min (idx _).toInt.toNat (N - d.sliceSizes 0) = min (idx (ix2 p (0 : Fin 1))).toInt.toNat (N - 1)
    rw [hsl]
    have hsi : d.siIdx (ix2 p q) ⟨List.idxOf (0 : Fin 2) d.startIndexMap, List.idxOf_lt_length_iff.2 hm0⟩
        = ix2 p (0 : Fin 1) := by
      funext b
      refine Fin.ext ?_
      match b with
      | ⟨0, _⟩ =>
        unfold GatherDims.siIdx
        rw [dif_neg (by rw [hivd]; exact Nat.zero_ne_one)]
        unfold GatherDims.siCoord
        simp only [Fin.val_cast]
        rw [getElem_of_eq_singleton hbd]
        rfl
      | ⟨1, _⟩ =>
        unfold GatherDims.siIdx
        rw [dif_pos (by rw [hivd])]
        show List.idxOf (0 : Fin 2) d.startIndexMap = 0
        rw [hsim]
        exact List.idxOf_cons_self
    rw [hsi]
  | ⟨1, _⟩ =>
    show d.start (ix2 p q) idx 1 + d.batchCoord (ix2 p q) 1 + d.offCoord (ix2 p q) 1 = q.val
    rw [d.batchCoord_eq_zero _ _ hb1]
    unfold GatherDims.start GatherDims.offCoord
    rw [dif_neg hm1, dif_pos hk1]
    simp only [Nat.zero_add]
    rw [getElem_of_eq_singleton hoff]
    rfl

end Idealize.ShloMosaic.GatherRows

end
-- ==== Proof.LibReadOps.lean ====
import Idealize.ShloMosaic.PureOps
import Idealize.ShloMosaic.Lib.ValueIdx
import Idealize.ShloMosaic.Lib.ReduceAll
import Idealize.ShloMosaic.Lib.Pipeline.Value

/-!
# Four host operations read at an index

An `and`-reduction of a rank-3 array of bits over its last axis, an integer add-reduction of an `[A, 3]` array over
its second axis, and a concatenation of three columns (along axis 1) or of three rows (along axis 0), each read at one
index of the result.
-/

noncomputable section

namespace Idealize.ShloMosaic.ReadOps

open Idealize.ShloMosaic Idealize.ShloMosaic.ValueIdx

/-- A fold by `and` over a finite set of bits, from a bit `b`, is one exactly when `b` and every bit of the set are one. -/
private theorem fold_andi_eq_one {ι : Type} (S : Finset ι) (b : BitVec 1) (f : ι → BitVec 1) :
    S.fold IntOp.andi b f = 1#1 ↔ b = 1#1 ∧ ∀ k ∈ S, f k = 1#1 := by
  induction S using Finset.cons_induction with
  | empty => simp
  | cons a S ha ih =>
    rw [Finset.fold_cons, IntOp.andi_eq_one, ih, Finset.forall_mem_cons]
    tauto

/-- A fold of a commutative and associative operation over the three positions `0, 1, 2`, from `b`, is `b` combined
    with the three entries in order. -/
private theorem fold_fin_three {α : Type} (op : α → α → α) [Std.Commutative op] [Std.Associative op] (b : α)
    (f : Fin 3 → α) : (Finset.univ : Finset (Fin 3)).fold op b f = op (op (op b (f 0)) (f 1)) (f 2) := by
  rw [Finset.fold, Fin.univ_val_map, Multiset.coe_fold_l]
  rfl

/-- An `and`-reduction over the last axis, from the initial bit one: the result at `(n, j)` is one exactly when every
    bit of row `(n, j, ·)` is one. -/
theorem reduce_andi_last3 {A B C : Nat} (x : IVec ⟨3, ![A, B, C]⟩ 1) (init : IVec ⟨0, ![]⟩ 1) (hinit : init ix0 = 1#1)
    (h : (⟨3, ![A, B, C]⟩ : Shape).ReducesTo [2] ⟨2, ![A, B]⟩) (hu : 0 < (⟨0, ![]⟩ : Shape).numel) (n : Fin A) (j : Fin B) :
    Host.reduce IntOp.andi x init h hu (ix2 n j) = 1#1 ↔ ∀ d : Fin C, x (ix3 n j d) = 1#1 := by
  have hR : (⟨3, ![A, B, C]⟩ : Shape).Reduces [2] ⟨2, ![A, B]⟩ := ⟨h.1, Nat.two_pos, h.2⟩
  rw [Host.reduce_eq_fold_single IntOp.andi x init h hR hu, fold_andi_eq_one]
  have hi : init (Shape.Idx.first hu) = 1#1 := by rw [eq_ix0 (Shape.Idx.first hu)]; exact hinit
  have hl : ∀ d : Fin C, hR.lift (ix2 n j) d = ix3 n j d := by
    intro d
    funext c
    refine Fin.ext ?_
    match c with
    | ⟨0, _⟩ => rfl
    | ⟨1, _⟩ => rfl
    | ⟨2, _⟩ => rfl
  constructor
  · intro hall d
    exact (congrArg x (hl d)).symm.trans (hall.2 d (Finset.mem_univ _))
  · intro hall
    exact ⟨hi, fun k _ => (congrArg x (hl k)).trans (hall k)⟩

/-- An integer add-reduction of an `[A, 3]` array over its second axis: the result at `n` is the initial word plus the
    three words of row `n`, added in order. -/
theorem reduce_addi_three {A : Nat} (x : IVec ⟨2, ![A, 3]⟩ 32) (init : IVec ⟨0, ![]⟩ 32)
    (h : (⟨2, ![A, 3]⟩ : Shape).ReducesTo [1] ⟨1, ![A]⟩) (hu : 0 < (⟨0, ![]⟩ : Shape).numel) (n : Fin A) :
    Host.reduce IntOp.addi x init h hu (ix1 n)
      = IntOp.addi (IntOp.addi (IntOp.addi (init ix0) (x (ix2 n (0 : Fin 3)))) (x (ix2 n (1 : Fin 3)))) (x (ix2 n (2 : Fin 3))) := by
  have hR : (⟨2, ![A, 3]⟩ : Shape).Reduces [1] ⟨1, ![A]⟩ := ⟨h.1, Nat.one_pos, h.2⟩
  rw [Host.reduce_eq_fold_single IntOp.addi x init h hR hu]
  refine (fold_fin_three IntOp.addi _ _).trans ?_
  have hl : ∀ k : Fin 3, hR.lift (ix1 n) k = ix2 n k := by
    intro k
    funext c
    refine Fin.ext ?_
    match c with
    | ⟨0, _⟩ => rfl
    | ⟨1, _⟩ => rfl
  have hx : ∀ k : Fin 3, (x ∘ hR.lift (ix1 n)) k = x (ix2 n k) := fun k => congrArg x (hl k)
  have hb : init (Shape.Idx.first hu) = init ix0 := congrArg init (eq_ix0 _)
  exact congrArg₂ IntOp.addi (congrArg₂ IntOp.addi (congrArg₂ IntOp.addi hb (hx 0)) (hx 1)) (hx 2)

/-- Three columns joined along axis 1: column `k` of the result is the `k`-th piece. -/
theorem concat3_cols {α : Type} {A : Nat} (a b c : (⟨2, ![A, 1]⟩ : Shape).Idx → α)
    (h : Shape.Concatenates (([⟨⟨2, ![A, 1]⟩, a⟩, ⟨⟨2, ![A, 1]⟩, b⟩, ⟨⟨2, ![A, 1]⟩, c⟩] : List ((s : Shape) × (s.Idx → α))).map (·.1)) ⟨2, ![A, 3]⟩ 1)
    (n : Fin A) :
    concatenate ⟨2, ![A, 3]⟩ 1 [⟨⟨2, ![A, 1]⟩, a⟩, ⟨⟨2, ![A, 1]⟩, b⟩, ⟨⟨2, ![A, 1]⟩, c⟩] h (ix2 n (0 : Fin 3)) = a (ix2 n (0 : Fin 1))
    ∧ concatenate ⟨2, ![A, 3]⟩ 1 [⟨⟨2, ![A, 1]⟩, a⟩, ⟨⟨2, ![A, 1]⟩, b⟩, ⟨⟨2, ![A, 1]⟩, c⟩] h (ix2 n (1 : Fin 3)) = b (ix2 n (0 : Fin 1))
    ∧ concatenate ⟨2, ![A, 3]⟩ 1 [⟨⟨2, ![A, 1]⟩, a⟩, ⟨⟨2, ![A, 1]⟩, b⟩, ⟨⟨2, ![A, 1]⟩, c⟩] h (ix2 n (2 : Fin 3)) = c (ix2 n (0 : Fin 1)) := by
  have hi : ∀ k : Fin 3, ∀ b : Fin 2, b.cast rfl ≠ (1 : Fin 2) →
      ((ix2 n (0 : Fin 1) : (⟨2, ![A, 1]⟩ : Shape).Idx) b).val = ((ix2 n k : (⟨2, ![A, 3]⟩ : Shape).Idx) (b.cast rfl)).val := by
    intro k b hb
    match b with
    | ⟨0, _⟩ => rfl
    | ⟨1, _⟩ => exact absurd rfl hb
  refine ⟨?_, ?_, ?_⟩
  · exact concatenate_apply_piece 1 _ h _ 0 (by show (0 : Nat) < 3; omega) ⟨2, ![A, 1]⟩ a rfl rfl 0 rfl (ix2 n (0 : Fin 1)) (hi 0) rfl
  · exact concatenate_apply_piece 1 _ h _ 1 (by show (1 : Nat) < 3; omega) ⟨2, ![A, 1]⟩ b rfl rfl 1 rfl (ix2 n (0 : Fin 1)) (hi 1) rfl
  · exact concatenate_apply_piece 1 _ h _ 2 (by show (2 : Nat) < 3; omega) ⟨2, ![A, 1]⟩ c rfl rfl 2 rfl (ix2 n (0 : Fin 1)) (hi 2) rfl

/-- Three rows joined along axis 0: row `k` of the result is the `k`-th piece. -/
theorem concat3_rows {α : Type} {C : Nat} (a b c : (⟨2, ![1, C]⟩ : Shape).Idx → α)
    (h : Shape.Concatenates (([⟨⟨2, ![1, C]⟩, a⟩, ⟨⟨2, ![1, C]⟩, b⟩, ⟨⟨2, ![1, C]⟩, c⟩] : List ((s : Shape) × (s.Idx → α))).map (·.1)) ⟨2, ![3, C]⟩ 0)
    (d : Fin C) :
    concatenate ⟨2, ![3, C]⟩ 0 [⟨⟨2, ![1, C]⟩, a⟩, ⟨⟨2, ![1, C]⟩, b⟩, ⟨⟨2, ![1, C]⟩, c⟩] h (ix2 (0 : Fin 3) d) = a (ix2 (0 : Fin 1) d)
    ∧ concatenate ⟨2, ![3, C]⟩ 0 [⟨⟨2, ![1, C]⟩, a⟩, ⟨⟨2, ![1, C]⟩, b⟩, ⟨⟨2, ![1, C]⟩, c⟩] h (ix2 (1 : Fin 3) d) = b (ix2 (0 : Fin 1) d)
    ∧ concatenate ⟨2, ![3, C]⟩ 0 [⟨⟨2, ![1, C]⟩, a⟩, ⟨⟨2, ![1, C]⟩, b⟩, ⟨⟨2, ![1, C]⟩, c⟩] h (ix2 (2 : Fin 3) d) = c (ix2 (0 : Fin 1) d) := by
  have hi : ∀ k : Fin 3, ∀ b : Fin 2, b.cast rfl ≠ (0 : Fin 2) →
      ((ix2 (0 : Fin 1) d : (⟨2, ![1, C]⟩ : Shape).Idx) b).val = ((ix2 k d : (⟨2, ![3, C]⟩ : Shape).Idx) (b.cast rfl)).val := by
    intro k b hb
    match b with
    | ⟨0, _⟩ => exact absurd rfl hb
    | ⟨1, _⟩ => rfl
  refine ⟨?_, ?_, ?_⟩
  · exact concatenate_apply_piece 0 _ h _ 0 (by show (0 : Nat) < 3; omega) ⟨2, ![1, C]⟩ a rfl rfl 0 rfl (ix2 (0 : Fin 1) d) (hi 0) rfl
  · exact concatenate_apply_piece 0 _ h _ 1 (by show (1 : Nat) < 3; omega) ⟨2, ![1, C]⟩ b rfl rfl 1 rfl (ix2 (0 : Fin 1) d) (hi 1) rfl
  · exact concatenate_apply_piece 0 _ h _ 2 (by show (2 : Nat) < 3; omega) ⟨2, ![1, C]⟩ c rfl rfl 2 rfl (ix2 (0 : Fin 1) d) (hi 2) rfl

end Idealize.ShloMosaic.ReadOps

end
-- ==== Proof.BridgeEdge.lean ====
import proofs.«415622_j61924838473938_2_alg».proof.Proof.KVal
import proofs.«415622_j61924838473938_2_alg».proof.Proof.RefRead
import proofs.«415622_j61924838473938_2_alg».proof.Proof.LibGatherRows

import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Idealize.ShloMosaic.Lib.IdealHost

set_option maxRecDepth 16384

noncomputable section

open scoped BigOperators

namespace Cert.Bridge

open Idealize.ShloMosaic Idealize.ShloMosaic.ValueIdx Idealize.ShloMosaic.GatherRows
open Cert.KernelIdeal (S100000x128 S2x640000 S1x128 S640000 S640000x1 S100000x1 S100000)
open Cert.KernelIdeal.KVal
open Cert.ReferenceIdeal.ReadP

variable (x : FVec Ideal S100000x128 .f32) (e : IVec S2x640000 32) (p1 p2 p3 : FVec Ideal S1x128 .f32)

/-! ## The index vectors: the reference normalises the same two rows of the edge list, six times -/

theorem idx_v15 : val_main_v15 (F := Ideal) e = nidx (srcV e) := rfl
theorem idx_v22 : val_main_v22 (F := Ideal) e = nidx (dstV e) := rfl
theorem idx_v80 : val_main_v80 (F := Ideal) e = nidx (srcV e) := rfl
theorem idx_v89 : val_main_v89 (F := Ideal) e = nidx (dstV e) := rfl
theorem idx_v98 : val_main_v98 (F := Ideal) e = nidx (srcV e) := rfl
theorem idx_v105 : val_main_v105 (F := Ideal) e = nidx (dstV e) := rfl

/-- The row gather of both programs at an index: row `clampRow` of the start index, same column. -/
theorem gRows_apply (y : FVec Ideal S100000x128 .f32) (i : IVec S640000x1 32) (k : Fin 640000) (d : Fin 128) :
    gRows y i (ix2 k d) = y (ix2 (clampRow 100000 (by decide) (i (ix2 k (0 : Fin 1)))) d) :=
  gather_rows_apply (by decide) Cert.KernelIdeal.gather_S100000x128_S640000x1_S640000x128_1_0_n_n_0_1_1128
    rfl rfl rfl rfl rfl y i k d
theorem gCol_apply (y : FVec Ideal S100000x1 .f32) (i : IVec S640000x1 32) (k : Fin 640000) :
    gCol y i (ix2 k (0 : Fin 1)) = y (ix2 (clampRow 100000 (by decide) (i (ix2 k (0 : Fin 1)))) (0 : Fin 1)) :=
  gather_rows_apply (by decide) Cert.KernelIdeal.gather_S100000x1_S640000x1_S640000x1_1_0_n_n_0_1_11
    rfl rfl rfl rfl rfl y i k (0 : Fin 1)

/-! ## The per-edge values agree -/

/-- A real sum's coercion to the extended reals is the sum of the coercions. -/
private theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Over the reals: an inner product times two scalars is the inner product of the two scaled vectors. -/
private theorem real_edge {ι : Type} (s : Finset ι) (a b : ι → ℝ) (c c' : ℝ) :
    (∑ d ∈ s, a d * b d) * c * c' = ∑ d ∈ s, (a d * c) * (b d * c') := by
  rw [Finset.sum_mul, Finset.sum_mul]
  exact Finset.sum_congr rfl fun d _ => by ring

/-- Over the extended reals, for real vectors `a`, `b` of positive squared lengths `S`, `T`:
    `(Σ a b) · (1/√S) · (1/√T) = 0 + Σ (a/√(0+S)) · (b/√(0+T))`. -/
private theorem cos_eq (a b : Fin 128 → EReal) (ha : ∀ d, ∃ r : ℝ, a d = (r : EReal)) (hb : ∀ d, ∃ r : ℝ, b d = (r : EReal))
    (hS : 0 < ∑ d, a d * a d) (hT : 0 < ∑ d, b d * b d) :
    ((∑ d, a d * b d) * Ideal.div 1 (Ideal.sqrt (∑ d, a d * a d))) * Ideal.div 1 (Ideal.sqrt (∑ d, b d * b d))
      = 0 + ∑ d, Ideal.div (a d) (Ideal.sqrt (0 + ∑ d, a d * a d)) * Ideal.div (b d) (Ideal.sqrt (0 + ∑ d, b d * b d)) := by
  choose r hr using ha
  choose q hq using hb
  obtain rfl : a = fun d => (r d : EReal) := funext hr
  obtain rfl : b = fun d => (q d : EReal) := funext hq
  simp only [zero_add, ← EReal.coe_mul, ← coe_sum] at hS hT ⊢
  have hS' : 0 < ∑ d, r d * r d := by exact_mod_cast hS
  have hT' : 0 < ∑ d, q d * q d := by exact_mod_cast hT
  rw [Ideal.sqrt_coe, if_neg (not_lt.mpr hS'.le), Ideal.sqrt_coe, if_neg (not_lt.mpr hT'.le)]
  have hs : Real.sqrt (∑ d, r d * r d) ≠ 0 := (Real.sqrt_pos.mpr hS').ne'
  have ht : Real.sqrt (∑ d, q d * q d) ≠ 0 := (Real.sqrt_pos.mpr hT').ne'
  simp only [Ideal.div_coe hs, Ideal.div_coe ht, one_mul, ← EReal.coe_mul, ← coe_sum]
  exact congrArg _ (real_edge _ _ _ _ _)

/-- A `[n, 1]` column cast to `[n]` reads, at `k`, the column at `(k, 0)`. -/
private theorem shapeCast_col_apply {α : Type} (y : S640000x1.Idx → α) (h : S640000x1.ShapeCasts S640000) (k : Fin 640000) :
    shapeCast S640000 y h (ix1 k) = y (ix2 k (0 : Fin 1)) :=
  shapeCast_apply y h _ _ (by
    rw [Shape.rowMajor_val_two, Shape.rowMajor_val_one]
    show k.val * 1 + 0 = k.val
    omega)

/-- The launch's value at edge `k`. -/
private theorem edgeDot_apply (a b : FVec Ideal Cert.KernelIdeal.S640000x128 .f32) (u v : FVec Ideal S640000x1 .f32) (k : Fin 640000) :
    edgeDot a b u v (ix2 k (0 : Fin 1)) = (rowDot a b k * u (ix2 k (0 : Fin 1))) * v (ix2 k (0 : Fin 1)) := rfl

/-- The inverse norm of row `s`: one over the square root of the row's sum of squares. -/
private theorem invCol_rowNorm_apply (s : Fin 100000) :
    invCol (rowNorm x) (ix2 s (0 : Fin 1)) = Ideal.div 1 (Ideal.sqrt (∑ d : Fin 128, x (ix2 s d) * x (ix2 s d))) := by
  show Ideal.div (broadcastInDim _ _ _ (constant (F := Ideal) Cert.KernelIdeal.S_ .f32 0x3F800000#32) (ix2 s (0 : Fin 1)))
      (Ideal.sqrt (∑ d : Fin 128, x (ix2 s d) * x (ix2 s d))) = _
  rw [broadcastInDim_scalar_apply]
  show Ideal.div (Ideal.ofBits .f32 0x3F800000#32) _ = _
  rw [Ideal.ofBits_one_f32]

/-- The reference's normalised features at `(s, d)`: the entry over the square root of zero plus the row's sum of squares. -/
private theorem v9_at (s : Fin 100000) (d : Fin 128) :
    val_main_v9 (F := Ideal) x (ix2 s d)
      = Ideal.div (x (ix2 s d)) (Ideal.sqrt (0 + ∑ d' : Fin 128, x (ix2 s d') * x (ix2 s d'))) := by
  rw [val_main_v9_apply, val_main_v8_apply, val_main_v7_apply, val_main_v6_apply, val_main_v5_apply]
  simp only [val_main_v4_apply, val_main_cst_apply, Ideal.hostDivf_def, Ideal.hostUnary_sqrt_def, Ideal.mulf_def, Ideal.ofBits_def,
    Ideal.ofBits_zero_f32]
  have hi : ∀ d' : Fin 128, idx_main_v5 (idx_main_v6 (idx_main_v8 (ix2 s d))) d' = ix2 s d' := fun d' =>
    funext fun a => Fin.ext (by match a with | ⟨0, _⟩ => rfl | ⟨1, _⟩ => rfl)
  simp only [hi]

/-- On admissible inputs the kernel's per-edge value — the inner product of the two raw rows times the two inverse
    norms — is the reference's inner product of the two normalised rows. -/
theorem edge_eq (h : Admissible x p1 p2 p3) :
    shapeCast S640000 (edgeV x e) Cert.KernelIdeal.Gen.shapeCasts_S640000x1_S640000 = val_main_v25 (F := Ideal) x e := by
  funext i
  obtain ⟨k, rfl⟩ : ∃ k : Fin 640000, i = ix1 k := ⟨i 0, eq_ix1 i⟩
  rw [shapeCast_col_apply]
  unfold edgeV
  rw [edgeDot_apply]
  unfold rowDot
  simp only [gRows_apply, gCol_apply, invCol_rowNorm_apply]
  rw [val_main_v25_apply]
  have hi : ∀ d : Fin 128, idx_main_v25 (ix1 k) d = ix2 k d := fun d =>
    funext fun a => Fin.ext (by match a with | ⟨0, _⟩ => rfl | ⟨1, _⟩ => rfl)
  simp only [hi, val_main_v24_apply, val_main_cst_3_apply]
  unfold val_main_v16 val_main_v23
  simp only [gather_rows_apply (by decide : 0 < 100000) Cert.ReferenceIdeal.gather_S100000x128_S640000x1_S640000x128_1_0_n_n_0_1_1128
    rfl rfl rfl rfl rfl, idx_v15, idx_v22, v9_at, Ideal.mulf_def, Ideal.ofBits_def, Ideal.ofBits_zero_f32]
  exact cos_eq _ _ (fun d => h.x_real _) (fun d => h.x_real _) (h.row_pos _) (h.row_pos _)

end Cert.Bridge

end
-- ==== Proof.LibBitFloat.lean ====
import Idealize.ShloMosaic.PureOps.Ideal
import Idealize.ShloMosaic.PureOps.Ideal.Laws
import Idealize.ShloMosaic.Lib.ValueIdx

/-!
# Bits and small floats over the extended reals

A scalar toolbox at the ideal float values (the extended reals). It reads:

* the f32 words of one and one half as the extended reals they denote;
* a one-bit word, widened to 32 bits and converted to a float, as the extended real 0 or 1, and the small words
  0, 1, 2, 3 converted likewise; sums of widened bits as words;
* a float comparison's result bit as the order relation (or the disequality) it decides;
* the bit recovered from its float by comparing against one half;
* the complement of a disjunction of two bits as one minus the larger of the two floats.
-/

noncomputable section

namespace Idealize.ShloMosaic.BitFloat

open Idealize.ShloMosaic

/-! ## The f32 words -/

/-- The word of 1.0 denotes one. -/
theorem ofBits_one_f32 : Ideal.ofBits .f32 0x3F800000#32 = 1 := by
  simp [Ideal.ofBits, Ideal.ieee, -EReal.coe_mul]; norm_num

/-- The word of 0.5 denotes the real one half. -/
theorem ofBits_half_f32 : Ideal.ofBits .f32 0x3F000000#32 = ((1 / 2 : ℝ) : EReal) := by
  simp [Ideal.ofBits, Ideal.ieee, -EReal.coe_mul]; norm_num

/-- A scalar literal is the extended real its word denotes. -/
theorem scalar_ofBits_f32 (w : BitVec 32) : Scalar.ofBits (F := Ideal) .f32 w = Ideal.ofBits .f32 w := rfl

/-- A vector literal's element is the extended real its word denotes. -/
theorem floatOps_ofBits_f32 (w : BitVec 32) : FloatOps.ofBits (F := Ideal) .f32 w = Ideal.ofBits .f32 w := rfl

/-- The scalar literal of 1.0 is one. -/
theorem scalar_one_f32 : Scalar.ofBits (F := Ideal) .f32 0x3F800000#32 = 1 := ofBits_one_f32

/-- The scalar literal of 0.0 is zero. -/
theorem scalar_zero_f32 : Scalar.ofBits (F := Ideal) .f32 0x00000000#32 = 0 := Ideal.ofBits_zero_f32

/-- The scalar literal of 0.5 is the real one half. -/
theorem scalar_half_f32 : Scalar.ofBits (F := Ideal) .f32 0x3F000000#32 = ((1 / 2 : ℝ) : EReal) := ofBits_half_f32

/-- One half is above zero. -/
theorem half_pos : (0 : EReal) < Ideal.ofBits .f32 0x3F000000#32 := by
  rw [ofBits_half_f32, ← EReal.coe_zero, EReal.coe_lt_coe_iff]; norm_num

/-- One half is at most one. -/
theorem half_le_one : Ideal.ofBits .f32 0x3F000000#32 ≤ (1 : EReal) := by
  rw [ofBits_half_f32, ← EReal.coe_one, EReal.coe_le_coe_iff]; norm_num

/-- Zero is below one half, strictly: one half is not at most zero. -/
theorem not_half_le_zero : ¬ Ideal.ofBits .f32 0x3F000000#32 ≤ (0 : EReal) := not_le.mpr half_pos

/-! ## A bit as a float; small words as floats -/

/-- A signed conversion of a word is the real of its signed value. -/
theorem sitofp_eq {w : Nat} (x : BitVec w) : FloatOps.sitofp (F := Ideal) .f32 x = ((x.toInt : ℝ) : EReal) := rfl

/-- An unsigned conversion of a word is the real of its unsigned value. -/
theorem uitofp_eq {w : Nat} (x : BitVec w) : FloatOps.uitofp (F := Ideal) .f32 x = ((x.toNat : ℝ) : EReal) := rfl

/-- The bit 0 widened is the word 0. -/
theorem setWidth_bit_zero : (0#1 : BitVec 1).setWidth 32 = 0#32 := by decide

/-- The bit 1 widened is the word 1. -/
theorem setWidth_bit_one : (1#1 : BitVec 1).setWidth 32 = 1#32 := by decide

/-- A widened bit is the word 0 or the word 1. -/
theorem setWidth_bit_cases (a : BitVec 1) : a.setWidth 32 = 0#32 ∨ a.setWidth 32 = 1#32 := by
  revert a; decide

/-- A bit is 0 or 1. -/
theorem bit_cases (a : BitVec 1) : a = 0#1 ∨ a = 1#1 := by revert a; decide

/-- The word 0 converts to zero. -/
theorem sitofp_word_zero : FloatOps.sitofp (F := Ideal) .f32 (0#32 : BitVec 32) = 0 := by
  rw [sitofp_eq, show (0#32 : BitVec 32).toInt = 0 from by decide]; simp

/-- The word 1 converts to one. -/
theorem sitofp_word_one : FloatOps.sitofp (F := Ideal) .f32 (1#32 : BitVec 32) = 1 := by
  rw [sitofp_eq, show (1#32 : BitVec 32).toInt = 1 from by decide]; simp

/-- The word 2 converts to the real two. -/
theorem sitofp_word_two : FloatOps.sitofp (F := Ideal) .f32 (2#32 : BitVec 32) = ((2 : ℝ) : EReal) := by
  rw [sitofp_eq, show (2#32 : BitVec 32).toInt = 2 from by decide]; norm_num

/-- The word 3 converts to the real three. -/
theorem sitofp_word_three : FloatOps.sitofp (F := Ideal) .f32 (3#32 : BitVec 32) = ((3 : ℝ) : EReal) := by
  rw [sitofp_eq, show (3#32 : BitVec 32).toInt = 3 from by decide]; norm_num

/-- The bit 0, widened and converted, is zero. -/
theorem sitofp_bit_zero : FloatOps.sitofp (F := Ideal) .f32 ((0#1 : BitVec 1).setWidth 32) = 0 := by
  rw [setWidth_bit_zero, sitofp_word_zero]

/-- The bit 1, widened and converted, is one. -/
theorem sitofp_bit_one : FloatOps.sitofp (F := Ideal) .f32 ((1#1 : BitVec 1).setWidth 32) = 1 := by
  rw [setWidth_bit_one, sitofp_word_one]

/-- A bit, widened and converted, is one where the bit is set and zero where not. -/
theorem sitofp_bit (b : BitVec 1) :
    FloatOps.sitofp (F := Ideal) .f32 (b.setWidth 32) = if b = 1#1 then (1 : EReal) else 0 := by
  rcases bit_cases b with rfl | rfl
  · rw [sitofp_bit_zero, if_neg (by decide)]
  · rw [sitofp_bit_one, if_pos rfl]

/-- The bit 0 converted unsigned is zero. -/
theorem uitofp_bit_zero : FloatOps.uitofp (F := Ideal) .f32 (0#1 : BitVec 1) = 0 := by
  rw [uitofp_eq, show (0#1 : BitVec 1).toNat = 0 from by decide]; simp

/-- The bit 1 converted unsigned is one. -/
theorem uitofp_bit_one : FloatOps.uitofp (F := Ideal) .f32 (1#1 : BitVec 1) = 1 := by
  rw [uitofp_eq, show (1#1 : BitVec 1).toNat = 1 from by decide]; simp

/-- A bit converted unsigned is one where the bit is set and zero where not. -/
theorem uitofp_bit (b : BitVec 1) : FloatOps.uitofp (F := Ideal) .f32 b = if b = 1#1 then (1 : EReal) else 0 := by
  rcases bit_cases b with rfl | rfl
  · rw [uitofp_bit_zero, if_neg (by decide)]
  · rw [uitofp_bit_one, if_pos rfl]

/-- Adding the word 0 on the left changes nothing. -/
theorem addi_zero_left (u : BitVec 32) : IntOp.addi 0#32 u = u := by unfold IntOp.addi; simp

/-- Adding the word 0 on the right changes nothing. -/
theorem addi_zero_right (u : BitVec 32) : IntOp.addi u 0#32 = u := by unfold IntOp.addi; simp

/-- 1 + 1 = 2 as words. -/
theorem addi_one_one : IntOp.addi 1#32 1#32 = 2#32 := by decide

/-- 2 + 1 = 3 as words. -/
theorem addi_two_one : IntOp.addi 2#32 1#32 = 3#32 := by decide

/-- The sum, from the word 0, of three widened bits is the word of the number of bits set. -/
theorem addi3_bits (a b c : BitVec 1) :
    IntOp.addi (IntOp.addi (IntOp.addi 0#32 (a.setWidth 32)) (b.setWidth 32)) (c.setWidth 32)
      = BitVec.ofNat 32 (a.toNat + b.toNat + c.toNat) := by
  revert a b c; decide

/-- The sum, from the word 0, of three words each 0 or 1, computed: the eight cases. -/
theorem addi3_closed :
    IntOp.addi (IntOp.addi (IntOp.addi 0#32 0#32) 0#32) 0#32 = 0#32
    ∧ IntOp.addi (IntOp.addi (IntOp.addi 0#32 1#32) 0#32) 0#32 = 1#32
    ∧ IntOp.addi (IntOp.addi (IntOp.addi 0#32 0#32) 1#32) 0#32 = 1#32
    ∧ IntOp.addi (IntOp.addi (IntOp.addi 0#32 0#32) 0#32) 1#32 = 1#32
    ∧ IntOp.addi (IntOp.addi (IntOp.addi 0#32 1#32) 1#32) 0#32 = 2#32
    ∧ IntOp.addi (IntOp.addi (IntOp.addi 0#32 1#32) 0#32) 1#32 = 2#32
    ∧ IntOp.addi (IntOp.addi (IntOp.addi 0#32 0#32) 1#32) 1#32 = 2#32
    ∧ IntOp.addi (IntOp.addi (IntOp.addi 0#32 1#32) 1#32) 1#32 = 3#32 := by decide

/-! ## Comparisons as bits -/

/-- "Greater than" answers 1 exactly where the second operand is below the first. -/
theorem cmpf_ogt_iff (a b : EReal) : FloatOps.cmpf (F := Ideal) (φ := .f32) .ogt a b = 1#1 ↔ b < a := by
  show BitVec.ofBool (decide (b < a)) = 1#1 ↔ b < a
  by_cases h : b < a <;> simp [h]

/-- "Greater or equal" answers 1 exactly where the second operand is at most the first. -/
theorem cmpf_oge_iff (a b : EReal) : FloatOps.cmpf (F := Ideal) (φ := .f32) .oge a b = 1#1 ↔ b ≤ a := by
  show BitVec.ofBool (decide (b ≤ a)) = 1#1 ↔ b ≤ a
  by_cases h : b ≤ a <;> simp [h]

/-- "Less than" answers 1 exactly where the first operand is below the second. -/
theorem cmpf_olt_iff (a b : EReal) : FloatOps.cmpf (F := Ideal) (φ := .f32) .olt a b = 1#1 ↔ a < b := by
  show BitVec.ofBool (decide (a < b)) = 1#1 ↔ a < b
  by_cases h : a < b <;> simp [h]

/-- "Less or equal" answers 1 exactly where the first operand is at most the second. -/
theorem cmpf_ole_iff (a b : EReal) : FloatOps.cmpf (F := Ideal) (φ := .f32) .ole a b = 1#1 ↔ a ≤ b := by
  show BitVec.ofBool (decide (a ≤ b)) = 1#1 ↔ a ≤ b
  by_cases h : a ≤ b <;> simp [h]

/-- "Not equal" answers 1 exactly where the operands differ. -/
theorem cmpf_une_iff (a b : EReal) : FloatOps.cmpf (F := Ideal) (φ := .f32) .une a b = 1#1 ↔ a ≠ b := by
  show BitVec.ofBool (decide (a ≠ b)) = 1#1 ↔ a ≠ b
  by_cases h : a = b <;> simp [h]

/-- "Equal" answers 1 exactly where the operands agree. -/
theorem cmpf_oeq_iff (a b : EReal) : FloatOps.cmpf (F := Ideal) (φ := .f32) .oeq a b = 1#1 ↔ a = b := by
  show BitVec.ofBool (decide (a = b)) = 1#1 ↔ a = b
  by_cases h : a = b <;> simp [h]

/-- "Greater than" answers 0 exactly where the first operand is at most the second. -/
theorem cmpf_ogt_eq_zero_iff (a b : EReal) : FloatOps.cmpf (F := Ideal) (φ := .f32) .ogt a b = 0#1 ↔ a ≤ b := by
  show BitVec.ofBool (decide (b < a)) = 0#1 ↔ a ≤ b
  by_cases h : b < a
  · simp [h]
  · simp [h, not_lt.mp h]

/-- "Greater or equal" answers 0 exactly where the first operand is below the second. -/
theorem cmpf_oge_eq_zero_iff (a b : EReal) : FloatOps.cmpf (F := Ideal) (φ := .f32) .oge a b = 0#1 ↔ a < b := by
  show BitVec.ofBool (decide (b ≤ a)) = 0#1 ↔ a < b
  by_cases h : b ≤ a
  · simp [h]
  · simp [h, not_le.mp h]

/-- "Less or equal" answers 0 exactly where the second operand is below the first. -/
theorem cmpf_ole_eq_zero_iff (a b : EReal) : FloatOps.cmpf (F := Ideal) (φ := .f32) .ole a b = 0#1 ↔ b < a := by
  show BitVec.ofBool (decide (a ≤ b)) = 0#1 ↔ b < a
  by_cases h : a ≤ b
  · simp [h]
  · simp [h, not_le.mp h]

/-- "Not equal" answers 0 exactly where the operands agree. -/
theorem cmpf_une_eq_zero_iff (a b : EReal) : FloatOps.cmpf (F := Ideal) (φ := .f32) .une a b = 0#1 ↔ a = b := by
  show BitVec.ofBool (decide (a ≠ b)) = 0#1 ↔ a = b
  by_cases h : a = b <;> simp [h]

/-- "Greater than" as a choice of bit. -/
theorem cmpf_ogt_eq_ite (a b : EReal) :
    FloatOps.cmpf (F := Ideal) (φ := .f32) .ogt a b = if b < a then 1#1 else 0#1 := by
  by_cases h : b < a
  · rw [if_pos h]; exact (cmpf_ogt_iff a b).mpr h
  · rw [if_neg h]; exact (cmpf_ogt_eq_zero_iff a b).mpr (not_lt.mp h)

/-- "Greater or equal" as a choice of bit. -/
theorem cmpf_oge_eq_ite (a b : EReal) :
    FloatOps.cmpf (F := Ideal) (φ := .f32) .oge a b = if b ≤ a then 1#1 else 0#1 := by
  by_cases h : b ≤ a
  · rw [if_pos h]; exact (cmpf_oge_iff a b).mpr h
  · rw [if_neg h]; exact (cmpf_oge_eq_zero_iff a b).mpr (not_le.mp h)

/-- "Less or equal" as a choice of bit. -/
theorem cmpf_ole_eq_ite (a b : EReal) :
    FloatOps.cmpf (F := Ideal) (φ := .f32) .ole a b = if a ≤ b then 1#1 else 0#1 := by
  by_cases h : a ≤ b
  · rw [if_pos h]; exact (cmpf_ole_iff a b).mpr h
  · rw [if_neg h]; exact (cmpf_ole_eq_zero_iff a b).mpr (not_le.mp h)

/-- "Not equal" as a choice of bit. -/
theorem cmpf_une_eq_ite (a b : EReal) :
    FloatOps.cmpf (F := Ideal) (φ := .f32) .une a b = if a ≠ b then 1#1 else 0#1 := by
  by_cases h : a = b
  · rw [if_neg (not_not.mpr h)]; exact (cmpf_une_eq_zero_iff a b).mpr h
  · rw [if_pos h]; exact (cmpf_une_iff a b).mpr h

/-- A result bit that is not 1 is 0. -/
theorem bit_eq_zero_of_ne_one {b : BitVec 1} (h : ¬ b = 1#1) : b = 0#1 := ValueIdx.eq_zero_of_ne_one h

/-! ## The bit recovered from its float -/

/-- A bit's float compared "greater or equal" against one half gives the bit back (the right operand as `Ideal.ofBits`). -/
theorem oge_half_sitofp_bit (b : BitVec 1) :
    FloatOps.cmpf (F := Ideal) (φ := .f32) .oge (FloatOps.sitofp (F := Ideal) .f32 (b.setWidth 32))
      (Ideal.ofBits .f32 0x3F000000#32) = b := by
  rcases bit_cases b with rfl | rfl
  · rw [sitofp_bit_zero]; exact (cmpf_oge_eq_zero_iff _ _).mpr half_pos
  · rw [sitofp_bit_one]; exact (cmpf_oge_iff _ _).mpr half_le_one

/-- The same with the right operand a scalar literal. -/
theorem oge_half_sitofp_bit_scalar (b : BitVec 1) :
    FloatOps.cmpf (F := Ideal) (φ := .f32) .oge (FloatOps.sitofp (F := Ideal) .f32 (b.setWidth 32))
      (Scalar.ofBits (F := Ideal) .f32 0x3F000000#32) = b := oge_half_sitofp_bit b

/-- The same with the right operand a vector literal's element. -/
theorem oge_half_sitofp_bit_floatOps (b : BitVec 1) :
    FloatOps.cmpf (F := Ideal) (φ := .f32) .oge (FloatOps.sitofp (F := Ideal) .f32 (b.setWidth 32))
      (FloatOps.ofBits (F := Ideal) .f32 0x3F000000#32) = b := oge_half_sitofp_bit b

/-! ## Two bits: the complement of their disjunction, and one minus the larger of their floats -/

/-- The complement of a disjunction of two bits, by the four cases. -/
theorem not_ori_closed :
    ~~~(IntOp.ori (0#1 : BitVec 1) 0#1) = 1#1 ∧ ~~~(IntOp.ori (0#1 : BitVec 1) 1#1) = 0#1
    ∧ ~~~(IntOp.ori (1#1 : BitVec 1) 0#1) = 0#1 ∧ ~~~(IntOp.ori (1#1 : BitVec 1) 1#1) = 0#1 := by decide

/-- The disjunction of two bits, by the four cases. -/
theorem ori_closed :
    IntOp.ori (0#1 : BitVec 1) 0#1 = 0#1 ∧ IntOp.ori (0#1 : BitVec 1) 1#1 = 1#1
    ∧ IntOp.ori (1#1 : BitVec 1) 0#1 = 1#1 ∧ IntOp.ori (1#1 : BitVec 1) 1#1 = 1#1 := by decide

/-- The complement of a disjunction is set exactly where neither bit is. -/
theorem not_ori_eq_one_iff (s t : BitVec 1) : ~~~(IntOp.ori s t) = 1#1 ↔ s = 0#1 ∧ t = 0#1 := by
  revert s t; decide

/-- The complement of a disjunction is clear exactly where one of the bits is set. -/
theorem not_ori_eq_zero_iff (s t : BitVec 1) : ~~~(IntOp.ori s t) = 0#1 ↔ s = 1#1 ∨ t = 1#1 := by
  revert s t; decide

/-- A disjunction is set exactly where one of the bits is. -/
theorem ori_eq_one_iff (s t : BitVec 1) : IntOp.ori s t = 1#1 ↔ s = 1#1 ∨ t = 1#1 := by
  revert s t; decide

/-- One minus one is zero on the extended reals. -/
theorem one_sub_one : (1 : EReal) - 1 = 0 := by
  rw [← EReal.coe_one, ← EReal.coe_sub, sub_self, EReal.coe_zero]

/-- The larger of two bits' floats is the float of their disjunction. -/
theorem max_sitofp_bits (s t : BitVec 1) :
    max (FloatOps.sitofp (F := Ideal) .f32 (s.setWidth 32)) (FloatOps.sitofp (F := Ideal) .f32 (t.setWidth 32))
      = FloatOps.sitofp (F := Ideal) .f32 ((IntOp.ori s t).setWidth 32) := by
  rcases bit_cases s with rfl | rfl <;> rcases bit_cases t with rfl | rfl
  · rw [ori_closed.1, sitofp_bit_zero, max_self]
  · rw [ori_closed.2.1, sitofp_bit_zero, sitofp_bit_one, max_eq_right zero_le_one]
  · rw [ori_closed.2.2.1, sitofp_bit_zero, sitofp_bit_one, max_eq_left zero_le_one]
  · rw [ori_closed.2.2.2, sitofp_bit_one, max_self]

/-- One minus the larger of two bits' floats is the float of the complement of their disjunction. -/
theorem one_sub_max_sitofp_bits (s t : BitVec 1) :
    (1 : EReal) - max (FloatOps.sitofp (F := Ideal) .f32 (s.setWidth 32)) (FloatOps.sitofp (F := Ideal) .f32 (t.setWidth 32))
      = FloatOps.sitofp (F := Ideal) .f32 ((~~~(IntOp.ori s t)).setWidth 32) := by
  rcases bit_cases s with rfl | rfl <;> rcases bit_cases t with rfl | rfl
  · rw [not_ori_closed.1, sitofp_bit_zero, sitofp_bit_one, max_self, sub_zero]
  · rw [not_ori_closed.2.1, sitofp_bit_zero, sitofp_bit_one, max_eq_right zero_le_one, one_sub_one]
  · rw [not_ori_closed.2.2.1, sitofp_bit_zero, sitofp_bit_one, max_eq_left zero_le_one, one_sub_one]
  · rw [not_ori_closed.2.2.2, sitofp_bit_zero, sitofp_bit_one, max_self, one_sub_one]

/-- The same spelt with the float operations and the literal of 1.0: the subtraction of the larger float from one. -/
theorem subf_one_maximumf_sitofp_bits (s t : BitVec 1) :
    FloatOps.subf (F := Ideal) (φ := .f32) (Scalar.ofBits (F := Ideal) .f32 0x3F800000#32)
        (FloatOps.maximumf (F := Ideal) (φ := .f32) (FloatOps.sitofp (F := Ideal) .f32 (s.setWidth 32))
          (FloatOps.sitofp (F := Ideal) .f32 (t.setWidth 32)))
      = FloatOps.sitofp (F := Ideal) .f32 ((~~~(IntOp.ori s t)).setWidth 32) := by
  rw [← one_sub_max_sitofp_bits s t, ← scalar_one_f32]
  rfl

/-- The three floats of two bits and of the complement of their disjunction add up to the float of the count of bits set
    among the three. -/
theorem sitofp_bits_sum (s t : BitVec 1) :
    FloatOps.sitofp (F := Ideal) .f32 (s.setWidth 32) + FloatOps.sitofp (F := Ideal) .f32 (t.setWidth 32)
        + FloatOps.sitofp (F := Ideal) .f32 ((~~~(IntOp.ori s t)).setWidth 32)
      = FloatOps.sitofp (F := Ideal) .f32
          (IntOp.addi (IntOp.addi (IntOp.addi 0#32 (s.setWidth 32)) (t.setWidth 32)) ((~~~(IntOp.ori s t)).setWidth 32)) := by
  rcases bit_cases s with rfl | rfl <;> rcases bit_cases t with rfl | rfl
  · rw [not_ori_closed.1, setWidth_bit_zero, setWidth_bit_one, addi3_closed.2.2.2.1, sitofp_word_zero, sitofp_word_one]
    simp
  · rw [not_ori_closed.2.1, setWidth_bit_zero, setWidth_bit_one, addi3_closed.2.2.1, sitofp_word_zero, sitofp_word_one]
    simp
  · rw [not_ori_closed.2.2.1, setWidth_bit_zero, setWidth_bit_one, addi3_closed.2.1, sitofp_word_zero, sitofp_word_one]
    simp
  · rw [not_ori_closed.2.2.2, setWidth_bit_zero, setWidth_bit_one, addi3_closed.2.2.2.2.1, sitofp_word_zero, sitofp_word_one,
      sitofp_word_two, ← EReal.coe_one, ← EReal.coe_add, add_zero]
    norm_num

end Idealize.ShloMosaic.BitFloat

end
-- ==== Proof.BridgeFinal.lean ====
import proofs.«415622_j61924838473938_2_alg».proof.Proof.KVal
import proofs.«415622_j61924838473938_2_alg».proof.Proof.RefRead
import proofs.«415622_j61924838473938_2_alg».proof.Proof.LibGatherRows
import proofs.«415622_j61924838473938_2_alg».proof.Proof.LibReadOps
import proofs.«415622_j61924838473938_2_alg».proof.Proof.BridgeEdge
import proofs.«415622_j61924838473938_2_alg».proof.Proof.LibBitFloat
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

open scoped BigOperators

namespace Cert.Bridge

open Idealize.ShloMosaic Idealize.ShloMosaic.ValueIdx Idealize.ShloMosaic.GatherRows Idealize.ShloMosaic.ReadOps
open Idealize.ShloMosaic.BitFloat
open Cert.KernelIdeal (S100000x128 S2x640000 S1x128 S640000 S640000x1 S100000x1 S100000)
open Cert.KernelIdeal.KVal
open Cert.ReferenceIdeal.ReadP

variable (x : FVec Ideal S100000x128 .f32) (e : IVec S2x640000 32) (p1 p2 p3 : FVec Ideal S1x128 .f32)

namespace FinalAux

/-! ## The reference's prompted term read at an index -/

section RefRead

/-- The index functions of the reference's layout operations, at the indices the reading meets. -/
theorem idx_col_node (n : Fin 100000) : idx_main_v45 (ix2 n (0 : Fin 1)) = ix1 n := by
  funext a; match a with | ⟨0, _⟩ => rfl

theorem idx_row_col (n : Fin 100000) (d : Fin 128) : idx_main_v68 (ix2 n d) = ix2 n (0 : Fin 1) := by
  funext a; match a with | ⟨0, _⟩ => rfl | ⟨1, _⟩ => rfl

theorem idx_slot (n : Fin 100000) (k : Fin 3) (d : Fin 128) : idx_main_v65 (ix2 n d) k = ix3 n k d := by
  funext a; match a with | ⟨0, _⟩ => rfl | ⟨1, _⟩ => rfl | ⟨2, _⟩ => rfl

theorem idx_slot_bit (n : Fin 100000) (k : Fin 3) (d : Fin 128) :
    idx_main_v50 (idx_main_v53 (ix3 n k d)) = ix2 n k := by
  funext a; match a with | ⟨0, _⟩ => rfl | ⟨1, _⟩ => rfl

theorem idx_slot_prompt (n : Fin 100000) (k : Fin 3) (d : Fin 128) :
    idx_main_v52 (idx_main_v54 (ix3 n k d)) = ix2 k d := by
  funext a; match a with | ⟨0, _⟩ => rfl | ⟨1, _⟩ => rfl

/-- The three mask columns joined: slot 0 the similarity mask, slot 1 the degree mask, slot 2 neither. -/
theorem masks_at (n : Fin 100000) :
    val_main_v48 (F := Ideal) x e (ix2 n (0 : Fin 3)) = val_main_v40 (F := Ideal) x e (ix1 n)
    ∧ val_main_v48 (F := Ideal) x e (ix2 n (1 : Fin 3)) = val_main_v42 (F := Ideal) e (ix1 n)
    ∧ val_main_v48 (F := Ideal) x e (ix2 n (2 : Fin 3)) = val_main_v44 (F := Ideal) x e (ix1 n) := by
  have h := concat3_cols (val_main_v45 (F := Ideal) x e) (val_main_v46 (F := Ideal) e) (val_main_v47 (F := Ideal) x e)
    Cert.ReferenceIdeal.Gen.concatenates_S100000x1_S100000x1_S100000x1_S100000x3_d1 n
  rw [val_main_v45_apply, val_main_v46_apply, val_main_v47_apply] at h
  exact ⟨h.1.trans (congrArg _ (idx_col_node n)), h.2.1.trans (congrArg _ (idx_col_node n)),
    h.2.2.trans (congrArg _ (idx_col_node n))⟩

/-- The three prompts joined: row 0 the first prompt, row 1 the second, row 2 the third. -/
theorem prompts_at (d : Fin 128) :
    val_main_v49 (F := Ideal) p1 p2 p3 (ix2 (0 : Fin 3) d) = p1 (ix2 (0 : Fin 1) d)
    ∧ val_main_v49 (F := Ideal) p1 p2 p3 (ix2 (1 : Fin 3) d) = p2 (ix2 (0 : Fin 1) d)
    ∧ val_main_v49 (F := Ideal) p1 p2 p3 (ix2 (2 : Fin 3) d) = p3 (ix2 (0 : Fin 1) d) :=
  concat3_rows p1 p2 p3 Cert.ReferenceIdeal.Gen.concatenates_S1x128_S1x128_S1x128_S3x128_d0 d

/-- One slot's prompted record: the slot's mask bit as a float, times the slot's prompt entry. -/
theorem rec_at (n : Fin 100000) (k : Fin 3) (d : Fin 128) :
    val_main_v55 (F := Ideal) x e p1 p2 p3 (ix3 n k d)
      = FloatOps.uitofp (F := Ideal) .f32 (val_main_v48 (F := Ideal) x e (ix2 n k)) * val_main_v49 (F := Ideal) p1 p2 p3 (ix2 k d) := by
  rw [val_main_v55_apply, val_main_v53_apply, val_main_v51_apply, val_main_v50_apply, val_main_v54_apply,
    val_main_v52_apply, idx_slot_bit, idx_slot_prompt]
  rfl

end RefRead

section RefRead2

/-- Every entry of the three joined prompts is a nonzero real. -/
theorem prompt_slot (h : Admissible x p1 p2 p3) (k : Fin 3) (d : Fin 128) :
    ∃ r : ℝ, r ≠ 0 ∧ val_main_v49 (F := Ideal) p1 p2 p3 (ix2 k d) = (r : EReal) := by
  have hp := prompts_at p1 p2 p3 d
  have key : ∀ (q : FVec Ideal S1x128 .f32), (∀ i, ∃ r : ℝ, q i = (r : EReal)) → (∀ i, q i ≠ 0) →
      ∃ r : ℝ, r ≠ 0 ∧ q (ix2 (0 : Fin 1) d) = (r : EReal) := by
    intro q hr hne
    obtain ⟨r, hr⟩ := hr (ix2 (0 : Fin 1) d)
    refine ⟨r, ?_, hr⟩
    rintro rfl
    exact hne _ (hr.trans EReal.coe_zero)
  match k with
  | ⟨0, _⟩ => rw [show (⟨0, by omega⟩ : Fin 3) = 0 from rfl, hp.1]; exact key p1 h.p1_real h.p1_ne
  | ⟨1, _⟩ => rw [show (⟨1, by omega⟩ : Fin 3) = 1 from rfl, hp.2.1]; exact key p2 h.p2_real h.p2_ne
  | ⟨2, _⟩ => rw [show (⟨2, by omega⟩ : Fin 3) = 2 from rfl, hp.2.2]; exact key p3 h.p3_real h.p3_ne

/-- A slot's record is nonzero along the whole prompt exactly where the slot's mask bit is set: the prompts have no
    zero entry, so the bit times the entry is zero only where the bit is. -/
theorem allset_at (h : Admissible x p1 p2 p3) (n : Fin 100000) (k : Fin 3) :
    val_main_v58 (F := Ideal) x e p1 p2 p3 (ix2 n k) = val_main_v48 (F := Ideal) x e (ix2 n k) := by
  have key : val_main_v58 (F := Ideal) x e p1 p2 p3 (ix2 n k) = 1#1
      ↔ ∀ d : Fin 128, val_main_v57 (F := Ideal) x e p1 p2 p3 (ix3 n k d) = 1#1 :=
    reduce_andi_last3 (val_main_v57 (F := Ideal) x e p1 p2 p3) (val_main_c_13 (F := Ideal)) rfl
      Cert.ReferenceIdeal.Gen.reducesTo_S100000x3x128_S100000x3_d2 Cert.ReferenceIdeal.Gen.h_S_ n k
  have h57 : ∀ d : Fin 128, val_main_v57 (F := Ideal) x e p1 p2 p3 (ix3 n k d)
      = FloatOps.cmpf (F := Ideal) (φ := .f32) .une
          (FloatOps.uitofp (F := Ideal) .f32 (val_main_v48 (F := Ideal) x e (ix2 n k)) * val_main_v49 (F := Ideal) p1 p2 p3 (ix2 k d)) 0 := by
    intro d
    rw [val_main_v57_apply, rec_at, val_main_v56_apply, val_main_cst_12_apply, floatOps_ofBits_f32, Ideal.ofBits_zero_f32]
  rcases bit_cases (val_main_v48 (F := Ideal) x e (ix2 n k)) with hb | hb
  · rw [hb]
    refine bit_eq_zero_of_ne_one fun h1 => ?_
    have h0 := (key.mp h1) (0 : Fin 128)
    rw [h57, hb, uitofp_bit_zero, zero_mul] at h0
    exact ((cmpf_une_iff _ _).mp h0) rfl
  · rw [hb]
    refine key.mpr fun d => ?_
    rw [h57, hb, uitofp_bit_one, one_mul]
    obtain ⟨r, hr, hq⟩ := prompt_slot x p1 p2 p3 h k d
    rw [hq]
    exact (cmpf_une_iff _ _).mpr (by exact_mod_cast hr)

/-- The number of masks set, as a word: the three slots' bits widened and added from zero. -/
theorem count_at (n : Fin 100000) :
    val_main_v60 (F := Ideal) x e p1 p2 p3 (ix1 n)
      = IntOp.addi (IntOp.addi (IntOp.addi 0#32 ((val_main_v58 (F := Ideal) x e p1 p2 p3 (ix2 n (0 : Fin 3))).setWidth 32))
          ((val_main_v58 (F := Ideal) x e p1 p2 p3 (ix2 n (1 : Fin 3))).setWidth 32))
          ((val_main_v58 (F := Ideal) x e p1 p2 p3 (ix2 n (2 : Fin 3))).setWidth 32) :=
  reduce_addi_three (val_main_v59 (F := Ideal) x e p1 p2 p3) (val_main_c_14 (F := Ideal))
    Cert.ReferenceIdeal.Gen.reducesTo_S100000x3_S100000_d1 Cert.ReferenceIdeal.Gen.h_S_ n

end RefRead2

/-! ## The scalar computation both programs share -/

section Scalar

/-- The number of masks set among the two picks and their complement, as the reference counts it. -/
def refPlen (s t : BitVec 1) : EReal :=
  FloatOps.sitofp (F := Ideal) .f32
    (IntOp.addi (IntOp.addi (IntOp.addi 0#32 (s.setWidth 32)) (t.setWidth 32)) ((~~~(IntOp.ori s t)).setWidth 32))

/-- The reference's prompted term at one entry: the sum of the selected prompts' entries over their number. -/
def finalRef (s t : BitVec 1) (q1 q2 q3 : EReal) : EReal :=
  Scalar.select (FloatOps.cmpf (F := Ideal) (φ := .f32) .ogt (refPlen s t) (Ideal.ofBits .f32 0x00000000#32))
    (Ideal.div (Ideal.ofBits .f32 0x00000000#32
        + (FloatOps.uitofp (F := Ideal) .f32 s * q1 + FloatOps.uitofp (F := Ideal) .f32 t * q2
            + FloatOps.uitofp (F := Ideal) .f32 (~~~(IntOp.ori s t)) * q3))
      (max (refPlen s t) (Ideal.ofBits .f32 0x3F800000#32)))
    (Ideal.ofBits .f32 0x00000000#32)

/-- Of two bits and the complement of their disjunction at least one is set: the count is positive. -/
theorem refPlen_pos (s t : BitVec 1) : (0 : EReal) < refPlen s t := by
  unfold refPlen
  rcases bit_cases s with rfl | rfl <;> rcases bit_cases t with rfl | rfl
  · rw [not_ori_closed.1, setWidth_bit_zero, setWidth_bit_one, addi3_closed.2.2.2.1, sitofp_word_one]
    exact zero_lt_one
  · rw [not_ori_closed.2.1, setWidth_bit_zero, setWidth_bit_one, addi3_closed.2.2.1, sitofp_word_one]
    exact zero_lt_one
  · rw [not_ori_closed.2.2.1, setWidth_bit_zero, setWidth_bit_one, addi3_closed.2.1, sitofp_word_one]
    exact zero_lt_one
  · rw [not_ori_closed.2.2.2, setWidth_bit_zero, setWidth_bit_one, addi3_closed.2.2.2.2.1, sitofp_word_two,
      ← EReal.coe_zero, EReal.coe_lt_coe_iff]
    norm_num

/-- A bit converted unsigned and the bit widened and converted signed are the same float. -/
theorem uitofp_eq_sitofp (b : BitVec 1) :
    FloatOps.uitofp (F := Ideal) .f32 b = FloatOps.sitofp (F := Ideal) .f32 (b.setWidth 32) := by
  rw [uitofp_bit, sitofp_bit]

/-- The kernel's entry is the entry of `x` plus the reference's prompted term, whatever the two mask bits are. -/
theorem finalAt_eq (xv c g q1 q2 q3 : EReal) :
    finalAt xv c g q1 q2 q3
      = xv + finalRef (FloatOps.cmpf (F := Ideal) (φ := .f32) .ole (csim c g) (lit 0x3E4CCCCD#32))
          (FloatOps.cmpf (F := Ideal) (φ := .f32) .ole g (lit 0x40400000#32)) q1 q2 q3 := by
  unfold finalAt plen mOther mSim mDeg bitF finalRef
  generalize FloatOps.cmpf (F := Ideal) (φ := .f32) .ole (csim c g) (lit 0x3E4CCCCD#32) = s
  generalize FloatOps.cmpf (F := Ideal) (φ := .f32) .ole g (lit 0x40400000#32) = t
  rw [subf_one_maximumf_sitofp_bits]
  simp only [Ideal.addf_def, Ideal.mulf_def, Ideal.divf_def, Ideal.maximumf_def]
  rw [sitofp_bits_sum, Ideal.ofBits_zero_f32, (cmpf_ogt_iff _ _).mpr (refPlen_pos s t), select_one, zero_add,
    uitofp_eq_sitofp, uitofp_eq_sitofp, uitofp_eq_sitofp]
  rfl

end Scalar

/-! ## The reference's prompted term in the scalar form -/

section RefFinal

/-- The number of masks set, as a float, at a node. -/
theorem plen_at (n : Fin 100000) :
    val_main_v62 (F := Ideal) x e p1 p2 p3 (ix2 n (0 : Fin 1))
      = FloatOps.sitofp (F := Ideal) .f32 (val_main_v60 (F := Ideal) x e p1 p2 p3 (ix1 n)) := by
  rw [val_main_v62_apply, val_main_v61_apply]
  exact congrArg (fun j => FloatOps.sitofp (F := Ideal) .f32 (val_main_v60 (F := Ideal) x e p1 p2 p3 j)) (idx_col_node n)

/-- The reference's similarity mask at a node, from the scatter-sum and the in-degree there. -/
theorem sim_bit_at (n : Fin 100000) :
    val_main_v40 (F := Ideal) x e (ix1 n)
      = FloatOps.cmpf (F := Ideal) (φ := .f32) .ole
          (csim (val_main_v28 (F := Ideal) x e (ix1 n)) (val_main_v32 (F := Ideal) e (ix1 n))) (lit 0x3E4CCCCD#32) := by
  rw [val_main_v40_apply, val_main_v38_apply, val_main_v34_apply, val_main_v37_apply, val_main_v36_apply,
    val_main_v33_apply, val_main_v35_apply, val_main_v39_apply, val_main_call0_v1_apply, val_main_call0_v0_apply,
    val_main_cst_7_apply, val_main_cst_8_apply, val_main_cst_9_apply, val_main_cst_10_apply]
  rfl

/-- The reference's degree mask at a node, from the in-degree there. -/
theorem deg_bit_at (n : Fin 100000) :
    val_main_v42 (F := Ideal) e (ix1 n)
      = FloatOps.cmpf (F := Ideal) (φ := .f32) .ole (val_main_v32 (F := Ideal) e (ix1 n)) (lit 0x40400000#32) := by
  rw [val_main_v42_apply, val_main_v41_apply, val_main_cst_11_apply]

/-- The reference's prompted term at an entry, from the node's two mask bits and the three prompts' entries. -/
theorem ref_final_at (h : Admissible x p1 p2 p3) (n : Fin 100000) (d : Fin 128) :
    val_main_v70 (F := Ideal) x e p1 p2 p3 (ix2 n d)
      = finalRef (val_main_v40 (F := Ideal) x e (ix1 n)) (val_main_v42 (F := Ideal) e (ix1 n))
          (p1 (ix2 (0 : Fin 1) d)) (p2 (ix2 (0 : Fin 1) d)) (p3 (ix2 (0 : Fin 1) d)) := by
  have hm := masks_at x e n
  have hp := prompts_at p1 p2 p3 d
  have hpl : val_main_v62 (F := Ideal) x e p1 p2 p3 (ix2 n (0 : Fin 1))
      = refPlen (val_main_v40 (F := Ideal) x e (ix1 n)) (val_main_v42 (F := Ideal) e (ix1 n)) := by
    rw [plen_at, count_at, allset_at x e p1 p2 p3 h, allset_at x e p1 p2 p3 h, allset_at x e p1 p2 p3 h,
      hm.1, hm.2.1, hm.2.2]
    rfl
  have hsum : val_main_v65 (F := Ideal) x e p1 p2 p3 (ix2 n d)
      = Ideal.ofBits .f32 0x00000000#32
        + (FloatOps.uitofp (F := Ideal) .f32 (val_main_v40 (F := Ideal) x e (ix1 n)) * p1 (ix2 (0 : Fin 1) d)
            + FloatOps.uitofp (F := Ideal) .f32 (val_main_v42 (F := Ideal) e (ix1 n)) * p2 (ix2 (0 : Fin 1) d)
            + FloatOps.uitofp (F := Ideal) .f32 (~~~(IntOp.ori (val_main_v40 (F := Ideal) x e (ix1 n)) (val_main_v42 (F := Ideal) e (ix1 n))))
                * p3 (ix2 (0 : Fin 1) d)) := by
    rw [val_main_v65_apply, Fin.sum_univ_three, idx_slot, idx_slot, idx_slot, rec_at, rec_at, rec_at,
      hm.1, hm.2.1, hm.2.2, hp.1, hp.2.1, hp.2.2]
    rfl
  rw [val_main_v70_apply, val_main_call1_v1_apply, val_main_call1_v2_apply, val_main_call1_v0_apply,
    val_main_cst_18_apply, val_main_v69_apply, val_main_v68_apply, val_main_v64_apply, val_main_v67_apply,
    val_main_v63_apply, val_main_v66_apply, val_main_cst_15_apply, val_main_cst_17_apply,
    show idx_main_call1_v1 (ix2 n d) = ix2 n (0 : Fin 1) from idx_row_col n d, idx_row_col n d, hpl, hsum]
  rfl

end RefFinal

/-! ## The kernel's entry read at an index -/

section Kernel

/-- A vector as a column, read at a row. -/
theorem asCol_at (y : FVec Ideal S100000 .f32) (n : Fin 100000) : asCol y (ix2 n (0 : Fin 1)) = y (ix1 n) := by
  unfold asCol
  exact broadcastInDim_apply _ _ y (ix2 n (0 : Fin 1)) (ix1 n) (fun a => match a with
    | ⟨0, _⟩ => by show n.val = if (100000 : Nat) = 1 then 0 else n.val; rw [if_neg (by decide)])

/-- The kernel's scatter-sum at a node is the reference's: the same scatter of the same per-edge values. -/
theorem cV_at (h : Admissible x p1 p2 p3) (n : Fin 100000) :
    cV x e (ix2 n (0 : Fin 1)) = val_main_v28 (F := Ideal) x e (ix1 n) := by
  unfold cV
  rw [asCol_at, edge_eq x e p1 p2 p3 h]
  rfl

/-- The kernel's in-degree at a node is the reference's: the same scatter of ones. -/
theorem degV_at (n : Fin 100000) : degV e (ix2 n (0 : Fin 1)) = val_main_v32 (F := Ideal) e (ix1 n) := by
  unfold degV
  rw [asCol_at]
  rfl

/-- The two programs' prompted features agree entry by entry. -/
theorem xnew_at (h : Admissible x p1 p2 p3) (n : Fin 100000) (d : Fin 128) :
    xnewV x e p1 p2 p3 (ix2 n d) = val_main_v71 (F := Ideal) x e p1 p2 p3 (ix2 n d) := by
  have hk : xnewV x e p1 p2 p3 (ix2 n d)
      = finalAt (x (ix2 n d)) (cV x e (ix2 n (0 : Fin 1))) (degV e (ix2 n (0 : Fin 1)))
          (p1 (ix2 (0 : Fin 1) d)) (p2 (ix2 (0 : Fin 1) d)) (p3 (ix2 (0 : Fin 1) d)) := rfl
  rw [hk, cV_at x e p1 p2 p3 h, degV_at, finalAt_eq, val_main_v71_apply, ref_final_at x e p1 p2 p3 h,
    sim_bit_at, deg_bit_at]
  rfl

end Kernel

end FinalAux

/-- On admissible inputs the kernel's prompted features are the reference's. -/
theorem xnew_eq (h : Admissible x p1 p2 p3) : xnewV x e p1 p2 p3 = val_main_v71 (F := Ideal) x e p1 p2 p3 := by
  funext i
  rw [eq_ix2 i]
  exact FinalAux.xnew_at x e p1 p2 p3 h (i 0) (i 1)

end Cert.Bridge

end
-- ==== Proof.BridgeKeep.lean ====
import proofs.«415622_j61924838473938_2_alg».proof.Proof.KVal
import proofs.«415622_j61924838473938_2_alg».proof.Proof.RefRead
import proofs.«415622_j61924838473938_2_alg».proof.Proof.LibGatherRows
import proofs.«415622_j61924838473938_2_alg».proof.Proof.BridgeEdge
import proofs.«415622_j61924838473938_2_alg».proof.Proof.BridgeFinal
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

open scoped BigOperators

namespace Cert.Bridge

open Idealize.ShloMosaic Idealize.ShloMosaic.ValueIdx Idealize.ShloMosaic.GatherRows
open Cert.KernelIdeal (S100000x128 S2x640000 S1x128 S640000 S640000x1 S100000x1 S100000)
open Cert.KernelIdeal.KVal
open Cert.ReferenceIdeal.ReadP

variable (x : FVec Ideal S100000x128 .f32) (e : IVec S2x640000 32) (p1 p2 p3 : FVec Ideal S1x128 .f32)

/-! ## Scalars: a bit as a float, compared with one half, is the bit -/
/-- The word 0x3F000000 is one half. -/
private theorem half_word : Ideal.ofBits .f32 0x3F000000#32 = ((1/2 : ℝ) : EReal) := by
  simp [Ideal.ofBits, Ideal.ieee]
  rw [← EReal.coe_mul]; exact congrArg _ (by norm_num)

/-- The bit zero as a float is 0. -/
private theorem bitF_zero : bitF 0#1 = 0 := by
  show ((((0#1 : BitVec 1).setWidth 32).toInt : ℝ) : EReal) = 0
  have : ((0#1 : BitVec 1).setWidth 32).toInt = 0 := by decide
  rw [this]; simp
/-- The bit one as a float is 1. -/
private theorem bitF_one : bitF 1#1 = 1 := by
  show ((((1#1 : BitVec 1).setWidth 32).toInt : ℝ) : EReal) = 1
  have : ((1#1 : BitVec 1).setWidth 32).toInt = 1 := by decide
  rw [this]; simp

/-- A bit made a float (0 or 1) and compared with one half gives the bit back. -/
private theorem bit_of_bitF (b : BitVec 1) :
    FloatOps.cmpf (F := Ideal) (φ := .f32) .oge (bitF b) (Ideal.ofBits .f32 0x3F000000#32) = b := by
  rw [Ideal.cmpf_def, half_word]
  rcases BitVec.eq_zero_or_eq_one b with h | h
  · subst h
    rw [bitF_zero]
    show BitVec.ofBool (decide (((1 / 2 : ℝ) : EReal) ≤ 0)) = 0#1
    have : ¬ (((1 / 2 : ℝ) : EReal) ≤ 0) := by
      rw [← EReal.coe_zero, EReal.coe_le_coe_iff]; norm_num
    rw [decide_eq_false this]; rfl
  · subst h
    rw [bitF_one]
    show BitVec.ofBool (decide (((1 / 2 : ℝ) : EReal) ≤ 1)) = 1#1
    have : (((1 / 2 : ℝ) : EReal) ≤ 1) := by
      rw [← EReal.coe_one, EReal.coe_le_coe_iff]; norm_num
    rw [decide_eq_true this]; rfl

/-! ## The kernel's side at an edge -/
/-- The kernel's per-edge float over a feature array y, at edge k. -/
private theorem keepF_apply (y : FVec Ideal S100000x128 .f32) (k : Fin 640000) :
    keepF y e (ix2 k (0 : Fin 1)) =
      keepAt
        (∑ d : Fin 128, y (ix2 (clampRow 100000 (by decide) (nidx (srcV e) (ix2 k (0 : Fin 1)))) d)
          * y (ix2 (clampRow 100000 (by decide) (nidx (dstV e) (ix2 k (0 : Fin 1)))) d))
        (FloatOps.sqrt (F := Ideal) (φ := .f32)
          (∑ d : Fin 128, y (ix2 (clampRow 100000 (by decide) (nidx (srcV e) (ix2 k (0 : Fin 1)))) d)
            * y (ix2 (clampRow 100000 (by decide) (nidx (srcV e) (ix2 k (0 : Fin 1)))) d)))
        (FloatOps.sqrt (F := Ideal) (φ := .f32)
          (∑ d : Fin 128, y (ix2 (clampRow 100000 (by decide) (nidx (dstV e) (ix2 k (0 : Fin 1)))) d)
            * y (ix2 (clampRow 100000 (by decide) (nidx (dstV e) (ix2 k (0 : Fin 1)))) d))) := by
  unfold keepF edgeKeep
  show keepAt (rowDot _ _ k) (gCol _ _ (ix2 k (0 : Fin 1))) (gCol _ _ (ix2 k (0 : Fin 1))) = _
  rw [gCol_apply, gCol_apply]
  unfold rowDot rowNorm
  simp only [gRows_apply]

/-- The kernel's keep bit at edge k. -/
private theorem keepV_apply (k : Fin 640000) :
    keepV x e p1 p2 p3 (ix1 k) = FloatOps.cmpf (F := Ideal) (φ := .f32) .oge (keepF (xnewV x e p1 p2 p3) e (ix2 k (0 : Fin 1))) (Ideal.ofBits .f32 0x3F000000#32) := by
  unfold keepV
  rw [cmpf_apply]
  generalize keepF (xnewV x e p1 p2 p3) e = z
  rw [shapeCast_apply z Cert.KernelIdeal.Gen.shapeCasts_S640000x1_S640000 (ix1 k) (ix2 k (0 : Fin 1))
    (by rw [Shape.rowMajor_val_two, Shape.rowMajor_val_one]; show k.val * 1 + 0 = k.val; omega)]
  rfl

/-! ## The reference's two gathers at an edge -/
/-- The reference's vector gather at edge k: the entry at the clamped start index. -/
private theorem refVec_apply (v : FVec Ideal S100000 .f32) (i : IVec S640000x1 32) (k : Fin 640000) :
    Host.gather Cert.ReferenceIdeal.gather_S100000_S640000x1_S640000_n_0_n_n_0_1_1 v i (ix1 k)
      = v (ix1 (clampRow 100000 (by decide) (i (ix2 k (0 : Fin 1))))) := by
  have h := StableHlo.Predicate.gather_take Cert.ReferenceIdeal.gather_S100000_S640000x1_S640000_n_0_n_n_0_1_1
    rfl rfl rfl rfl v i k (by decide)
  have h1 : (Shape.Idx.ofFin k : (⟨1, ![640000]⟩ : Shape).Idx) = ix1 k := by
    funext a; match a with | ⟨0, _⟩ => rfl
  have h2 : (StableHlo.Predicate.ixP k : (⟨2, ![640000, 1]⟩ : Shape).Idx) = ix2 k (0 : Fin 1) := by
    funext a; match a with | ⟨0, _⟩ => rfl | ⟨1, _⟩ => rfl
  rw [← h1, h]
  refine congrArg v (funext fun a => ?_)
  match a with
  | ⟨0, _⟩ =>
    refine Fin.ext ?_
    show min (i (StableHlo.Predicate.ixP k)).toInt.toNat (100000 - 1) = min (i (ix2 k (0 : Fin 1))).toInt.toNat (100000 - 1)
    rw [h2]

/-- The reference's row gather at an index: row of the clamped start index, same column. -/
private theorem refRows_apply (y : FVec Ideal S100000x128 .f32) (i : IVec S640000x1 32) (k : Fin 640000) (d : Fin 128) :
    Host.gather Cert.ReferenceIdeal.gather_S100000x128_S640000x1_S640000x128_1_0_n_n_0_1_1128 y i (ix2 k d)
      = y (ix2 (clampRow 100000 (by decide) (i (ix2 k (0 : Fin 1)))) d) :=
  gather_rows_apply (by decide) _ rfl rfl rfl rfl rfl y i k d

/-! ## Both sides are one cosine test of the edge's two clamped rows -/
/-- The cosine test of edge k over a feature array y: whether the inner product of the edge's two (clamped) rows,
    divided by the product of their norms (each kept above the small constant), reaches the threshold. -/
private def cosBit (y : FVec Ideal S100000x128 .f32) (s t : Fin 100000) : BitVec 1 :=
  FloatOps.cmpf (F := Ideal) (φ := .f32) .oge
    (Ideal.div (∑ d : Fin 128, y (ix2 s d) * y (ix2 t d))
      (max (Ideal.sqrt (∑ d : Fin 128, y (ix2 s d) * y (ix2 s d))) (Ideal.ofBits .f32 0x322BCC77#32)
        * max (Ideal.sqrt (∑ d : Fin 128, y (ix2 t d) * y (ix2 t d))) (Ideal.ofBits .f32 0x322BCC77#32)))
    (Ideal.ofBits .f32 0x3DCCCCCD#32)

/-- The kernel's per-edge float is the cosine test's bit as 0 or 1. -/
private theorem keepF_eq_bit (y : FVec Ideal S100000x128 .f32) (k : Fin 640000) :
    keepF y e (ix2 k (0 : Fin 1)) = bitF (cosBit y (clampRow 100000 (by decide) (nidx (srcV e) (ix2 k (0 : Fin 1))))
      (clampRow 100000 (by decide) (nidx (dstV e) (ix2 k (0 : Fin 1))))) := by
  rw [keepF_apply]
  rfl

/-- The reference's keep bit at edge k is the cosine test over its own feature array. -/
private theorem ref_apply (k : Fin 640000) :
    val_main_v112 (F := Ideal) x e p1 p2 p3 (ix1 k)
      = cosBit (val_main_v71 (F := Ideal) x e p1 p2 p3) (clampRow 100000 (by decide) (nidx (srcV e) (ix2 k (0 : Fin 1))))
          (clampRow 100000 (by decide) (nidx (dstV e) (ix2 k (0 : Fin 1)))) := by
  have h108 : ∀ d : Fin 128, idx_main_v108 (ix1 k) d = ix2 k d := fun d => by
    funext a; match a with | ⟨0, _⟩ => rfl | ⟨1, _⟩ => rfl
  have h73 : ∀ (n : Fin 100000) (d : Fin 128), idx_main_v73 (ix1 n) d = ix2 n d := fun n d => by
    funext a; match a with | ⟨0, _⟩ => rfl | ⟨1, _⟩ => rfl
  rw [val_main_v112_apply, val_main_v111_apply, val_main_cst_31_apply, val_main_v110_apply, val_main_v109_apply,
    val_main_v83_apply, val_main_v92_apply, val_main_v82_apply, val_main_v91_apply, val_main_cst_22_apply,
    val_main_cst_25_apply, val_main_v108_apply, val_main_cst_30_apply]
  unfold val_main_v81 val_main_v90
  rw [idx_v80, idx_v89, refVec_apply, refVec_apply, val_main_v74_apply, val_main_v74_apply, val_main_v73_apply,
    val_main_v73_apply, val_main_cst_19_apply]
  simp only [val_main_v72_apply, val_main_v107_apply, val_main_v99, val_main_v106, idx_v98, idx_v105, h108, h73,
    refRows_apply]
  unfold cosBit
  simp only [Ideal.ofBits_def, Ideal.ofBits_zero_f32, zero_add, Ideal.hostDivf_def, Ideal.mulf_def, Ideal.maximumf_def,
    Ideal.hostUnary_sqrt_def]

/-- On admissible inputs the kernel's keep mask is the reference's. -/
theorem keep_eq (h : Admissible x p1 p2 p3) : keepV x e p1 p2 p3 = val_main_v112 (F := Ideal) x e p1 p2 p3 := by
  funext i
  obtain ⟨k, rfl⟩ : ∃ k : Fin 640000, i = ix1 k := ⟨i 0, eq_ix1 i⟩
  rw [keepV_apply, keepF_eq_bit, bit_of_bitF, ref_apply, xnew_eq x e p1 p2 p3 h]

end Cert.Bridge

end
-- ==== Proof.lean ====
/-
  The kernel computes, in five launches with host gathers and scatter-sums between them, what the reference computes
  in plain array operations: the prompted node features `x + (mean of the selected prompts)` and, per edge, whether the
  cosine of its two prompted rows reaches the threshold.

  Both sides select prompts by the same three masks (similarity, degree, neither), computed from the scatter-sum `c` of
  the per-edge cosines of the raw rows and the in-degree. They differ in three places, and each is an identity of real
  arithmetic on the inputs the precondition admits (every float entry a real, no zero row of `x`, no zero entry of a
  prompt):
  * the per-edge cosine: the kernel multiplies the inner product of the two raw rows by the two inverse norms, the
    reference takes the inner product of the two normalised rows — equal since the norms are positive reals;
  * the number of selected prompts: the kernel adds the three masks, the reference counts the slots whose masked prompt
    row has no zero entry — equal since a prompt row has no zero entry, so a slot is all-nonzero exactly when its
    mask is set; at least one mask is always set, so the reference's guard on a positive count always passes;
  * the keep mask: the kernel stores the comparison as the float 0 or 1 and compares it with one half afterwards.
  The frames of both kernel programs are the generated ones; the reference's is its run with the results dropped.
-/
import proofs.«415622_j61924838473938_2_alg».proof.Defs
import proofs.«415622_j61924838473938_2_alg».proof.Proof.Gen.Kernel
import proofs.«415622_j61924838473938_2_alg».proof.Proof.Gen.Kernel.Frame
import proofs.«415622_j61924838473938_2_alg».proof.Proof.Gen.KernelIdeal
import proofs.«415622_j61924838473938_2_alg».proof.Proof.Gen.KernelIdeal.Frame
import proofs.«415622_j61924838473938_2_alg».proof.Proof.Gen.ReferenceIdeal
import proofs.«415622_j61924838473938_2_alg».proof.Proof.Gen.Pre_finite_inputs
import proofs.«415622_j61924838473938_2_alg».proof.Proof.KRun
import proofs.«415622_j61924838473938_2_alg».proof.Proof.KChainB
import proofs.«415622_j61924838473938_2_alg».proof.Proof.RefRun
import proofs.«415622_j61924838473938_2_alg».proof.Proof.RefRead
import proofs.«415622_j61924838473938_2_alg».proof.Proof.PreFacts
import proofs.«415622_j61924838473938_2_alg».proof.Proof.BridgeFinal
import proofs.«415622_j61924838473938_2_alg».proof.Proof.BridgeKeep
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The ideal pass rewrote nothing. -/
theorem preserves : Cert.preserves_Kernel_KernelIdeal := trivial

/-- Both programs end with the prompted features and the keep mask of the arguments: the kernel's run names its two
    result buffers at the last boundary's contents, which are those two functions of the arguments; the reference's
    run names its results at its operations' composed term, which is the same two functions on admissible inputs. -/
theorem algebraic : Cert.algebraic_KernelIdeal_ReferenceIdeal := by
  intro m ρ m' ρ' hpre hagree
  have hadm : ∀ c : Dev Cert.KernelIdeal.nD, Cert.KernelIdeal.KVal.Admissible
      (Cert.KernelIdeal.KChainB.ax m c) (Cert.KernelIdeal.KChainB.ap1 m c) (Cert.KernelIdeal.KChainB.ap2 m c) (Cert.KernelIdeal.KChainB.ap3 m c) :=
    fun c => Cert.PreFacts.admissible_of_pre _ (Cert.KernelIdeal.KChainB.ae m c) _ _ _ (hpre c)
  refine ⟨fun c => Cert.KernelIdeal.KVal.xnewV (Cert.KernelIdeal.KChainB.ax m c) (Cert.KernelIdeal.KChainB.ae m c)
      (Cert.KernelIdeal.KChainB.ap1 m c) (Cert.KernelIdeal.KChainB.ap2 m c) (Cert.KernelIdeal.KChainB.ap3 m c),
    fun c => Cert.KernelIdeal.KVal.keepV (Cert.KernelIdeal.KChainB.ax m c) (Cert.KernelIdeal.KChainB.ae m c)
      (Cert.KernelIdeal.KChainB.ap1 m c) (Cert.KernelIdeal.KChainB.ap2 m c) (Cert.KernelIdeal.KChainB.ap3 m c), ?_, ?_⟩
  · refine (θ_run Cert.KernelIdeal.defs _ _).mono (fun r h c => ?_) (Cert.KernelIdeal.GenP.run_W10 (F := Ideal) m ρ)
    obtain ⟨h46, h79, hargs⟩ := h c
    exact ⟨h46.trans (Cert.KernelIdeal.KChainB.W10_v46 m ρ c), h79.trans (Cert.KernelIdeal.KChainB.W10_v79 m ρ c), hargs⟩
  · refine (θ_run Cert.ReferenceIdeal.defs _ _).mono (fun r h c => ?_) (Cert.ReferenceIdeal.ValueP.run (F := Ideal) m' ρ')
    obtain ⟨h71, h112, hargs⟩ := h c
    obtain ⟨e0, e1, e2, e3, e4⟩ := hagree c
    refine ⟨h71.trans ?_, h112.trans ?_, hargs⟩
    · rw [Cert.ReferenceIdeal.ReadP.val_main_v71_eq, e0, e1, e2, e3, e4]
      exact (Cert.Bridge.xnew_eq _ _ _ _ _ (hadm c)).symm
    · rw [Cert.ReferenceIdeal.ReadP.val_main_v112_eq, e0, e1, e2, e3, e4]
      exact (Cert.Bridge.keep_eq _ _ _ _ _ (hadm c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
